-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x300x25 : Shape := ⟨4, ![64, 64, 300, 25]⟩
abbrev S1x25x64 : Shape := ⟨3, ![1, 25, 64]⟩
abbrev S64x64 : Shape := ⟨2, ![64, 64]⟩
abbrev S1x1x64 : Shape := ⟨3, ![1, 1, 64]⟩
abbrev S1600 : Shape := ⟨1, ![1600]⟩
abbrev S_ : Shape := ⟨0, ![]⟩

class Facts : Prop where
  bcast_S_S64x64x300x25 : S_.BroadcastsInDim S64x64x300x25 (![] : Fin 0 → Fin S64x64x300x25.rank)
  reducesTo_S64x64x300x25_S_d0_1_2_3 : S64x64x300x25.ReducesTo [0, 1, 2, 3] S_
  h_S_ : 0 < S_.numel
  bcast_S_S1x25x64 : S_.BroadcastsInDim S1x25x64 (![] : Fin 0 → Fin S1x25x64.rank)
  reducesTo_S1x25x64_S_d0_1_2 : S1x25x64.ReducesTo [0, 1, 2] S_
  bcast_S_S64x64 : S_.BroadcastsInDim S64x64 (![] : Fin 0 → Fin S64x64.rank)
  reducesTo_S64x64_S_d0_1 : S64x64.ReducesTo [0, 1] S_
  bcast_S_S1x1x64 : S_.BroadcastsInDim S1x1x64 (![] : Fin 0 → Fin S1x1x64.rank)
  reducesTo_S1x1x64_S_d0_1_2 : S1x1x64.ReducesTo [0, 1, 2] S_
  bcast_S_S1600 : S_.BroadcastsInDim S1600 (![] : Fin 0 → Fin S1600.rank)
  reducesTo_S1600_S_d0 : S1600.ReducesTo [0] S_

variable [Facts]

def fn_part2 {F : FTy → Type} [FloatOps F] (main_arg7 : IVec S1600 32) (main_v28 : IVec S_ 1) (main_v33 : IVec S1600 1) : IVec S_ 1 :=
  let main_c_12 : IVec S_ 1 := constantI S_ 1 1#1
  let main_v34 : IVec S_ 1 := (fun x v => Host.reduce IntOp.andi x v reducesTo_S1600_S_d0 h_S_) main_v33 main_c_12
  let main_v35 : IVec S_ 1 := andi main_v28 main_v34
  let main_c_13 : IVec S_ 32 := constantI S_ 32 0#32
  let main_v36 : IVec S1600 32 := broadcastInDim S1600 ![] bcast_S_S1600 main_c_13
  let main_v37 : IVec S1600 1 := cmpi .sge main_arg7 main_v36
  let main_c_14 : IVec S_ 32 := constantI S_ 32 1600#32
  let main_v38 : IVec S1600 32 := broadcastInDim S1600 ![] bcast_S_S1600 main_c_14
  let main_v39 : IVec S1600 1 := cmpi .slt main_arg7 main_v38
  let main_v40 : IVec S1600 1 := andi main_v37 main_v39
  let main_c_15 : IVec S_ 1 := constantI S_ 1 1#1
  let main_v41 : IVec S_ 1 := (fun x v => Host.reduce IntOp.andi x v reducesTo_S1600_S_d0 h_S_) main_v40 main_c_15
  let main_v42 : IVec S_ 1 := andi main_v35 main_v41
  main_v42

def fn_part1 {F : FTy → Type} [FloatOps F] (main_arg4 : FVec F S1600 .f32) (main_arg5 : FVec F S1600 .f32) (main_arg6 : IVec S1600 32) (main_arg7 : IVec S1600 32) (main_v13 : IVec S_ 1) (main_v16 : IVec S1x1x64 1) : IVec S_ 1 :=
  let main_c_5 : IVec S_ 1 := constantI S_ 1 1#1
  let main_v17 : IVec S_ 1 := (fun x v => Host.reduce IntOp.andi x v reducesTo_S1x1x64_S_d0_1_2 h_S_) main_v16 main_c_5
  let main_v18 : IVec S_ 1 := andi main_v13 main_v17
  let main_v19 : FVec F S1600 .f32 := Host.absf main_arg4
  let main_cst_6 : FVec F S_ .f32 := constant S_ .f32 0x7F800000#32
  let main_v20 : FVec F S1600 .f32 := broadcastInDim S1600 ![] bcast_S_S1600 main_cst_6
  let main_v21 : IVec S1600 1 := cmpf .olt main_v19 main_v20
  let main_c_7 : IVec S_ 1 := constantI S_ 1 1#1
  let main_v22 : IVec S_ 1 := (fun x v => Host.reduce IntOp.andi x v reducesTo_S1600_S_d0 h_S_) main_v21 main_c_7
  let main_v23 : IVec S_ 1 := andi main_v18 main_v22
  let main_v24 : FVec F S1600 .f32 := Host.absf main_arg5
  let main_cst_8 : FVec F S_ .f32 := constant S_ .f32 0x7F800000#32
  let main_v25 : FVec F S1600 .f32 := broadcastInDim S1600 ![] bcast_S_S1600 main_cst_8
  let main_v26 : IVec S1600 1 := cmpf .olt main_v24 main_v25
  let main_c_9 : IVec S_ 1 := constantI S_ 1 1#1
  let main_v27 : IVec S_ 1 := (fun x v => Host.reduce IntOp.andi x v reducesTo_S1600_S_d0 h_S_) main_v26 main_c_9
  let main_v28 : IVec S_ 1 := andi main_v23 main_v27
  let main_c_10 : IVec S_ 32 := constantI S_ 32 0#32
  let main_v29 : IVec S1600 32 := broadcastInDim S1600 ![] bcast_S_S1600 main_c_10
  let main_v30 : IVec S1600 1 := cmpi .sge main_arg6 main_v29
  let main_c_11 : IVec S_ 32 := constantI S_ 32 1600#32
  let main_v31 : IVec S1600 32 := broadcastInDim S1600 ![] bcast_S_S1600 main_c_11
  let main_v32 : IVec S1600 1 := cmpi .slt main_arg6 main_v31
  let main_v33 : IVec S1600 1 := andi main_v30 main_v32
  fn_part2 (F := F) main_arg7 main_v28 main_v33

def fn {F : FTy → Type} [FloatOps F] (main_arg0 : FVec F S64x64x300x25 .f32) (main_arg1 : FVec F S1x25x64 .f32) (main_arg2 : FVec F S64x64 .f32) (main_arg3 : FVec F S1x1x64 .f32) (main_arg4 : FVec F S1600 .f32) (main_arg5 : FVec F S1600 .f32) (main_arg6 : IVec S1600 32) (main_arg7 : IVec S1600 32) : IVec S_ 1 :=
  let main_v0 : FVec F S64x64x300x25 .f32 := Host.absf main_arg0
  let main_cst : FVec F S_ .f32 := constant S_ .f32 0x7F800000#32
  let main_v1 : FVec F S64x64x300x25 .f32 := broadcastInDim S64x64x300x25 ![] bcast_S_S64x64x300x25 main_cst
  let main_v2 : IVec S64x64x300x25 1 := cmpf .olt main_v0 main_v1
  let main_c : IVec S_ 1 := constantI S_ 1 1#1
  let main_v3 : IVec S_ 1 := (fun x v => Host.reduce IntOp.andi x v reducesTo_S64x64x300x25_S_d0_1_2_3 h_S_) main_v2 main_c
  let main_v4 : FVec F S1x25x64 .f32 := Host.absf main_arg1
  let main_cst_0 : FVec F S_ .f32 := constant S_ .f32 0x7F800000#32
  let main_v5 : FVec F S1x25x64 .f32 := broadcastInDim S1x25x64 ![] bcast_S_S1x25x64 main_cst_0
  let main_v6 : IVec S1x25x64 1 := cmpf .olt main_v4 main_v5
  let main_c_1 : IVec S_ 1 := constantI S_ 1 1#1
  let main_v7 : IVec S_ 1 := (fun x v => Host.reduce IntOp.andi x v reducesTo_S1x25x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x1x64 .f32 := Host.absf main_arg3
  let main_cst_4 : FVec F S_ .f32 := constant S_ .f32 0x7F800000#32
  let main_v15 : FVec F S1x1x64 .f32 := broadcastInDim S1x1x64 ![] bcast_S_S1x1x64 main_cst_4
  let main_v16 : IVec S1x1x64 1 := cmpf .olt main_v14 main_v15
  fn_part1 (F := F) main_arg4 main_arg5 main_arg6 main_arg7 main_v13 main_v16
-- ==== Kernel.lean ====
abbrev S64x64x300x25 : Shape := ⟨4, ![64, 64, 300, 25]⟩
abbrev S1x25x64 : Shape := ⟨3, ![1, 25, 64]⟩
abbrev S64x64 : Shape := ⟨2, ![64, 64]⟩
abbrev S1x1x64 : Shape := ⟨3, ![1, 1, 64]⟩
abbrev S1600 : Shape := ⟨1, ![1600]⟩
abbrev S64x300x25x64 : Shape := ⟨4, ![64, 300, 25, 64]⟩
abbrev S19200x1600 : Shape := ⟨2, ![19200, 1600]⟩
abbrev S25x64 : Shape := ⟨2, ![25, 64]⟩
abbrev S_ : Shape := ⟨0, ![]⟩
abbrev S25x64x1 : Shape := ⟨3, ![25, 64, 1]⟩
abbrev S1x64x64 : Shape := ⟨3, ![1, 64, 64]⟩
abbrev S25x64x64 : Shape := ⟨3, ![25, 64, 64]⟩
abbrev S25x25 : Shape := ⟨2, ![25, 25]⟩
abbrev S25x64x1x64 : Shape := ⟨4, ![25, 64, 1, 64]⟩
abbrev S25x1x25x1 : Shape := ⟨4, ![25, 1, 25, 1]⟩
abbrev S25x64x25x64 : Shape := ⟨4, ![25, 64, 25, 64]⟩
abbrev S1600x1600 : Shape := ⟨2, ![1600, 1600]⟩
abbrev S1600x1 : Shape := ⟨2, ![1600, 1]⟩
abbrev S1 : Shape := ⟨1, ![1]⟩
abbrev S1x1 : Shape := ⟨2, ![1, 1]⟩
abbrev S64 : Shape := ⟨1, ![64]⟩
abbrev S1x64 : Shape := ⟨2, ![1, 64]⟩
abbrev S1x1600 : Shape := ⟨2, ![1, 1600]⟩
abbrev S2x8x1600 : Shape := ⟨3, ![2, 8, 1600]⟩
abbrev S640x1600 : Shape := ⟨2, ![640, 1600]⟩
abbrev S1x8x1600 : Shape := ⟨3, ![1, 8, 1600]⟩
abbrev S1x1x1600 : Shape := ⟨3, ![1, 1, 1600]⟩

abbrev nBuf : Space → Nat
  | .hbm => 117
  | .vmem => 22
  | .smem => 0
  | _ => 0

abbrev bufTy : (tb : Table) → Fin (tcTables nBuf tb) → BufTy
  | .hbm, ⟨0, _⟩ => ⟨S64x64x300x25, .f32⟩
  | .hbm, ⟨1, _⟩ => ⟨S1x25x64, .f32⟩
  | .hbm, ⟨2, _⟩ => ⟨S64x64, .f32⟩
  | .hbm, ⟨3, _⟩ => ⟨S1x1x64, .f32⟩
  | .hbm, ⟨4, _⟩ => ⟨S1600, .f32⟩
  | .hbm, ⟨5, _⟩ => ⟨S1600, .f32⟩
  | .hbm, ⟨6, _⟩ => ⟨S1600, .i32⟩
  | .hbm, ⟨7, _⟩ => ⟨S1600, .i32⟩
  | .hbm, ⟨8, _⟩ => ⟨S64x300x25x64, .f32⟩
  | .hbm, ⟨9, _⟩ => ⟨S19200x1600, .f32⟩
  | .hbm, ⟨10, _⟩ => ⟨S25x64, .f32⟩
  | .hbm, ⟨11, _⟩ => ⟨S25x64, .f32⟩
  | .hbm, ⟨12, _⟩ => ⟨S_, .f32⟩
  | .hbm, ⟨13, _⟩ => ⟨S25x64, .f32⟩
  | .hbm, ⟨14, _⟩ => ⟨S25x64, .f32⟩
  | .hbm, ⟨15, _⟩ => ⟨S25x64x1, .f32⟩
  | .hbm, ⟨16, _⟩ => ⟨S1x64x64, .f32⟩
  | .hbm, ⟨17, _⟩ => ⟨S25x64x64, .f32⟩
  | .hbm, ⟨18, _⟩ => ⟨S25x64x64, .f32⟩
  | .hbm, ⟨19, _⟩ => ⟨S25x64x64, .f32⟩
  | .hbm, ⟨20, _⟩ => ⟨S25x25, .i32⟩
  | .hbm, ⟨21, _⟩ => ⟨S25x25, .i32⟩
  | .hbm, ⟨22, _⟩ => ⟨S_, .i32⟩
  | .hbm, ⟨23, _⟩ => ⟨S25x25, .i32⟩
  | .hbm, ⟨24, _⟩ => ⟨S25x25, .i32⟩
  | .hbm, ⟨25, _⟩ => ⟨S25x25, .i1⟩
  | .hbm, ⟨26, _⟩ => ⟨S25x25, .f32⟩
  | .hbm, ⟨27, _⟩ => ⟨S25x64x1x64, .f32⟩
  | .hbm, ⟨28, _⟩ => ⟨S25x1x25x1, .f32⟩
  | .hbm, ⟨29, _⟩ => ⟨S25x64x25x64, .f32⟩
  | .hbm, ⟨30, _⟩ => ⟨S25x64x25x64, .f32⟩
  | .hbm, ⟨31, _⟩ => ⟨S25x64x25x64, .f32⟩
  | .hbm, ⟨32, _⟩ => ⟨S1600x1600, .f32⟩
  | .hbm, ⟨33, _⟩ => ⟨S_, .i32⟩
  | .hbm, ⟨34, _⟩ => ⟨S1600, .i32⟩
  | .hbm, ⟨35, _⟩ => ⟨S1600, .i1⟩
  | .hbm, ⟨36, _⟩ => ⟨S_, .i32⟩
  | .hbm, ⟨37, _⟩ => ⟨S1600, .i32⟩
  | .hbm, ⟨38, _⟩ => ⟨S1600, .i32⟩
  | .hbm, ⟨39, _⟩ => ⟨S1600, .i32⟩
  | .hbm, ⟨40, _⟩ => ⟨S1600x1, .i32⟩
  | .hbm, ⟨41, _⟩ => ⟨S1, .i32⟩
  | .hbm, ⟨42, _⟩ => ⟨S_, .i32⟩
  | .hbm, ⟨43, _⟩ => ⟨S1600x1, .i32⟩
  | .hbm, ⟨44, _⟩ => ⟨S1600x1, .i1⟩
  | .hbm, ⟨45, _⟩ => ⟨S1x1, .i32⟩
  | .hbm, ⟨46, _⟩ => ⟨S1600x1, .i32⟩
  | .hbm, ⟨47, _⟩ => ⟨S1600x1, .i1⟩
  | .hbm, ⟨48, _⟩ => ⟨S1600x1, .i1⟩
  | .hbm, ⟨49, _⟩ => ⟨S_, .i1⟩
  | .hbm, ⟨50, _⟩ => ⟨S1600, .i1⟩
  | .hbm, ⟨51, _⟩ => ⟨S1600x1600, .f32⟩
  | .hbm, ⟨52, _⟩ => ⟨S1600x1600, .i1⟩
  | .hbm, ⟨53, _⟩ => ⟨S_, .f32⟩
  | .hbm, ⟨54, _⟩ => ⟨S1600x1600, .f32⟩
  | .hbm, ⟨55, _⟩ => ⟨S1600x1600, .f32⟩
  | .hbm, ⟨56, _⟩ => ⟨S_, .f32⟩
  | .hbm, ⟨57, _⟩ => ⟨S1600x1600, .f32⟩
  | .hbm, ⟨58, _⟩ => ⟨S_, .i32⟩
  | .hbm, ⟨59, _⟩ => ⟨S1600, .i32⟩
  | .hbm, ⟨60, _⟩ => ⟨S1600, .i1⟩
  | .hbm, ⟨61, _⟩ => ⟨S_, .i32⟩
  | .hbm, ⟨62, _⟩ => ⟨S1600, .i32⟩
  | .hbm, ⟨63, _⟩ => ⟨S1600, .i32⟩
  | .hbm, ⟨64, _⟩ => ⟨S1600, .i32⟩
  | .hbm, ⟨65, _⟩ => ⟨S1600x1, .i32⟩
  | .hbm, ⟨66, _⟩ => ⟨S1600x1600, .f32⟩
  | .hbm, ⟨67, _⟩ => ⟨S1600x1600, .bf16⟩
  | .hbm, ⟨68, _⟩ => ⟨S64, .f32⟩
  | .hbm, ⟨69, _⟩ => ⟨S1x64, .f32⟩
  | .hbm, ⟨70, _⟩ => ⟨S25x64, .f32⟩
  | .hbm, ⟨71, _⟩ => ⟨S1600, .f32⟩
  | .hbm, ⟨72, _⟩ => ⟨S_, .i32⟩
  | .hbm, ⟨73, _⟩ => ⟨S1600, .i32⟩
  | .hbm, ⟨74, _⟩ => ⟨S1600, .i1⟩
  | .hbm, ⟨75, _⟩ => ⟨S_, .i32⟩
  | .hbm, ⟨76, _⟩ => ⟨S1600, .i32⟩
  | .hbm, ⟨77, _⟩ => ⟨S1600, .i32⟩
  | .hbm, ⟨78, _⟩ => ⟨S1600, .i32⟩
  | .hbm, ⟨79, _⟩ => ⟨S1600x1, .i32⟩
  | .hbm, ⟨80, _⟩ => ⟨S1600, .f32⟩
  | .hbm, ⟨81, _⟩ => ⟨S1x1600, .f32⟩
  | .hbm, ⟨82, _⟩ => ⟨S19200x1600, .bf16⟩
  | .hbm, ⟨83, _⟩ => ⟨S2x8x1600, .f32⟩
  | .hbm, ⟨84, _⟩ => ⟨S2x8x1600, .f32⟩
  | .hbm, ⟨85, _⟩ => ⟨S1x1x1600, .f32⟩
  | .hbm, ⟨86, _⟩ => ⟨S1600, .f32⟩
  | .hbm, ⟨87, _⟩ => ⟨S1x1x1600, .f32⟩
  | .hbm, ⟨88, _⟩ => ⟨S1600, .f32⟩
  | .hbm, ⟨89, _⟩ => ⟨S1600, .f32⟩
  | .hbm, ⟨90, _⟩ => ⟨S1x1x1600, .f32⟩
  | .hbm, ⟨91, _⟩ => ⟨S1600, .f32⟩
  | .hbm, ⟨92, _⟩ => ⟨S1x1x1600, .f32⟩
  | .hbm, ⟨93, _⟩ => ⟨S1600, .f32⟩
  | .hbm, ⟨94, _⟩ => ⟨S1600, .f32⟩
  | .hbm, ⟨95, _⟩ => ⟨S_, .f32⟩
  | .hbm, ⟨96, _⟩ => ⟨S1600, .f32⟩
  | .hbm, ⟨97, _⟩ => ⟨S1600, .f32⟩
  | .hbm, ⟨98, _⟩ => ⟨S_, .f32⟩
  | .hbm, ⟨99, _⟩ => ⟨S1600, .f32⟩
  | .hbm, ⟨100, _⟩ => ⟨S1600, .f32⟩
  | .hbm, ⟨101, _⟩ => ⟨S1600, .f32⟩
  | .hbm, ⟨102, _⟩ => ⟨S1600, .f32⟩
  | .hbm, ⟨103, _⟩ => ⟨S_, .f32⟩
  | .hbm, ⟨104, _⟩ => ⟨S1600, .f32⟩
  | .hbm, ⟨105, _⟩ => ⟨S1600, .f32⟩
  | .hbm, ⟨106, _⟩ => ⟨S_, .f32⟩
  | .hbm, ⟨107, _⟩ => ⟨S1600, .f32⟩
  | .hbm, ⟨108, _⟩ => ⟨S1600, .f32⟩
  | .hbm, ⟨109, _⟩ => ⟨S1600, .f32⟩
  | .hbm, ⟨110, _⟩ => ⟨S1x1600, .f32⟩
  | .hbm, ⟨111, _⟩ => ⟨S1x1600, .f32⟩
  | .hbm, ⟨112, _⟩ => ⟨S1x1600, .f32⟩
  | .hbm, ⟨113, _⟩ => ⟨S1x1600, .f32⟩
  | .hbm, ⟨114, _⟩ => ⟨S19200x1600, .f32⟩
  | .hbm, ⟨115, _⟩ => ⟨S64x300x25x64, .f32⟩
  | .hbm, ⟨116, _⟩ => ⟨S64x64x300x25, .f32⟩
  | .local _ .vmem, ⟨0, _⟩ => ⟨S640x1600, .f32⟩
  | .local _ .vmem, ⟨1, _⟩ => ⟨S640x1600, .f32⟩
  | .local _ .vmem, ⟨2, _⟩ => ⟨S1600x1600, .bf16⟩
  | .local _ .vmem, ⟨3, _⟩ => ⟨S1x1600, .f32⟩
  | .local _ .vmem, ⟨4, _⟩ => ⟨S640x1600, .bf16⟩
  | .local _ .vmem, ⟨5, _⟩ => ⟨S640x1600, .bf16⟩
  | .local _ .vmem, ⟨6, _⟩ => ⟨S1x8x1600, .f32⟩
  | .local _ .vmem, ⟨7, _⟩ => ⟨S1x8x1600, .f32⟩
  | .local _ .vmem, ⟨8, _⟩ => ⟨S1x8x1600, .f32⟩
  | .local _ .vmem, ⟨9, _⟩ => ⟨S1x8x1600, .f32⟩
  | .local _ .vmem, ⟨10, _⟩ => ⟨S1x1600, .f32⟩
  | .local _ .vmem, ⟨11, _⟩ => ⟨S1x1600, .f32⟩
  | .local _ .vmem, ⟨12, _⟩ => ⟨S640x1600, .bf16⟩
  | .local _ .vmem, ⟨13, _⟩ => ⟨S640x1600, .bf16⟩
  | .local _ .vmem, ⟨14, _⟩ => ⟨S640x1600, .f32⟩
  | .local _ .vmem, ⟨15, _⟩ => ⟨S640x1600, .f32⟩
  | .local _ .vmem, ⟨16, _⟩ => ⟨S1x1600, .f32⟩
  | .local _ .vmem, ⟨17, _⟩ => ⟨S1x1600, .f32⟩
  | .local _ .vmem, ⟨18, _⟩ => ⟨S1x1600, .f32⟩
  | .local _ .vmem, ⟨19, _⟩ => ⟨S1x1600, .f32⟩
  | .local _ .vmem, ⟨20, _⟩ => ⟨S640x1600, .f32⟩
  | .local _ .vmem, ⟨21, _⟩ => ⟨S640x1600, .f32⟩
  | _, _ => ⟨S64x64x300x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v23 : Ref sig .tc := ⟨.hbm, 55, rfl⟩
abbrev main_cst_0 : Ref sig .tc := ⟨.hbm, 56, rfl⟩
abbrev main_v24 : Ref sig .tc := ⟨.hbm, 57, rfl⟩
abbrev main_c_1 : Ref sig .tc := ⟨.hbm, 58, rfl⟩
abbrev main_v25 : Ref sig .tc := ⟨.hbm, 59, rfl⟩
abbrev main_v26 : Ref sig .tc := ⟨.hbm, 60, rfl⟩
abbrev main_c_2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_3 : Ref sig .tc := ⟨.hbm, 72, rfl⟩
abbrev main_v37 : Ref sig .tc := ⟨.hbm, 73, rfl⟩
abbrev main_v38 : Ref sig .tc := ⟨.hbm, 74, rfl⟩
abbrev main_c_4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45_0 : Ref sig .tc := ⟨.hbm, 82, rfl⟩
abbrev main_v45_1 : Ref sig .tc := ⟨.hbm, 83, rfl⟩
abbrev main_v45_2 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_5 : Ref sig .tc := ⟨.hbm, 95, rfl⟩
abbrev main_v56 : Ref sig .tc := ⟨.hbm, 96, rfl⟩
abbrev main_v57 : Ref sig .tc := ⟨.hbm, 97, rfl⟩
abbrev main_cst_6 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_7 : Ref sig .tc := ⟨.hbm, 103, rfl⟩
abbrev main_v62 : Ref sig .tc := ⟨.hbm, 104, rfl⟩
abbrev main_v63 : Ref sig .tc := ⟨.hbm, 105, rfl⟩
abbrev main_cst_8 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 15], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1600x1600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x1600 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x1600 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x1600 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1600 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1600 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1600 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1600 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S640x1600 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S64x64x300x25_S64x300x25x64_0_2_3_1 : S64x64x300x25.Transposes [0, 2, 3, 1] S64x300x25x64
  shapeCasts_S64x300x25x64_S19200x1600 : S64x300x25x64.ShapeCasts S19200x1600
  shapeCasts_S1x25x64_S25x64 : S1x25x64.ShapeCasts S25x64
  bcast_S_S25x64 : S_.BroadcastsInDim S25x64 (![] : Fin 0 → Fin S25x64.rank)
  bcast_S25x64_S25x64x1_0_1 : S25x64.BroadcastsInDim S25x64x1 (![0, 1] : Fin 2 → Fin S25x64x1.rank)
  bcast_S64x64_S1x64x64_1_2 : S64x64.BroadcastsInDim S1x64x64 (![1, 2] : Fin 2 → Fin S1x64x64.rank)
  bcast_S25x64x1_S25x64x64_0_1_2 : S25x64x1.BroadcastsInDim S25x64x64 (![0, 1, 2] : Fin 3 → Fin S25x64x64.rank)
  bcast_S1x64x64_S25x64x64_0_1_2 : S1x64x64.BroadcastsInDim S25x64x64 (![0, 1, 2] : Fin 3 → Fin S25x64x64.rank)
  bcast_S_S25x25 : S_.BroadcastsInDim S25x25 (![] : Fin 0 → Fin S25x25.rank)
  bcast_S25x64x64_S25x64x1x64_0_1_3 : S25x64x64.BroadcastsInDim S25x64x1x64 (![0, 1, 3] : Fin 3 → Fin S25x64x1x64.rank)
  bcast_S25x25_S25x1x25x1_0_2 : S25x25.BroadcastsInDim S25x1x25x1 (![0, 2] : Fin 2 → Fin S25x1x25x1.rank)
  bcast_S25x64x1x64_S25x64x25x64_0_1_2_3 : S25x64x1x64.BroadcastsInDim S25x64x25x64 (![0, 1, 2, 3] : Fin 4 → Fin S25x64x25x64.rank)
  bcast_S25x1x25x1_S25x64x25x64_0_1_2_3 : S25x1x25x1.BroadcastsInDim S25x64x25x64 (![0, 1, 2, 3] : Fin 4 → Fin S25x64x25x64.rank)
  shapeCasts_S25x64x25x64_S1600x1600 : S25x64x25x64.ShapeCasts S1600x1600
  bcast_S_S1600 : S_.BroadcastsInDim S1600 (![] : Fin 0 → Fin S1600.rank)
  bcast_S1600_S1600x1_0 : S1600.BroadcastsInDim S1600x1 (![0] : Fin 1 → Fin S1600x1.rank)
  bcast_S_S1600x1 : S_.BroadcastsInDim S1600x1 (![] : Fin 0 → Fin S1600x1.rank)
  bcast_S1_S1x1_1 : S1.BroadcastsInDim S1x1 (![1] : Fin 1 → Fin S1x1.rank)
  bcast_S1x1_S1600x1_0_1 : S1x1.BroadcastsInDim S1600x1 (![0, 1] : Fin 2 → Fin S1600x1.rank)
  reducesTo_S1600x1_S1600_d1 : S1600x1.ReducesTo [1] S1600
  h_S_ : 0 < S_.numel
  bcast_S1600_S1600x1600_1 : S1600.BroadcastsInDim S1600x1600 (![1] : Fin 1 → Fin S1600x1600.rank)
  bcast_S_S1600x1600 : S_.BroadcastsInDim S1600x1600 (![] : Fin 0 → Fin S1600x1600.rank)
  bitsLt_bf16_f32 : FTy.bits .bf16 < FTy.bits .f32
  shapeCasts_S1x1x64_S64 : S1x1x64.ShapeCasts S64
  shapeCasts_S64_S1x64 : S64.ShapeCasts S1x64
  bcast_S1x64_S25x64_0_1 : S1x64.BroadcastsInDim S25x64 (![0, 1] : Fin 2 → Fin S25x64.rank)
  shapeCasts_S25x64_S1600 : S25x64.ShapeCasts S1600
  shapeCasts_S1600_S1x1600 : S1600.ShapeCasts S1x1600
  inb_S1x1600_S1x1600_0_0 : ∀ a, (![0, 0] : Fin 2 → Nat) a + S1x1600.size a ≤ S1x1600.size a
  h_S1x1600 : 0 < S1x1600.numel
  shapeCasts_S1x1600_S1x1600 : S1x1600.ShapeCasts S1x1600
  inb_S640x1600_S640x1600_0_0 : ∀ a, (![0, 0] : Fin 2 → Nat) a + S640x1600.size a ≤ S640x1600.size a
  h_S640x1600 : 0 < S640x1600.numel
  shapeCasts_S640x1600_S640x1600 : S640x1600.ShapeCasts S640x1600
  inb_S1600x1600_S1600x1600_0_0 : ∀ a, (![0, 0] : Fin 2 → Nat) a + S1600x1600.size a ≤ S1600x1600.size a
  h_S1600x1600 : 0 < S1600x1600.numel
  shapeCasts_S1600x1600_S1600x1600 : S1600x1600.ShapeCasts S1600x1600
  broadcasts_S1x1600_S640x1600 : S1x1600.Broadcasts S640x1600
  packedbf16_S640x1600_S640x1600_0_0 : (Rect.unit (s := S640x1600) ![0, 0] S640x1600.size inb_S640x1600_S640x1600_0_0).PackedRows (EltTy.packing .bf16)
  reduces_S640x1600_S1600 : S640x1600.Reduces [0] S1600
  shapeCasts_S1x1600_S1x1x1600 : S1x1600.ShapeCasts S1x1x1600
  shapeCasts_S1x1x1600_S1x1x1600 : S1x1x1600.ShapeCasts S1x1x1600
  broadcasts_S1x1x1600_S1x8x1600 : S1x1x1600.Broadcasts S1x8x1600
  inb_S1x8x1600_S1x8x1600_0_0_0 : ∀ a, (![0, 0, 0] : Fin 3 → Nat) a + S1x8x1600.size a ≤ S1x8x1600.size a
  h_S1x8x1600 : 0 < S1x8x1600.numel
  slices_S2x8x1600_S1x1x1600_0_0_0 : S2x8x1600.Slices ![0, 0, 0] S1x1x1600
  shapeCasts_S1x1x1600_S1600 : S1x1x1600.ShapeCasts S1600
  slices_S2x8x1600_S1x1x1600_1_0_0 : S2x8x1600.Slices ![1, 0, 0] S1x1x1600
  shapeCasts_S19200x1600_S64x300x25x64 : S19200x1600.ShapeCasts S64x300x25x64
  transposes_S64x300x25x64_S64x64x300x25_0_3_1_2 : S64x300x25x64.Transposes [0, 3, 1, 2] S64x64x300x25
  gather_S1600x1600_S1600x1_S1600x1600_0_1_n_n_1_1_16001_wf : GatherDims.WF S1600x1600 S1600x1 S1600x1600 [0] [1] [] [1] [] 1 ![1600, 1]
  scatter_S1600x1600_S1600x1_S1600x1600_1_0_0_1_wf : ScatterDims.WF S1600x1600 S1600x1 S1600x1600 [1] [0] [0] 1
  gather_S1600_S1600x1_S1600_n_0_n_n_0_1_1_wf : GatherDims.WF S1600 S1600x1 S1600 [] [0] [] [0] [] 1 ![1]
  dot_S640x1600_S1600x1600_S640x1600_1_0_0_1_n_n_wf : DotDims.WF S640x1600 S1600x1600 S640x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x1600.size a ≤ S19200x1600.size a
  hwx0_0 : ∀ i : grid0.Coords, EltTy.bits .f32 = 32 ∨ (Rect.block (s := S19200x1600) S640x1600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1600x1600.size a ≤ S1600x1600.size a
  hwx0_1 : ∀ i : grid0.Coords, EltTy.bits .bf16 = 32 ∨ (Rect.block (s := S1600x1600) S1600x1600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1600.size a ≤ S1x1600.size a
  hwx0_2 : ∀ i : grid0.Coords, EltTy.bits .f32 = 32 ∨ (Rect.block (s := S1x1600) S1x1600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x1600.size a ≤ S19200x1600.size a
  hwx0_3 : ∀ i : grid0.Coords, EltTy.bits .bf16 = 32 ∨ (Rect.block (s := S19200x1600) S640x1600.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1600.size a ≤ S2x8x1600.size a
  hwx0_4 : ∀ i : grid0.Coords, EltTy.bits .f32 = 32 ∨ (Rect.block (s := S2x8x1600) S1x8x1600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x1600.size a ≤ S2x8x1600.size a
  hwx0_5 : ∀ i : grid0.Coords, EltTy.bits .f32 = 32 ∨ (Rect.block (s := S2x8x1600) S1x8x1600.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x1600.size a ≤ S19200x1600.size a
  hwx1_0 : ∀ i : grid1.Coords, EltTy.bits .bf16 = 32 ∨ (Rect.block (s := S19200x1600) S640x1600.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x1600.size a ≤ S19200x1600.size a
  hwx1_1 : ∀ i : grid1.Coords, EltTy.bits .f32 = 32 ∨ (Rect.block (s := S19200x1600) S640x1600.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1600.size a ≤ S1x1600.size a
  hwx1_2 : ∀ i : grid1.Coords, EltTy.bits .f32 = 32 ∨ (Rect.block (s := S1x1600) S1x1600.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1600.size a ≤ S1x1600.size a
  hwx1_3 : ∀ i : grid1.Coords, EltTy.bits .f32 = 32 ∨ (Rect.block (s := S1x1600) S1x1600.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1600.size a ≤ S1x1600.size a
  hwx1_4 : ∀ i : grid1.Coords, EltTy.bits .f32 = 32 ∨ (Rect.block (s := S1x1600) S1x1600.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1600.size a ≤ S1x1600.size a
  hwx1_5 : ∀ i : grid1.Coords, EltTy.bits .f32 = 32 ∨ (Rect.block (s := S1x1600) S1x1600.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S640x1600.size a ≤ S19200x1600.size a
  hwx1_6 : ∀ i : grid1.Coords, EltTy.bits .f32 = 32 ∨ (Rect.block (s := S19200x1600) S640x1600.size (cc1_transform_6 i) (hinb1_6 i)).WholeWords (EltTy.packing .f32)

variable [Facts₀]

def gather_S1600x1600_S1600x1_S1600x1600_0_1_n_n_1_1_16001 : GatherDims S1600x1600 S1600x1 S1600x1600 where
  offsetDims := [0]
  collapsedSliceDims := [1]
  operandBatchingDims := []
  startIndicesBatchingDims := []
  startIndexMap := [1]
  indexVectorDim := 1
  sliceSizes := ![1600, 1]
  wf := gather_S1600x1600_S1600x1_S1600x1600_0_1_n_n_1_1_16001_wf
def scatter_S1600x1600_S1600x1_S1600x1600_1_0_0_1 : ScatterDims S1600x1600 S1600x1 S1600x1600 where
  updateWindowDims := [1]
  insertedWindowDims := [0]
  scatterDimsToOperandDims := [0]
  indexVectorDim := 1
  wf := scatter_S1600x1600_S1600x1_S1600x1600_1_0_0_1_wf
def gather_S1600_S1600x1_S1600_n_0_n_n_0_1_1 : GatherDims S1600 S1600x1 S1600 where
  offsetDims := []
  collapsedSliceDims := [0]
  operandBatchingDims := []
  startIndicesBatchingDims := []
  startIndexMap := [0]
  indexVectorDim := 1
  sliceSizes := ![1]
  wf := gather_S1600_S1600x1_S1600_n_0_n_n_0_1_1_wf
def dot_S640x1600_S1600x1600_S640x1600_1_0_0_1_n_n : DotDims S640x1600 S1600x1600 S640x1600 where
  lhsContracting := [1]
  rhsContracting := [0]
  lhsNonContracting := [0]
  rhsNonContracting := [1]
  lhsBatch := []
  rhsBatch := []
  wf := dot_S640x1600_S1600x1600_S640x1600_1_0_0_1_n_n_wf

abbrev win0_0 : Pipeline.Window sig grid0 :=
  Pipeline.Window.ofSpec (Memref.whole main_v1) S640x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1600x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45_0) S640x1600.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v45_1) S1x8x1600.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45_2) S1x8x1600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45_0) S640x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S640x1600.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x1600.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x1600.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x1600.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S1x1600.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v71) S640x1600.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x64x300x25 : Shape := ⟨4, ![64, 64, 300, 25]⟩
abbrev S1x25x64 : Shape := ⟨3, ![1, 25, 64]⟩
abbrev S64x64 : Shape := ⟨2, ![64, 64]⟩
abbrev S1x1x64 : Shape := ⟨3, ![1, 1, 64]⟩
abbrev S1600 : Shape := ⟨1, ![1600]⟩
abbrev S64x300x25x64 : Shape := ⟨4, ![64, 300, 25, 64]⟩
abbrev S19200x1600 : Shape := ⟨2, ![19200, 1600]⟩
abbrev S_ : Shape := ⟨0, ![]⟩
abbrev S1600x1 : Shape := ⟨2, ![1600, 1]⟩
abbrev S19200x25x64 : Shape := ⟨3, ![19200, 25, 64]⟩
abbrev S1x1600 : Shape := ⟨2, ![1, 1600]⟩

abbrev nBuf : Space → Nat
  | .hbm => 89
  | .vmem => 0
  | .smem => 0
  | _ => 0

abbrev bufTy : (tb : Table) → Fin (tcTables nBuf tb) → BufTy
  | .hbm, ⟨0, _⟩ => ⟨S64x64x300x25, .f32⟩
  | .hbm, ⟨1, _⟩ => ⟨S1x25x64, .f32⟩
  | .hbm, ⟨2, _⟩ => ⟨S64x64, .f32⟩
  | .hbm, ⟨3, _⟩ => ⟨S1x1x64, .f32⟩
  | .hbm, ⟨4, _⟩ => ⟨S1600, .f32⟩
  | .hbm, ⟨5, _⟩ => ⟨S1600, .f32⟩
  | .hbm, ⟨6, _⟩ => ⟨S1600, .i32⟩
  | .hbm, ⟨7, _⟩ => ⟨S1600, .i32⟩
  | .hbm, ⟨8, _⟩ => ⟨S64x300x25x64, .f32⟩
  | .hbm, ⟨9, _⟩ => ⟨S19200x1600, .f32⟩
  | .hbm, ⟨10, _⟩ => ⟨S_, .i32⟩
  | .hbm, ⟨11, _⟩ => ⟨S1600, .i32⟩
  | .hbm, ⟨12, _⟩ => ⟨S1600, .i1⟩
  | .hbm, ⟨13, _⟩ => ⟨S_, .i32⟩
  | .hbm, ⟨14, _⟩ => ⟨S1600, .i32⟩
  | .hbm, ⟨15, _⟩ => ⟨S1600, .i32⟩
  | .hbm, ⟨16, _⟩ => ⟨S1600, .i32⟩
  | .hbm, ⟨17, _⟩ => ⟨S1600x1, .i32⟩
  | .hbm, ⟨18, _⟩ => ⟨S19200x1600, .f32⟩
  | .hbm, ⟨19, _⟩ => ⟨S19200x25x64, .f32⟩
  | .hbm, ⟨20, _⟩ => ⟨S1x25x64, .f32⟩
  | .hbm, ⟨21, _⟩ => ⟨S_, .f32⟩
  | .hbm, ⟨22, _⟩ => ⟨S1x25x64, .f32⟩
  | .hbm, ⟨23, _⟩ => ⟨S1x25x64, .f32⟩
  | .hbm, ⟨24, _⟩ => ⟨S19200x25x64, .f32⟩
  | .hbm, ⟨25, _⟩ => ⟨S19200x25x64, .f32⟩
  | .hbm, ⟨26, _⟩ => ⟨S19200x25x64, .f32⟩
  | .hbm, ⟨27, _⟩ => ⟨S19200x25x64, .f32⟩
  | .hbm, ⟨28, _⟩ => ⟨S19200x25x64, .f32⟩
  | .hbm, ⟨29, _⟩ => ⟨S19200x1600, .f32⟩
  | .hbm, ⟨30, _⟩ => ⟨S_, .i32⟩
  | .hbm, ⟨31, _⟩ => ⟨S1600, .i32⟩
  | .hbm, ⟨32, _⟩ => ⟨S1600, .i1⟩
  | .hbm, ⟨33, _⟩ => ⟨S_, .i32⟩
  | .hbm, ⟨34, _⟩ => ⟨S1600, .i32⟩
  | .hbm, ⟨35, _⟩ => ⟨S1600, .i32⟩
  | .hbm, ⟨36, _⟩ => ⟨S1600, .i32⟩
  | .hbm, ⟨37, _⟩ => ⟨S1600x1, .i32⟩
  | .hbm, ⟨38, _⟩ => ⟨S19200x1600, .f32⟩
  | .hbm, ⟨39, _⟩ => ⟨S_, .f32⟩
  | .hbm, ⟨40, _⟩ => ⟨S1600, .f32⟩
  | .hbm, ⟨41, _⟩ => ⟨S_, .f32⟩
  | .hbm, ⟨42, _⟩ => ⟨S1600, .f32⟩
  | .hbm, ⟨43, _⟩ => ⟨S1600, .f32⟩
  | .hbm, ⟨44, _⟩ => ⟨S_, .i32⟩
  | .hbm, ⟨45, _⟩ => ⟨S_, .f32⟩
  | .hbm, ⟨46, _⟩ => ⟨S1600, .f32⟩
  | .hbm, ⟨47, _⟩ => ⟨S1x1600, .f32⟩
  | .hbm, ⟨48, _⟩ => ⟨S_, .f32⟩
  | .hbm, ⟨49, _⟩ => ⟨S1x1600, .f32⟩
  | .hbm, ⟨50, _⟩ => ⟨S1x1600, .f32⟩
  | .hbm, ⟨51, _⟩ => ⟨S19200x1600, .f32⟩
  | .hbm, ⟨52, _⟩ => ⟨S19200x1600, .f32⟩
  | .hbm, ⟨53, _⟩ => ⟨S19200x1600, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1600, .f32⟩
  | .hbm, ⟨59, _⟩ => ⟨S1600, .f32⟩
  | .hbm, ⟨60, _⟩ => ⟨S1600, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S1600, .f32⟩
  | .hbm, ⟨66, _⟩ => ⟨S1600, .f32⟩
  | .hbm, ⟨67, _⟩ => ⟨S1x1600, .f32⟩
  | .hbm, ⟨68, _⟩ => ⟨S19200x1600, .f32⟩
  | .hbm, ⟨69, _⟩ => ⟨S19200x1600, .f32⟩
  | .hbm, ⟨70, _⟩ => ⟨S_, .f32⟩
  | .hbm, ⟨71, _⟩ => ⟨S1600, .f32⟩
  | .hbm, ⟨72, _⟩ => ⟨S1600, .f32⟩
  | .hbm, ⟨73, _⟩ => ⟨S1600, .f32⟩
  | .hbm, ⟨74, _⟩ => ⟨S1x1600, .f32⟩
  | .hbm, ⟨75, _⟩ => ⟨S19200x1600, .f32⟩
  | .hbm, ⟨76, _⟩ => ⟨S19200x1600, .f32⟩
  | .hbm, ⟨77, _⟩ => ⟨S1x1600, .f32⟩
  | .hbm, ⟨78, _⟩ => ⟨S19200x1600, .f32⟩
  | .hbm, ⟨79, _⟩ => ⟨S19200x1600, .f32⟩
  | .hbm, ⟨80, _⟩ => ⟨S1x1600, .f32⟩
  | .hbm, ⟨81, _⟩ => ⟨S19200x1600, .f32⟩
  | .hbm, ⟨82, _⟩ => ⟨S19200x1600, .f32⟩
  | .hbm, ⟨83, _⟩ => ⟨S64x300x25x64, .f32⟩
  | .hbm, ⟨84, _⟩ => ⟨S64x64x300x25, .f32⟩
  | .hbm, ⟨85, _⟩ => ⟨S64x64x300x25, .f32⟩
  | .hbm, ⟨86, _⟩ => ⟨S_, .f32⟩
  | .hbm, ⟨87, _⟩ => ⟨S64x64x300x25, .f32⟩
  | .hbm, ⟨88, _⟩ => ⟨S64x64x300x25, .f32⟩
  | _, _ => ⟨S64x64x300x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call1_cst : Ref sig .tc := ⟨.hbm, 86, rfl⟩
abbrev main_call1_v0 : Ref sig .tc := ⟨.hbm, 87, rfl⟩
abbrev main_v48 : Ref sig .tc := ⟨.hbm, 88, rfl⟩

abbrev nD : Nat := 1
abbrev τ : Topo := Topo.v7x

variable {F : FTy → Type} [FloatOps F]

class Facts₀ : Prop where
  transposes_S64x64x300x25_S64x300x25x64_0_2_3_1 : S64x64x300x25.Transposes [0, 2, 3, 1] S64x300x25x64
  shapeCasts_S64x300x25x64_S19200x1600 : S64x300x25x64.ShapeCasts S19200x1600
  bcast_S_S1600 : S_.BroadcastsInDim S1600 (![] : Fin 0 → Fin S1600.rank)
  bcast_S1600_S1600x1_0 : S1600.BroadcastsInDim S1600x1 (![0] : Fin 1 → Fin S1600x1.rank)
  shapeCasts_S19200x1600_S19200x25x64 : S19200x1600.ShapeCasts S19200x25x64
  bcast_S_S1x25x64 : S_.BroadcastsInDim S1x25x64 (![] : Fin 0 → Fin S1x25x64.rank)
  bcast_S1x25x64_S19200x25x64_0_1_2 : S1x25x64.BroadcastsInDim S19200x25x64 (![0, 1, 2] : Fin 3 → Fin S19200x25x64.rank)
  bcast_S1x1x64_S19200x25x64_0_1_2 : S1x1x64.BroadcastsInDim S19200x25x64 (![0, 1, 2] : Fin 3 → Fin S19200x25x64.rank)
  shapeCasts_S19200x25x64_S19200x1600 : S19200x25x64.ShapeCasts S19200x1600
  reducesTo_S19200x1600_S1600_d0 : S19200x1600.ReducesTo [0] S1600
  h_S_ : 0 < S_.numel
  bcast_S1600_S1x1600_1 : S1600.BroadcastsInDim S1x1600 (![1] : Fin 1 → Fin S1x1600.rank)
  bcast_S_S1x1600 : S_.BroadcastsInDim S1x1600 (![] : Fin 0 → Fin S1x1600.rank)
  bcast_S1x1600_S19200x1600_0_1 : S1x1600.BroadcastsInDim S19200x1600 (![0, 1] : Fin 2 → Fin S19200x1600.rank)
  shapeCasts_S19200x1600_S64x300x25x64 : S19200x1600.ShapeCasts S64x300x25x64
  transposes_S64x300x25x64_S64x64x300x25_0_3_1_2 : S64x300x25x64.Transposes [0, 3, 1, 2] S64x64x300x25
  bcast_S_S64x64x300x25 : S_.BroadcastsInDim S64x64x300x25 (![] : Fin 0 → Fin S64x64x300x25.rank)
  gather_S19200x1600_S1600x1_S19200x1600_0_1_n_n_1_1_192001_wf : GatherDims.WF S19200x1600 S1600x1 S19200x1600 [0] [1] [] [1] [] 1 ![19200, 1]
  dot_S19200x25x64_S64x64_S19200x25x64_2_0_01_1_n_n_wf : DotDims.WF S19200x25x64 S64x64 S19200x25x64 [2] [0] [0, 1] [1] [] []

variable [Facts₀]

def gather_S19200x1600_S1600x1_S19200x1600_0_1_n_n_1_1_192001 : GatherDims S19200x1600 S1600x1 S19200x1600 where
  offsetDims := [0]
  collapsedSliceDims := [1]
  operandBatchingDims := []
  startIndicesBatchingDims := []
  startIndexMap := [1]
  indexVectorDim := 1
  sliceSizes := ![19200, 1]
  wf := gather_S19200x1600_S1600x1_S19200x1600_0_1_n_n_1_1_192001_wf
def dot_S19200x25x64_S64x64_S19200x25x64_2_0_01_1_n_n : DotDims S19200x25x64 S64x64 S19200x25x64 where
  lhsContracting := [2]
  rhsContracting := [0]
  lhsNonContracting := [0, 1]
  rhsNonContracting := [1]
  lhsBatch := []
  rhsBatch := []
  wf := dot_S19200x25x64_S64x64_S19200x25x64_2_0_01_1_n_n_wf

class Facts : Prop extends Facts₀ where

variable [Facts]
-- ==== Proof.KI.Region0.lean ====
/- Region 0 of the kernel program: kernel A on its 2 × 15 grid, at any float model.

   At grid point t (position t = 15·core + tile) the body reads the input blocks
     x = rows 640·t … 640·t+639 of the flattened input, T = the whole 1600 × 1600 matrix, b = the bias row,
   forms y = x·T + b (the payload k0_pay5), writes its bf16 rounding (k0_pay6) into output window 3, and keeps
   two running rows in scratch: the column sums of y and of y², reset to zero where the tile coordinate is 0
   and otherwise added to what the point before left.  The two rows are then broadcast over 8 sublanes into
   output windows 4 and 5, which the pipeline writes back only at the last tile of each core.

   This module states what every staging buffer and both scratch rows hold after each point (accAt0, dat0),
   and proves the body's triple at every point, so that the region rule applies. -/
import proofs.«428867_j23261542875775_2_alg».proof.Proof.Gen.KernelIdeal.Launch
import proofs.«428867_j23261542875775_2_alg».proof.Proof.Gen.KernelIdeal.Skeleton
import proofs.«428867_j23261542875775_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of every TensorCore buffer of core `c` when the region is entered.
variable (V : (c : Dev nD) → (b : Ref sig .tc) → Buf (Elt F) ((c : Thread nD τ).loc b))

/-! ## The windows' blocks and the running sums -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch rows after the body at position `n`: the column sums of y and of y² over the tiles of the
    current core up to `n`.  Where the tile coordinate is 0 (n ≡ 0 mod 15) the sums start from the zero rows,
    elsewhere from what position `n - 1` left. -/
def accAt0 (c : Dev nD) : (n : ℕ) → n < cfg0.N → Vec F S1x1600 .f32 × Vec F S1x1600 .f32
  | 0, hn =>
    (k0_pay7 (iblk0 V c 0 ⟨0, hn⟩) (iblk0 V c 1 ⟨0, hn⟩) (iblk0 V c 2 ⟨0, hn⟩) k0_pay3,
     k0_pay8 (iblk0 V c 0 ⟨0, hn⟩) (iblk0 V c 1 ⟨0, hn⟩) (iblk0 V c 2 ⟨0, hn⟩) k0_pay4)
  | n + 1, hn =>
    if (n + 1) % 15 = 0 then
      (k0_pay7 (iblk0 V c 0 ⟨n + 1, hn⟩) (iblk0 V c 1 ⟨n + 1, hn⟩) (iblk0 V c 2 ⟨n + 1, hn⟩) k0_pay3,
       k0_pay8 (iblk0 V c 0 ⟨n + 1, hn⟩) (iblk0 V c 1 ⟨n + 1, hn⟩) (iblk0 V c 2 ⟨n + 1, hn⟩) k0_pay4)
    else
      (k0_pay7 (iblk0 V c 0 ⟨n + 1, hn⟩) (iblk0 V c 1 ⟨n + 1, hn⟩) (iblk0 V c 2 ⟨n + 1, hn⟩) (accAt0 c n (Nat.lt_of_succ_lt hn)).1,
       k0_pay8 (iblk0 V c 0 ⟨n + 1, hn⟩) (iblk0 V c 1 ⟨n + 1, hn⟩) (iblk0 V c 2 ⟨n + 1, hn⟩) (accAt0 c n (Nat.lt_of_succ_lt hn)).2)

/-- At a point whose tile coordinate is 0 the sums start afresh. -/
theorem accAt0_reset (c : Dev nD) (t : Fin cfg0.N) (h : t.val % 15 = 0) :
    accAt0 V c t.val t.isLt
      = (k0_pay7 (iblk0 V c 0 t) (iblk0 V c 1 t) (iblk0 V c 2 t) k0_pay3,
         k0_pay8 (iblk0 V c 0 t) (iblk0 V c 1 t) (iblk0 V c 2 t) k0_pay4) := by
  obtain ⟨n, hn⟩ := t
  cases n with
  | zero => rfl
  | succ n => exact (if_pos h).trans rfl

/-- At any other point they continue from the point before. -/
theorem accAt0_step (c : Dev nD) (t : Fin cfg0.N) (h : ¬ t.val % 15 = 0) :
    accAt0 V c t.val t.isLt
      = (k0_pay7 (iblk0 V c 0 t) (iblk0 V c 1 t) (iblk0 V c 2 t) (accAt0 V c (t.val - 1) (by omega)).1,
         k0_pay8 (iblk0 V c 0 t) (iblk0 V c 1 t) (iblk0 V c 2 t) (accAt0 V c (t.val - 1) (by omega)).2) := by
  obtain ⟨n, hn⟩ := t
  cases n with
  | zero => exact absurd (Nat.zero_mod _) h
  | succ n => exact (if_neg h).trans rfl

/-! ## The invariant between points -/

/-- The two scratch rows as whole memrefs. -/
abbrev scM0_0 : Memref sig .tc .vmem S1x1600 .f32 := Memref.whole cc0_scratch0
abbrev scM0_1 : Memref sig .tc .vmem S1x1600 .f32 := Memref.whole cc0_scratch1

/-- The core's scoped buffers that region 0 never touches (the staging buffers of the other kernel), each
    whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f))

/-- The region invariant before position `n`: before the first point every scoped buffer that is no staging
    buffer at some contents; afterwards the two scratch rows at the sums the point before left, the other
    scoped buffers at some contents, and the generator register at some state. -/
def PhiS (c : Dev nD) : (n : ℕ) → n ≤ cfg0.N → sProp 𝕄
  | 0, _ => Pipeline.ΦA spec0 c
  | n + 1, hn =>
    iprop((owns (c : Thread nD τ) scM0_0 fullShare (accAt0 V c n hn).1
        ∗ owns (c : Thread nD τ) scM0_1 fullShare (accAt0 V c n hn).2 ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn
      = iprop((owns (c : Thread nD τ) scM0_0 fullShare (accAt0 V c n hn).1
          ∗ owns (c : Thread nD τ) scM0_1 fullShare (accAt0 V c n hn).2 ∗ restS0 c) ∗ (∃ r, prngReg c r)) := rfl

theorem PhiS_pos (c : Dev nD) (n : ℕ) (h : n ≤ cfg0.N) (hz : n ≠ 0) :
    PhiS V c n h
      = iprop((owns (c : Thread nD τ) scM0_0 fullShare (accAt0 V c (n - 1) (by omega)).1
          ∗ owns (c : Thread nD τ) scM0_1 fullShare (accAt0 V c (n - 1) (by omega)).2 ∗ restS0 c) ∗ (∃ r, prngReg c r)) := by
  cases n with
  | zero => exact absurd rfl hz
  | succ n => rfl

/-! ## The proof data -/

/-- The proof data of region 0 on core `c`: the arrays as the region finds them; after the body at point `t`
    the inputs' buffers at their blocks, window 3's at the rounded y, windows 4 and 5 at the running sums
    broadcast over the sublanes; the invariant `PhiS`; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (iblk0 V c 0 t) (iblk0 V c 1 t) (iblk0 V c 2 t)
    | ⟨4, _⟩ => k0_pay1 (accAt0 V c t.val t.isLt).1
    | ⟨5, _⟩ => k0_pay2 (accAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay6 (iblk0 V c 0 t) (iblk0 V c 1 t) (iblk0 V c 2 t) := by dsimp only [dat0]
theorem after0_4 (c : Dev nD) (t : Fin cfg0.N) :
    (dat0 V c).after 4 t = k0_pay1 (accAt0 V c t.val t.isLt).1 := by dsimp only [dat0]
theorem after0_5 (c : Dev nD) (t : Fin cfg0.N) :
    (dat0 V c).after 5 t = k0_pay2 (accAt0 V c t.val t.isLt).2 := by dsimp only [dat0]

/-! ## Whole-buffer loads and stores

Every load and store of the body is through the rectangle of the buffer's own sizes at the origin: such a load
reads the buffer's contents, such a store leaves its payload, and a load after such a store reads the payload. -/

theorem zeros2 : (![0, 0] : Fin 2 → ℕ) = fun _ => 0 := by funext a; fin_cases a <;> rfl
theorem zeros3 : (![0, 0, 0] : Fin 3 → ℕ) = fun _ => 0 := by funext a; fin_cases a <;> rfl

/-- A load of the whole of a buffer whose contents read `X` reads `X`. -/
theorem readAt_whole {S : Shape} {e : EltTy} (m : Memref sig .tc .vmem S e) (hm : m.IsWhole) (X : S.Idx → Elt F e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

/-- After a store of `w` over the whole of a buffer, last, the buffer reads `w`. -/
theorem read_writes_whole {S : Shape} {e : EltTy} (v : View sig .tc .vmem S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-! ## The branch condition over the grid -/

/-- The body's one conditional, from the grid coordinates: the tile coordinate is 0. -/
abbrev cond0 (i : grid0.Coords) : Prop :=
  (Scalar.cmpi .ne (Scalar.extui (Scalar.cmpi .eq (BitVec.ofNat 32 (i 1).val) 0#32)) 0#32) = 1#1

/-- It holds exactly at the positions ≡ 0 (mod 15): decided over the 30 points. -/
theorem hcond0 : ∀ t : Fin cfg0.N, cond0 (grid0.coords t) ↔ t.val % 15 = 0 :=
  (by decide +kernel : ∀ t : Fin grid0.N, cond0 (grid0.coords t) ↔ t.val % 15 = 0)

/-! ## The body on any whole memrefs, case by case -/

set_option maxHeartbeats 4000000 in
/-- Where the tile coordinate is 0: whatever the scratch rows and the output buffers held, the body leaves the
    inputs as they were, the rounded y in the fourth buffer, the sums started from the zero rows in the scratch
    rows and, broadcast over the sublanes, in the last two buffers. -/
theorem run_reset (c : Dev nD) (i : grid0.Coords)
    (arg2 : Memref sig .tc .vmem S640x1600 .f32) (harg2 : arg2.IsWhole)
    (arg3 : Memref sig .tc .vmem S1600x1600 .bf16) (harg3 : arg3.IsWhole)
    (arg4 : Memref sig .tc .vmem S1x1600 .f32) (harg4 : arg4.IsWhole)
    (arg5 : Memref sig .tc .vmem S640x1600 .bf16) (harg5 : arg5.IsWhole)
    (arg6 : Memref sig .tc .vmem S1x8x1600 .f32) (harg6 : arg6.IsWhole)
    (arg7 : Memref sig .tc .vmem S1x8x1600 .f32) (harg7 : arg7.IsWhole)
    (arg8 : Memref sig .tc .vmem S1x1600 .f32) (harg8 : arg8.IsWhole)
    (arg9 : Memref sig .tc .vmem S1x1600 .f32) (harg9 : arg9.IsWhole)
    (hc : cond0 i)
    (x : Vec F S640x1600 .f32) (T : Vec F S1600x1600 .bf16) (b : Vec F S1x1600 .f32)
    (E : Set ℕ) (K : PUnit → sProp 𝕄) :
    iprop(owns (c : Thread nD τ) arg2 fullShare x ∗ owns (c : Thread nD τ) arg3 fullShare T ∗ owns (c : Thread nD τ) arg4 fullShare b
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare x ∗ owns (c : Thread nD τ) arg3 fullShare T ∗ owns (c : Thread nD τ) arg4 fullShare b
            ∗ owns (c : Thread nD τ) arg5 fullShare (k0_pay6 x T b)
            ∗ owns (c : Thread nD τ) arg6 fullShare (k0_pay1 (k0_pay7 x T b k0_pay3))
            ∗ owns (c : Thread nD τ) arg7 fullShare (k0_pay2 (k0_pay8 x T b k0_pay4))
            ∗ owns (c : Thread nD τ) arg8 fullShare (k0_pay7 x T b k0_pay3)
            ∗ owns (c : Thread nD τ) arg9 fullShare (k0_pay8 x T b k0_pay4)) -∗ K ⟨⟩))
      ⊢ wp frame (wpE (defs₀ (F := F)) Variants.none c none) E
          (cc0__kernelA_body i arg2 harg2 arg3 harg3 arg4 harg4 arg5 harg5 arg6 harg6 arg7 harg7 arg8 harg8 arg9 harg9) K := by
  simp only [cc0__kernelA_body_eq_skeleton, k0_part1_eq_skeleton]; unfold cc0__kernelA_body_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_whole _ _ zeros2, readAt_whole arg2 harg2 x zeros2, readAt_whole arg3 harg3 T zeros2, readAt_whole arg4 harg4 b zeros2]
  isplitl [H6]
  · iexists _; isplitr
    swap; · iexact H6
    ipureintro
    sl_unfold_run_names
    rw [read_writes_whole _ _ zeros3, View.readCov_cons_toLoadRect, View.readCov_cons_toLoadRect,
      readAt_whole arg2 harg2 x zeros2, readAt_whole arg3 harg3 T zeros2, readAt_whole arg4 harg4 b zeros2]
  isplitl [H7]
  · iexists _; isplitr
    swap; · iexact H7
    ipureintro
    sl_unfold_run_names
    rw [read_writes_whole _ _ zeros3, View.readCov_cons_toLoadRect, View.readCov_cons_toLoadRect,
      readAt_whole arg2 harg2 x zeros2, readAt_whole arg3 harg3 T zeros2, readAt_whole arg4 harg4 b zeros2]
  isplitl [H8]
  · iexists _; isplitr
    swap; · iexact H8
    ipureintro
    sl_unfold_run_names
    rw [read_writes_whole _ _ zeros2, View.readCov_cons_toLoadRect,
      readAt_whole arg2 harg2 x zeros2, readAt_whole arg3 harg3 T zeros2, readAt_whole arg4 harg4 b zeros2]
  · iexists _; isplitr
    swap; · iexact H9
    ipureintro
    sl_unfold_run_names
    rw [read_writes_whole _ _ zeros2, View.readCov_cons_toLoadRect,
      readAt_whole arg2 harg2 x zeros2, readAt_whole arg3 harg3 T zeros2, readAt_whole arg4 harg4 b zeros2]

set_option maxHeartbeats 4000000 in
/-- Elsewhere: with the scratch rows at `s0`, `s1`, the body leaves the same but with the sums continued from
    `s0`, `s1`. -/
theorem run_step (c : Dev nD) (i : grid0.Coords)
    (arg2 : Memref sig .tc .vmem S640x1600 .f32) (harg2 : arg2.IsWhole)
    (arg3 : Memref sig .tc .vmem S1600x1600 .bf16) (harg3 : arg3.IsWhole)
    (arg4 : Memref sig .tc .vmem S1x1600 .f32) (harg4 : arg4.IsWhole)
    (arg5 : Memref sig .tc .vmem S640x1600 .bf16) (harg5 : arg5.IsWhole)
    (arg6 : Memref sig .tc .vmem S1x8x1600 .f32) (harg6 : arg6.IsWhole)
    (arg7 : Memref sig .tc .vmem S1x8x1600 .f32) (harg7 : arg7.IsWhole)
    (arg8 : Memref sig .tc .vmem S1x1600 .f32) (harg8 : arg8.IsWhole)
    (arg9 : Memref sig .tc .vmem S1x1600 .f32) (harg9 : arg9.IsWhole)
    (hc : ¬ cond0 i)
    (x : Vec F S640x1600 .f32) (T : Vec F S1600x1600 .bf16) (b : Vec F S1x1600 .f32)
    (s0 s1 : Vec F S1x1600 .f32)
    (E : Set ℕ) (K : PUnit → sProp 𝕄) :
    iprop(owns (c : Thread nD τ) arg2 fullShare x ∗ owns (c : Thread nD τ) arg3 fullShare T ∗ owns (c : Thread nD τ) arg4 fullShare b
        ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare s0
        ∗ owns (c : Thread nD τ) arg9 fullShare s1
        ∗ (iprop(owns (c : Thread nD τ) arg2 fullShare x ∗ owns (c : Thread nD τ) arg3 fullShare T ∗ owns (c : Thread nD τ) arg4 fullShare b
            ∗ owns (c : Thread nD τ) arg5 fullShare (k0_pay6 x T b)
            ∗ owns (c : Thread nD τ) arg6 fullShare (k0_pay1 (k0_pay7 x T b s0))
            ∗ owns (c : Thread nD τ) arg7 fullShare (k0_pay2 (k0_pay8 x T b s1))
            ∗ owns (c : Thread nD τ) arg8 fullShare (k0_pay7 x T b s0)
            ∗ owns (c : Thread nD τ) arg9 fullShare (k0_pay8 x T b s1)) -∗ K ⟨⟩))
      ⊢ wp frame (wpE (defs₀ (F := F)) Variants.none c none) E
          (cc0__kernelA_body i arg2 harg2 arg3 harg3 arg4 harg4 arg5 harg5 arg6 harg6 arg7 harg7 arg8 harg8 arg9 harg9) K := by
  simp only [cc0__kernelA_body_eq_skeleton, k0_part1_eq_skeleton]; unfold cc0__kernelA_body_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4
  obtain rfl := harg8.eq_unread hf8; obtain rfl := harg9.eq_unread hf9
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_whole _ _ zeros2, readAt_whole arg2 harg2 x zeros2, readAt_whole arg3 harg3 T zeros2, readAt_whole arg4 harg4 b zeros2]
  isplitl [H6]
  · iexists _; isplitr
    swap; · iexact H6
    ipureintro
    sl_unfold_run_names
    rw [read_writes_whole _ _ zeros3, View.readCov_cons_toLoadRect,
      readAt_whole arg2 harg2 x zeros2, readAt_whole arg3 harg3 T zeros2, readAt_whole arg4 harg4 b zeros2,
      readAt_whole arg8 harg8 s0 zeros2]
  isplitl [H7]
  · iexists _; isplitr
    swap; · iexact H7
    ipureintro
    sl_unfold_run_names
    rw [read_writes_whole _ _ zeros3, View.readCov_cons_toLoadRect,
      readAt_whole arg2 harg2 x zeros2, readAt_whole arg3 harg3 T zeros2, readAt_whole arg4 harg4 b zeros2,
      readAt_whole arg9 harg9 s1 zeros2]
  isplitl [H8]
  · iexists _; isplitr
    swap; · iexact H8
    ipureintro
    sl_unfold_run_names
    rw [read_writes_whole _ _ zeros2,
      readAt_whole arg2 harg2 x zeros2, readAt_whole arg3 harg3 T zeros2, readAt_whole arg4 harg4 b zeros2,
      readAt_whole arg8 harg8 s0 zeros2]
  · iexists _; isplitr
    swap; · iexact H9
    ipureintro
    sl_unfold_run_names
    rw [read_writes_whole _ _ zeros2,
      readAt_whole arg2 harg2 x zeros2, readAt_whole arg3 harg3 T zeros2, readAt_whole arg4 harg4 b zeros2,
      readAt_whole arg9 harg9 s1 zeros2]

/-! ## The staging memrefs at a point, and what the inputs' hold -/

/-- Each window's current staging memref at point `t`, as the pipeline passes it to the body. -/
abbrev ms0_0 (t : Fin cfg0.N) : Memref sig .tc .vmem S640x1600 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1600x1600 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1600 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1600 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1600 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x1600 .f32 := win0_5.stage (cfg0.slots t 5)
abbrev hs0_5 (t : Fin cfg0.N) : (ms0_5 t).IsWhole := hstage0_5 ((cfg0.slots t 5).cast nbuf0_5)

/-- No window is idle at any point. -/
theorem liveAt0 (w : Fin cfg0.W) (t : Fin cfg0.N) : cfg0.idle w (grid0.coords t) = false := rfl

/-- Each input's current staging buffer holds its block at every point, fetched there or not: an input not
    fetched at a point has the block index of the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The invariant's forms -/

/-- The class invariant with the scoped buffers one by one: the two scratch rows as memrefs owned at some
    contents, the rest, the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ restS0 c)
          ∗ (∃ r, prngReg c r)) := by
  unfold Pipeline.ΦA; rw [scopedRest0_eq]; unfold restS0; simp only [scM0_0, scM0_1, owns_whole]; try rfl

theorem PhiS_castSucc (c : Dev nD) (t : Fin cfg0.N) :
    (dat0 V c).Φ t.castSucc = PhiS V c t.val (Nat.le_of_lt t.isLt) := by
  dsimp only [dat0]; simp only [Fin.coe_castSucc]

/-- At any position the invariant gives the class invariant back: the sums' values are forgotten. -/
theorem Phi_out (c : Dev nD) (t : Fin (cfg0.N + 1)) : (dat0 V c).Φ t ⊢ Pipeline.ΦA spec0 c := by
  rw [show (dat0 V c).Φ t = PhiS V c t.val (Nat.le_of_lt_succ t.isLt) from rfl]
  by_cases ht : t.val = 0
  · rw [PhiS_zero V c _ _ ht]
  · rw [PhiS_pos V c _ _ ht, PhiA0_eq]
    iintro ⟨⟨HS0, HS1, HR⟩, Hg⟩
    isplitr [Hg]
    · isplitl [HS0]; · iexists _; iexact HS0
      isplitl [HS1]; · iexists _; iexact HS1
      iexact HR
    iexact Hg

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0_0 (c : Dev nD) (t : Fin cfg0.N) :
    (dat0 V c).leavesExact 0 t = owns (c : Thread nD τ) (ms0_0 t) fullShare (iblk0 V c 0 t) := by
  unfold Dat.leavesExact; rw [liveAt0 0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0 1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0 2 t, after0_2]
theorem leaves0_3 (c : Dev nD) (t : Fin cfg0.N) :
    (dat0 V c).leavesExact 3 t
      = owns (c : Thread nD τ) (ms0_3 t) fullShare (k0_pay6 (iblk0 V c 0 t) (iblk0 V c 1 t) (iblk0 V c 2 t)) := by
  unfold Dat.leavesExact; rw [liveAt0 3 t, after0_3]
theorem leaves0_4 (c : Dev nD) (t : Fin cfg0.N) :
    (dat0 V c).leavesExact 4 t = owns (c : Thread nD τ) (ms0_4 t) fullShare (k0_pay1 (accAt0 V c t.val t.isLt).1) := by
  unfold Dat.leavesExact; rw [liveAt0 4 t, after0_4]
theorem leaves0_5 (c : Dev nD) (t : Fin cfg0.N) :
    (dat0 V c).leavesExact 5 t = owns (c : Thread nD τ) (ms0_5 t) fullShare (k0_pay2 (accAt0 V c t.val t.isLt).2) := by
  unfold Dat.leavesExact; rw [liveAt0 5 t, after0_5]

set_option maxHeartbeats 4000000 in
/-- The body at any point.  The inputs' buffers hold their blocks; the position says which case the point is in;
    the invariant hands the body the scratch rows (at the sums the point before left, or at anything where the
    sums restart) and takes them back at this point's sums; the output buffers end at the values the proof
    data names; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  by_cases h0 : t.val % 15 = 0
  · rw [accAt0_reset V c t h0]
    refine (sep_mono (Phi_out V c t.castSucc) .rfl).trans ?_
    rw [PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (run_reset c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      ((hcond0 t).mpr h0) (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [accAt0_step V c t h0]
    have hz : t.val ≠ 0 := fun h => h0 (by rw [h])
    rw [PhiS_castSucc V c t, PhiS_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (run_step c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (fun h => h0 ((hcond0 t).mp h)) (iblk0 V c 0 t) (iblk0 V c 1 t) (iblk0 V c 2 t) _ _ Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The region rule's body obligation, at every point. -/
theorem body_obligation0 (c : Dev nD) :
    BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class invariant back. -/
theorem hout0 (c : Dev nD) : (dat0 V c).Φ (Fin.last cfg0.N) ⊢ Pipeline.ΦA spec0 c :=
  Phi_out V c _

end Cert.KernelIdeal.Hand

end
-- ==== Proof.KI.Region1.lean ====
/- REGION 1 of @main (the second pallas_call, kernel B), at ANY float semantics and at a parameter `V`, the
   TensorCore's buffer contents when the region is entered.

   The kernel has seven windows: six inputs (the bf16 block y, the f32 block x, and four 1x1600 rows: mean, inverse
   standard deviation, scale, shift) and one output. At every grid point the body loads the six input blocks whole
   and stores ONE payload over the whole output block:
     out = max (((y - mean) * invstd) * gamma + beta + x, 0)   (`k1_pay1`).
   So the output window's buffer after the body is that payload of the six input blocks, and every input window's
   buffer is its block of the entry array, fetched there or not (the four rows are fetched at the first point only;
   their block index never moves). -/
import proofs.«428867_j23261542875775_2_alg».proof.Proof.Gen.KernelIdeal.Launch
import proofs.«428867_j23261542875775_2_alg».proof.Proof.Gen.KernelIdeal.Skeleton
import proofs.«428867_j23261542875775_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is `V`'s (`hA`) and whose body leaves the block in place (`hafter`): unfetched, the block
    index has not moved since the fetch; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole block -/

/-- The two offsets of every access are zero. -/
theorem zeros1 : (![0, 0] : Fin 2 → Nat) = fun _ => 0 := funext fun a => by fin_cases a <;> rfl

/-- The whole 640x1600 block as the body's rectangle spells it. -/
abbrev r1_big : Rect S640x1600 := Rect.unit (s := S640x1600) ![0, 0] S640x1600.size inb_S640x1600_S640x1600_0_0
/-- The whole 1x1600 row as the body's rectangle spells it. -/
abbrev r1_row : Rect S1x1600 := Rect.unit (s := S1x1600) ![0, 0] S1x1600.size inb_S1x1600_S1x1600_0_0

/-! ## What the body leaves in the output window's buffer -/

/-- Window 6's staging buffer after the body as the run finds it: its one store as a list of pieces over the
    loads' reads. -/
def out1_6 (x0 : Vec F S640x1600 .bf16) (x1 : Vec F S640x1600 .f32) (x2 x3 x4 x5 : Vec F S1x1600 .f32) : Vec F S640x1600 .f32 :=
  View.canon [⟨r1_big, k1_pay1 (View.ld x0 r1_big) (View.ld x1 r1_big) (View.ld x2 r1_row) (View.ld x3 r1_row) (View.ld x4 r1_row) (View.ld x5 r1_row)⟩]

/-- The one store covers the buffer. -/
theorem cover1_6 (p0 : Vec F S640x1600 .f32) (y : S640x1600.Idx) :
    ∃ pc ∈ ([⟨r1_big, p0⟩] : List (View.Piece (Elt F) S640x1600 .f32)), y ∈ pc.1.set :=
  ⟨_, List.mem_singleton_self _, View.mem_set_unit_zero zeros1 inb_S640x1600_S640x1600_0_0 y⟩

/-- A load through the whole block reads the contents, and one store through the whole block leaves its payload: the
    output buffer after the body is the payload of the six input buffers. -/
theorem out1_6_eq (x0 : Vec F S640x1600 .bf16) (x1 : Vec F S640x1600 .f32) (x2 x3 x4 x5 : Vec F S1x1600 .f32) :
    out1_6 x0 x1 x2 x3 x4 x5 = k1_pay1 x0 x1 x2 x3 x4 x5 := by
  unfold out1_6
  rw [View.canon_unit_zero zeros1 inb_S640x1600_S640x1600_0_0,
    View.ld_unit_zero zeros1 inb_S640x1600_S640x1600_0_0 x0, View.ld_unit_zero zeros1 inb_S640x1600_S640x1600_0_0 x1,
    View.ld_unit_zero zeros1 inb_S1x1600_S1x1600_0_0 x2, View.ld_unit_zero zeros1 inb_S1x1600_S1x1600_0_0 x3,
    View.ld_unit_zero zeros1 inb_S1x1600_S1x1600_0_0 x4, View.ld_unit_zero zeros1 inb_S1x1600_S1x1600_0_0 x5]

/-! ## The body's triple -/

set_option maxHeartbeats 1000000 in
/-- The kernel body on whole staging memrefs, the six inputs' at contents `x0 … x5` and the output's at anything, runs
    to the continuation holding the inputs' as they were and the output's at the payload of the six. -/
theorem sound_kernel1 (c : Dev nD) (E : Set ℕ) (i : grid1.Coords)
    (arg1 : Memref sig .tc .vmem S640x1600 .bf16) (harg1 : arg1.IsWhole) (arg2 : Memref sig .tc .vmem S640x1600 .f32) (harg2 : arg2.IsWhole)
    (arg3 : Memref sig .tc .vmem S1x1600 .f32) (harg3 : arg3.IsWhole) (arg4 : Memref sig .tc .vmem S1x1600 .f32) (harg4 : arg4.IsWhole)
    (arg5 : Memref sig .tc .vmem S1x1600 .f32) (harg5 : arg5.IsWhole) (arg6 : Memref sig .tc .vmem S1x1600 .f32) (harg6 : arg6.IsWhole)
    (arg7 : Memref sig .tc .vmem S640x1600 .f32) (harg7 : arg7.IsWhole)
    (x0 : Vec F S640x1600 .bf16) (x1 : Vec F S640x1600 .f32) (x2 x3 x4 x5 : Vec F S1x1600 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k1_pay1 x0 x1 x2 x3 x4 x5)) -∗ K ⟨⟩))
      ⊢ wp frame (wpE (defs₀ (F := F)) Variants.none c none) E
          (cc1__kernelB_body i arg1 harg1 arg2 harg2 arg3 harg3 arg4 harg4 arg5 harg5 arg6 harg6 arg7 harg7) K := by
  simp only [cc1__kernelB_body_eq_skeleton]; unfold cc1__kernelB_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  exact out1_6_eq (View.read (Elt F) arg1.view f0) (View.read (Elt F) arg2.view f1) (View.read (Elt F) arg3.view f2)
    (View.read (Elt F) arg4.view f3) (View.read (Elt F) arg5.view f4) (View.read (Elt F) arg6.view f5)

/-! ## The pipeline's proof data -/

/-- The proof data of region 1 on core `c`: the arrays as the region finds them (`V`); after the body at point `t`
    each input's buffer at its block and the output's at the payload of the six input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    k1_pay1 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/- The run of the kernel program's @main and its frame, at any float type.

   @main is seven items in order: three stretches of host operations (the input flattened and the block-diagonal
   mixing matrix built; its columns gathered by the output permutation; its rows scattered by the input permutation,
   rounded, and the bias row gathered), the first kernel region (the matrix product with its column sums and sums of
   squares), a stretch (mean and inverse deviation rows), the second kernel region (the normalisation), and a last
   stretch (the result reshaped and transposed back).

   The contents of core `c`'s unscoped buffers at each boundary are a fold from the launch memory: `W0 … W7`. A stretch
   takes them to `StableHlo.after` of its operations; a region rewrites its windows' arrays to what its write-backs
   leave and nothing else. Over the thread state "every unscoped buffer at the boundary's contents, the generator
   register at some state, nothing owed" each stretch is a host segment and each region a region segment; the launch
   theorem for a list of segments then gives the run (`run_all`: every final state has each unscoped buffer at `W7`),
   and the frame follows by reading the eight argument arrays back through the fold to the launch memory. -/
import proofs.«428867_j23261542875775_2_alg».proof.Proof.KI.Region0
import proofs.«428867_j23261542875775_2_alg».proof.Proof.KI.Region1
import proofs.«428867_j23261542875775_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's results walks a list of up to 29 references
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

@main is seven items: three stretches of host operations, the first kernel region, a stretch, the second kernel
region, a stretch. A stretch takes the contents to `StableHlo.after` of its operations; a region rewrites its
windows' arrays to what its write-backs leave (`Dat.arrAt … N`) and leaves every other buffer as it found it. -/

/-- Core `c`'s buffers at launch. -/
abbrev W0 : Dev nD → Valuation τ sig (Elt F) := fun c b => (s₀ m ρ).mem ((c : Dev nD), b)
/-- After the first stretch (the flattened input and the block-diagonal mixing matrix are made here). -/
abbrev W1 : Dev nD → Valuation τ sig (Elt F) := fun c => StableHlo.after hostOps0 (W0 m ρ c)
/-- After the second stretch (the column gather by the output permutation). -/
abbrev W2 : Dev nD → Valuation τ sig (Elt F) := fun c => StableHlo.after hostOps0_1 (W1 m ρ c)
/-- After the third stretch (the row scatter by the input permutation, the rounding, the bias row): the first
    region's entry. -/
abbrev W3 : Dev nD → Valuation τ sig (Elt F) := fun c => StableHlo.after hostOps0_2 (W2 m ρ c)
/-- The same read at the TensorCore's references (what the first region's proof data take). -/
abbrev V3 : (c : Dev nD) → (b : Ref sig .tc) → Buf (Elt F) ((c : Thread nD τ).loc b) := fun c b => W3 m ρ c b
/-- At the first region's exit: its six arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the fourth stretch (the mean and the inverse deviation rows, the scale and shift rows): the second
    region's entry. -/
abbrev W5 : Dev nD → Valuation τ sig (Elt F) := fun c => StableHlo.after hostOps1 (W4 m ρ c)
/-- The same read at the TensorCore's references (what the second region's proof data take). -/
abbrev V5 : (c : Dev nD) → (b : Ref sig .tc) → Buf (Elt F) ((c : Thread nD τ).loc b) := fun c b => W5 m ρ c b
/-- At the second region's exit: its seven arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the last stretch (the result reshaped and transposed back): what @main returns with. -/
abbrev W7 : Dev nD → Valuation τ sig (Elt F) := fun c => StableHlo.after hostOps2 (W6 m ρ c)

/-! ## A stretch leaves every buffer that is none of its results

Each operation writes its one result, so a reference outside the list of a stretch's results reads the same before
and after the stretch. With `W4_of_ne` and `W6_of_ne` for the regions these carry a fact about a buffer from one
boundary to the next. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
/-- Across the three stretches before the first region at once. -/
theorem W3_of_W0 (c : Dev nD) (r : Ref sig .tc) (h0 : r ∉ hostOps0_W) (h1 : r ∉ hostOps0_1_W) (h2 : r ∉ hostOps0_2_W) :
    W3 m ρ c (Proc.devRef .tc r) = W0 m ρ c (Proc.devRef .tc r) :=
  (W3_of m ρ c r h2).trans ((W2_of m ρ c r h1).trans (W1_of m ρ c r h0))
/-- Across the second and third stretch (for what the first stretch makes and the first region reads). -/
theorem W3_of_W1 (c : Dev nD) (r : Ref sig .tc) (h1 : r ∉ hostOps0_1_W) (h2 : r ∉ hostOps0_2_W) :
    W3 m ρ c (Proc.devRef .tc r) = W1 m ρ c (Proc.devRef .tc r) :=
  (W3_of m ρ c r h2).trans (W2_of m ρ c r h1)

/-- A buffer that is no stretch's result and no window's array of either region ends as launched. -/
theorem W7_untouched (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W) :
    W7 m ρ c (Proc.devRef .tc r) = m ((c : Thread nD τ).loc r) :=
  (W7_of m ρ c r h6).trans <| (W6_of_ne m ρ c r h5).trans <| (W5_of m ρ c r h4).trans <| (W4_of_ne m ρ c r h3).trans <|
    (W3_of_W0 m ρ c r h0 h1 h2).trans rfl

/-! ### The arguments end as launched: no host operation writes one and neither region has one among its windows'
    arrays (the regions read the flattened input, the mixing matrix and the rows the stretches make of them) -/

theorem W7_main_arg0 (c : Dev nD) : W7 m ρ c (Proc.devRef .tc main_arg0) = m ((c : Thread nD τ).loc main_arg0) :=
  W7_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_untouched m ρ c main_arg7 (by decide) (by decide) (by decide) (by decide) (by decide) (by decide) (by decide)

/-! # The run: @main's seven items as segments, from the launch to the return -/

/-- The prefetched tables' admissible contents: neither pipeline has a table. -/
abbrev adm : (p : Fin 2) → (pcfgs (F := F) p).Adm := fun p => (cfgs p).toPCfg_adm
/-- Each pipeline's proof data at its region's entry contents — a literal `match`, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- THE FIRST REGION over the thread state: entered from every unscoped buffer at `W3`, left at `W4`. Its six arrays
    split out of the unscoped buffers and put back at the exit contents; the generator register and the scoped buffers no
    window stages (the two running-sum rows among them) go into the pipeline's invariant at its first point and come
    back out of its last (`hin0`, `hout0`: between the two the invariant names the running sums); nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun w => A_eq0 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V3 m ρ) c).Φ 0 from rfl]
    refine BIBase.Entails.trans ?_ (hin0 (V3 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V3 m ρ) c).Φ (Fin.last cfg0.N) from rfl]
    refine (hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W5`, left at `W6`. Its seven
    arrays split out of the unscoped buffers and put back at the exit contents; the generator register into the
    invariant (the scoped rest and the register, untouched at every point) and out; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun w => A_eq1 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- The segments' fragments of @main are its seven items. -/
theorem segs_prog : (segs m ρ).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2 ] := rfl
/-- @main IS the run of the segments: it is the chain of its items, and the segments' run is the chain of their
    fragments. -/
theorem main_run (c : Dev nD) : main (F := F) c = Pipeline.Seg.run (segs m ρ) := by
  rw [main_chain c, Pipeline.Seg.run_eq_chain, segs_prog]

/-- The last stretch's exit is the last thread state beside the core owing nothing: the separating conjunction
    reassociated. -/
theorem last_link (c : Dev nD) :
    (iprop(StableHlo.held (c : Thread nD τ) (Pipeline.ucRefs τ sig) (W7 m ρ c)
        ∗ (∃ r, prngReg c r) ∗ ∃ W, owes (c : Thread nD τ) (0 : CellTallies nD τ sig Unit) W) : sProp 𝕄)
      ⊢ iprop((StableHlo.held (c : Thread nD τ) (Pipeline.ucRefs τ sig) (W7 m ρ c) ∗ ∃ r, prngReg c r)
        ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN: at the compiled mesh, from any memory with zero counters, every weakly fair execution of @main on the
    TensorCores terminates, nothing faulting, and every final state has each unscoped buffer at the last boundary's
    contents `W7`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every final state has the eight argument arrays as launched — each is an unscoped buffer, read off
    the last boundary's contents and walked back through the fold (`W7_main_arg0` … `W7_main_arg7`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c)⟩) (run_all m ρ)

end Cert.KernelIdeal.Hand

end
-- ==== Proof.Spec.lean ====
/-
  The mathematics of the certificate, stated once over the extended reals and with no program in sight.

  Shapes: N = 64 samples, C = D = 64 channels, T = 300 frames, V = 25 joints. The activations are flattened to
  19200 = N·T rows (row r = n·300 + t) and 1600 = V·C columns (column k = v·64 + c, joint-major).

  Reference side (`Y`, `mean`, `var`, `out`, `result4`): gather the columns by `σi`, scale each (joint, channel) by
  `tanh(mask) + 1`, apply the 64×64 linear map `W` per joint and add the bias, gather the columns by `σo`, normalise every
  column by its batch mean and (biased) batch variance, scale and shift by `gam` / `bet`, add the input back and clamp at 0.

  Kernel side (`Tm`, `Yk`, `sumK`, `sqK`, `meanK`, `varK`, `outK`, `resultK4`): the two gathers, the mask and `W` folded
  into ONE 1600×1600 matrix `Tm` (a block-diagonal matrix column-gathered by `σo` and row-scatter-added by `σi`) and one
  bias row; the column statistics accumulated tile by tile (30 tiles of 640 rows, 15 per core) as sums and sums of squares,
  the variance taken as E[y²] − E[y]² clamped at 0.
-/
import Idealize.ShloMosaic.PureOps.Ideal
import Idealize.ShloMosaic.Lib.ValueIdx

noncomputable section

namespace Cert.Spec

open Idealize.ShloMosaic Idealize.ShloMosaic.ValueIdx

abbrev SX : Shape := ⟨4, ![64, 64, 300, 25]⟩
abbrev SM : Shape := ⟨3, ![1, 25, 64]⟩
abbrev SW : Shape := ⟨2, ![64, 64]⟩
abbrev SB : Shape := ⟨3, ![1, 1, 64]⟩
abbrev SV : Shape := ⟨1, ![1600]⟩

/-- Row `r = n·300 + t`: its sample and its frame. -/
def rowN (r : Fin 19200) : Fin 64 := ⟨r.val / 300, by have := r.isLt; omega⟩
def rowT (r : Fin 19200) : Fin 300 := ⟨r.val % 300, Nat.mod_lt _ (by decide)⟩
/-- Column `k = v·64 + c`: its joint and its channel. -/
def colV (k : Fin 1600) : Fin 25 := ⟨k.val / 64, by have := k.isLt; omega⟩
def colC (k : Fin 1600) : Fin 64 := ⟨k.val % 64, Nat.mod_lt _ (by decide)⟩
/-- The row of sample `n`, frame `t`; the column of joint `v`, channel `c`. -/
def rowOf (n : Fin 64) (t : Fin 300) : Fin 19200 := ⟨n.val * 300 + t.val, by have := n.isLt; have := t.isLt; omega⟩
def colOf (v : Fin 25) (c : Fin 64) : Fin 1600 := ⟨v.val * 64 + c.val, by have := v.isLt; have := c.isLt; omega⟩

/-- An index vector whose words all lie in [0, 1600), as a map of columns. -/
def sig (s : SV.Idx → BitVec 32) (h : ∀ k : Fin 1600, (s (ix1 k)).toNat < 1600) : Fin 1600 → Fin 1600 :=
  fun k => ⟨(s (ix1 k)).toNat, h k⟩

/-- The literals both programs carry: 1.0, 19200.0 and the variance offset f32(1e-5), as their exact binary values. -/
def one : EReal := Ideal.ofBits .f32 0x3F800000#32
def n19200 : EReal := Ideal.ofBits .f32 0x46960000#32
def eps : EReal := Ideal.ofBits .f32 0x3727C5AC#32

section
variable (x0 : SX.Idx → EReal) (fm : SM.Idx → EReal) (W : SW.Idx → EReal) (b : SB.Idx → EReal)
  (gam bet : SV.Idx → EReal) (σi σo : Fin 1600 → Fin 1600)

/-- The input flattened: row (n, t), column (v, c) holds x0[n, c, t, v]. -/
def Xf (r : Fin 19200) (k : Fin 1600) : EReal := x0 (ix4 (rowN r) (colC k) (rowT r) (colV k))
/-- The learned feature mask's scale at joint `v`, channel `c`: tanh(mask) + 1. -/
def Mk (v : Fin 25) (c : Fin 64) : EReal := Ideal.tanh (fm (ix3 0 v c)) + one

/-! ## The reference's reading -/

/-- Joint `v`'s linear layer on the gathered, masked row `r`, output channel `d`, plus the bias. -/
def Z (r : Fin 19200) (v : Fin 25) (d : Fin 64) : EReal :=
  (∑ c : Fin 64, (Xf x0 r (σi (colOf v c)) * Mk fm v c) * W (ix2 c d)) + b (ix3 0 0 d)
/-- The activations before normalisation: the layer's output column-gathered by `σo`. -/
def Y (r : Fin 19200) (j : Fin 1600) : EReal := Z x0 fm W b σi r (colV (σo j)) (colC (σo j))
def mean (j : Fin 1600) : EReal := Ideal.div (∑ r : Fin 19200, Y x0 fm W b σi σo r j) n19200
def var (j : Fin 1600) : EReal :=
  Ideal.div (∑ r : Fin 19200, (Y x0 fm W b σi σo r j - mean x0 fm W b σi σo j) * (Y x0 fm W b σi σo r j - mean x0 fm W b σi σo j)) n19200
def out (r : Fin 19200) (j : Fin 1600) : EReal :=
  max ((((Y x0 fm W b σi σo r j - mean x0 fm W b σi σo j) * Ideal.rsqrt (var x0 fm W b σi σo j + eps)) * gam (ix1 j)
    + bet (ix1 j)) + Xf x0 r j) 0
/-- The result at sample `n`, channel `d`, frame `t`, joint `v`. -/
def result4 (n : Fin 64) (d : Fin 64) (t : Fin 300) (v : Fin 25) : EReal :=
  out x0 fm W b gam bet σi σo (rowOf n t) (colOf v d)

/-! ## The kernel's reading -/

/-- The 25×25 identity the kernel multiplies by to make the per-joint matrices block-diagonal. -/
def eye (v v' : Fin 25) : EReal := if v = v' then 1 else 0
/-- The block-diagonal matrix of the masked per-joint linear maps, rows (v, c), columns (v', d). -/
def Mblock (k j' : Fin 1600) : EReal :=
  (Mk fm (colV k) (colC k) * W (ix2 (colC k) (colC j'))) * eye (colV k) (colV j')
/-- The folded matrix: `Mblock` column-gathered by `σo`, its rows scatter-added to the rows `σi` names. -/
def Tm (k' j : Fin 1600) : EReal :=
  ∑ k ∈ Finset.univ.filter (fun k : Fin 1600 => σi k = k'), Mblock fm W k (σo j)
/-- The folded bias row. -/
def biasK (j : Fin 1600) : EReal := b (ix3 0 0 (colC (σo j)))
/-- The kernel's activations before normalisation: one 1600-wide product per row, plus the bias row. -/
def Yk (r : Fin 19200) (j : Fin 1600) : EReal :=
  (∑ k' : Fin 1600, Xf x0 r k' * Tm fm W σi σo k' j) + biasK b σo j
/-- The sum of `f` over tile `q`'s 640 rows, and over a core's 15 tiles. -/
def tileSum (f : Fin 19200 → EReal) (q : Fin 30) : EReal :=
  ∑ ρ : Fin 640, f ⟨q.val * 640 + ρ.val, by have := q.isLt; have := ρ.isLt; omega⟩
def coreSum (f : Fin 19200 → EReal) (c : Fin 2) : EReal :=
  ∑ i : Fin 15, tileSum f ⟨c.val * 15 + i.val, by have := c.isLt; have := i.isLt; omega⟩
def sumK (j : Fin 1600) : EReal :=
  coreSum (fun r => Yk x0 fm W b σi σo r j) 0 + coreSum (fun r => Yk x0 fm W b σi σo r j) 1
def sqK (j : Fin 1600) : EReal :=
  coreSum (fun r => Yk x0 fm W b σi σo r j * Yk x0 fm W b σi σo r j) 0
    + coreSum (fun r => Yk x0 fm W b σi σo r j * Yk x0 fm W b σi σo r j) 1
def meanK (j : Fin 1600) : EReal := Ideal.div (sumK x0 fm W b σi σo j) n19200
def varK (j : Fin 1600) : EReal :=
  max (Ideal.div (sqK x0 fm W b σi σo j) n19200 - meanK x0 fm W b σi σo j * meanK x0 fm W b σi σo j) 0
def invK (j : Fin 1600) : EReal := Ideal.rsqrt (varK x0 fm W b σi σo j + eps)
def outK (r : Fin 19200) (j : Fin 1600) : EReal :=
  max ((((Yk x0 fm W b σi σo r j - meanK x0 fm W b σi σo j) * invK x0 fm W b σi σo j) * gam (ix1 j)
    + bet (ix1 j)) + Xf x0 r j) 0
def resultK4 (n : Fin 64) (d : Fin 64) (t : Fin 300) (v : Fin 25) : EReal :=
  outK x0 fm W b gam bet σi σo (rowOf n t) (colOf v d)

end

/-! ## The two kernels' bodies as functions of whatever arrays they are handed -/

/-- One row of a 19200×1600 array times a 1600×1600 matrix, plus a bias row: what the first kernel stores. -/
def ymat (X : (⟨2, ![19200, 1600]⟩ : Shape).Idx → EReal) (T : (⟨2, ![1600, 1600]⟩ : Shape).Idx → EReal)
    (B : (⟨2, ![1, 1600]⟩ : Shape).Idx → EReal) (r : Fin 19200) (j : Fin 1600) : EReal :=
  (∑ k : Fin 1600, X (ix2 r k) * T (ix2 k j)) + B (ix2 0 j)
/-- The second kernel's body: normalise by the row vectors it is handed, scale, shift, add the residual, clamp at 0. -/
def bnrow (y x : (⟨2, ![19200, 1600]⟩ : Shape).Idx → EReal) (mu inv g be : (⟨2, ![1, 1600]⟩ : Shape).Idx → EReal)
    (r : Fin 19200) (j : Fin 1600) : EReal :=
  max (((((y (ix2 r j) - mu (ix2 0 j)) * inv (ix2 0 j)) * g (ix2 0 j)) + be (ix2 0 j)) + x (ix2 r j)) 0

end Cert.Spec

end
-- ==== Proof.KI.HostA.lean ====
/-
  The host operations that run before the first kernel, read at an index over the extended reals.

  Two arrays matter downstream.

  • The first kernel's row operand: the input x0[n, c, t, v] with its channel axis moved last and the four axes
    flattened to 19200 × 1600. A flattening keeps the row-major position, so row r = n·300 + t and column
    k = v·64 + c hold x0[n, c, t, v]: this is `Spec.Xf`.

  • The block-diagonal matrix handed on to the column gather. The program builds the 25 × 64 array tanh(mask) + 1,
    spreads it and W over a 25 × 64 × 64 array and multiplies: entry (v, c, d) is (tanh(mask[v, c]) + 1) · W[c, d].
    It builds the 25 × 25 identity by comparing a row counter with a column counter and reading the one-bit answer
    as a number, spreads both over 25 × 64 × 25 × 64, multiplies, and flattens to 1600 × 1600. Entry (k, j') with
    k = v·64 + c and j' = v'·64 + d is therefore (tanh(mask[v, c]) + 1) · W[c, d] · [v = v']: this is `Spec.Mblock`.

  Every step below reads ONE operation at an index given by coordinates: a flattening by the equality of row-major
  positions (linear arithmetic with division by the literal extents), a transpose and a broadcast axis by axis.
-/
import proofs.«428867_j23261542875775_2_alg».proof.Proof.Gen.KernelIdeal.Launch
import proofs.«428867_j23261542875775_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Hand

open Idealize.ShloMosaic Idealize.ShloMosaic.ValueIdx
open Cert.KernelIdeal Cert.KernelIdeal.Gen

/-! ## The flattened input -/

/-- The input with the channel axis moved last, flattened: at row `r`, column `k` it is x0 at sample `r / 300`,
    channel `k % 64`, frame `r % 300`, joint `k / 64`. -/
theorem xf_read (x : FVec Ideal S64x64x300x25 .f32) (r : Fin 19200) (k : Fin 1600) :
    shapeCast S19200x1600
        (transpose S64x300x25x64 [0, 2, 3, 1] x transposes_S64x64x300x25_S64x300x25x64_0_2_3_1)
        shapeCasts_S64x300x25x64_S19200x1600 (ix2 r k)
      = Spec.Xf x r k := by
  -- the flattening: position ((n·300 + t)·25 + v)·64 + c is r·1600 + k
  refine (shapeCast_apply _ _ (ix2 r k) (ix4 (Spec.rowN r) (Spec.rowT r) (Spec.colV k) (Spec.colC k)) ?_).trans ?_
  · rw [Shape.rowMajor_val_four, Shape.rowMajor_val_two]
    show ((r.val / 300 * 300 + r.val % 300) * 25 + k.val / 64) * 64 + k.val % 64 = r.val * 1600 + k.val
    omega
  -- the transpose: result axes (n, t, v, c) are source axes (0, 2, 3, 1)
  · exact transpose_apply _ x _ _ (ix4 (Spec.rowN r) (Spec.colC k) (Spec.rowT r) (Spec.colV k))
      fun b => match b with | ⟨0, _⟩ => rfl | ⟨1, _⟩ => rfl | ⟨2, _⟩ => rfl | ⟨3, _⟩ => rfl

/-- What the operations leave in the first kernel's row operand, whatever the buffers held on entry. -/
theorem hostA_v1 (Vin : Valuation τ sig (Elt Ideal)) :
    StableHlo.after hostOps0 Vin (Proc.devRef .tc main_v1)
      = fun i => Spec.Xf (Vin (Proc.devRef .tc main_arg0)) (i 0) (i 1) := by
  have e : (StableHlo.after (hostOps0 (F := Ideal)) Vin (Proc.devRef .tc main_v1) : S19200x1600.Idx → EReal)
      = fun i => shapeCast S19200x1600
          (transpose S64x300x25x64 [0, 2, 3, 1] (Vin (Proc.devRef .tc main_arg0))
            transposes_S64x64x300x25_S64x300x25x64_0_2_3_1)
          shapeCasts_S64x300x25x64_S19200x1600 i := by
    after_results
    rfl
  refine e.trans (funext fun i => ?_)
  obtain ⟨r, k, rfl⟩ : ∃ (r : Fin 19200) (k : Fin 1600), i = ix2 r k := ⟨i 0, i 1, eq_ix2 i⟩
  exact xf_read (Vin (Proc.devRef .tc main_arg0)) r k

/-! ## The block-diagonal matrix, stage by stage -/

/-- tanh(mask) + 1 as the program builds it: the mask's unit axis dropped, the host's tanh, the literal 1.0 spread. -/
def maskArr (fm : FVec Ideal S1x25x64 .f32) : FVec Ideal S25x64 .f32 :=
  addf (Host.tanh (shapeCast S25x64 fm shapeCasts_S1x25x64_S25x64))
    (broadcastInDim S25x64 ![] bcast_S_S25x64 (constant S_ .f32 0x3F800000#32))

theorem maskArr_read (fm : FVec Ideal S1x25x64 .f32) (v : Fin 25) (c : Fin 64) :
    maskArr fm (ix2 v c) = Spec.Mk fm v c := by
  have h1 : shapeCast S25x64 fm shapeCasts_S1x25x64_S25x64 (ix2 v c) = fm (ix3 (0 : Fin 1) v c) :=
    shapeCast_1ab_ab_apply fm shapeCasts_S1x25x64_S25x64 v c
  have h2 : broadcastInDim S25x64 ![] bcast_S_S25x64 (constant (F := Ideal) S_ .f32 0x3F800000#32) (ix2 v c) = Spec.one :=
    broadcastInDim_scalar_apply bcast_S_S25x64 _ _
  show Ideal.tanh (shapeCast S25x64 fm shapeCasts_S1x25x64_S25x64 (ix2 v c))
      + broadcastInDim S25x64 ![] bcast_S_S25x64 (constant (F := Ideal) S_ .f32 0x3F800000#32) (ix2 v c)
    = Ideal.tanh (fm (ix3 0 v c)) + Spec.one
  rw [h1, h2]

/-- A 25 × 64 array and a 64 × 64 array spread over 25 × 64 × 64 and multiplied: entry (v, c, d) is A[v, c] · W[c, d]. -/
def prodArr (A : FVec Ideal S25x64 .f32) (W : FVec Ideal S64x64 .f32) : FVec Ideal S25x64x64 .f32 :=
  mulf
    (broadcastInDim S25x64x64 ![0, 1, 2] bcast_S25x64x1_S25x64x64_0_1_2
      (broadcastInDim S25x64x1 ![0, 1] bcast_S25x64_S25x64x1_0_1 A))
    (broadcastInDim S25x64x64 ![0, 1, 2] bcast_S1x64x64_S25x64x64_0_1_2
      (broadcastInDim S1x64x64 ![1, 2] bcast_S64x64_S1x64x64_1_2 W))

theorem prodArr_read (A : FVec Ideal S25x64 .f32) (W : FVec Ideal S64x64 .f32) (v : Fin 25) (c d : Fin 64) :
    prodArr A W (ix3 v c d) = A (ix2 v c) * W (ix2 c d) := by
  have hA : broadcastInDim S25x64x64 ![0, 1, 2] bcast_S25x64x1_S25x64x64_0_1_2
      (broadcastInDim S25x64x1 ![0, 1] bcast_S25x64_S25x64x1_0_1 A) (ix3 v c d) = A (ix2 v c) :=
    (broadcastInDim_apply _ _ _ (ix3 v c d) (ix3 v c (0 : Fin 1))
      fun a => match a with | ⟨0, _⟩ => rfl | ⟨1, _⟩ => rfl | ⟨2, _⟩ => rfl).trans
    (broadcastInDim_apply _ _ A (ix3 v c (0 : Fin 1)) (ix2 v c)
      fun a => match a with | ⟨0, _⟩ => rfl | ⟨1, _⟩ => rfl)
  have hW : broadcastInDim S25x64x64 ![0, 1, 2] bcast_S1x64x64_S25x64x64_0_1_2
      (broadcastInDim S1x64x64 ![1, 2] bcast_S64x64_S1x64x64_1_2 W) (ix3 v c d) = W (ix2 c d) :=
    (broadcastInDim_apply _ _ _ (ix3 v c d) (ix3 (0 : Fin 1) c d)
      fun a => match a with | ⟨0, _⟩ => rfl | ⟨1, _⟩ => rfl | ⟨2, _⟩ => rfl).trans
    (broadcastInDim_apply _ _ W (ix3 (0 : Fin 1) c d) (ix2 c d)
      fun a => match a with | ⟨0, _⟩ => rfl | ⟨1, _⟩ => rfl)
  show _ * _ = _
  rw [hA, hW]

/-- The 25 × 25 identity as the program builds it: the row counter (plus a zero word) compared with the column
    counter, the one-bit answer read as a number. -/
def eyeArr : FVec Ideal S25x25 .f32 :=
  uitofp .f32
    (cmpi .eq (addi (iotaInDim S25x25 32 0) (broadcastInDim S25x25 ![] bcast_S_S25x25 (constantI S_ 32 0#32)))
      (iotaInDim S25x25 32 1))

/-- Two counters below 25 are equal as 32-bit words exactly when they are equal. -/
theorem eye_word (v v' : Fin 25) :
    (((BitVec.ofBool (BitVec.ofNat 32 v.val + 0#32 == BitVec.ofNat 32 v'.val)).toNat : ℝ) : EReal) = Spec.eye v v' := by
  unfold Spec.eye
  by_cases h : v = v'
  · subst h
    simp
  · rw [if_neg h]
    have hne : (BitVec.ofNat 32 v.val + 0#32 == BitVec.ofNat 32 v'.val) = false := by
      rw [BitVec.add_zero, beq_eq_false_iff_ne]
      intro e
      apply h
      apply Fin.ext
      have e' := congrArg BitVec.toNat e
      simp only [BitVec.toNat_ofNat] at e'
      have := v.isLt
      have := v'.isLt
      omega
    rw [hne]
    simp

theorem eyeArr_read (v v' : Fin 25) : eyeArr (ix2 v v') = Spec.eye v v' := by
  have h0 : broadcastInDim S25x25 ![] bcast_S_S25x25 (constantI S_ 32 0#32) (ix2 v v') = 0#32 :=
    broadcastInDim_scalar_apply bcast_S_S25x25 _ _
  show (((BitVec.ofBool (BitVec.ofNat 32 v.val + broadcastInDim S25x25 ![] bcast_S_S25x25 (constantI S_ 32 0#32) (ix2 v v')
      == BitVec.ofNat 32 v'.val)).toNat : ℝ) : EReal) = _
  rw [h0]
  exact eye_word v v'

/-- A 25 × 64 × 64 array and a 25 × 25 array spread over 25 × 64 × 25 × 64 and multiplied: entry (v, c, v', d) is
    P[v, c, d] · E[v, v']. -/
def blockArr (P : FVec Ideal S25x64x64 .f32) (E : FVec Ideal S25x25 .f32) : FVec Ideal S25x64x25x64 .f32 :=
  mulf
    (broadcastInDim S25x64x25x64 ![0, 1, 2, 3] bcast_S25x64x1x64_S25x64x25x64_0_1_2_3
      (broadcastInDim S25x64x1x64 ![0, 1, 3] bcast_S25x64x64_S25x64x1x64_0_1_3 P))
    (broadcastInDim S25x64x25x64 ![0, 1, 2, 3] bcast_S25x1x25x1_S25x64x25x64_0_1_2_3
      (broadcastInDim S25x1x25x1 ![0, 2] bcast_S25x25_S25x1x25x1_0_2 E))

theorem blockArr_read (P : FVec Ideal S25x64x64 .f32) (E : FVec Ideal S25x25 .f32)
    (v : Fin 25) (c : Fin 64) (v' : Fin 25) (d : Fin 64) :
    blockArr P E (ix4 v c v' d) = P (ix3 v c d) * E (ix2 v v') := by
  have hP : broadcastInDim S25x64x25x64 ![0, 1, 2, 3] bcast_S25x64x1x64_S25x64x25x64_0_1_2_3
      (broadcastInDim S25x64x1x64 ![0, 1, 3] bcast_S25x64x64_S25x64x1x64_0_1_3 P) (ix4 v c v' d) = P (ix3 v c d) :=
    (broadcastInDim_apply _ _ _ (ix4 v c v' d) (ix4 v c (0 : Fin 1) d)
      fun a => match a with | ⟨0, _⟩ => rfl | ⟨1, _⟩ => rfl | ⟨2, _⟩ => rfl | ⟨3, _⟩ => rfl).trans
    (broadcastInDim_apply _ _ P (ix4 v c (0 : Fin 1) d) (ix3 v c d)
      fun a => match a with | ⟨0, _⟩ => rfl | ⟨1, _⟩ => rfl | ⟨2, _⟩ => rfl)
  have hE : broadcastInDim S25x64x25x64 ![0, 1, 2, 3] bcast_S25x1x25x1_S25x64x25x64_0_1_2_3
      (broadcastInDim S25x1x25x1 ![0, 2] bcast_S25x25_S25x1x25x1_0_2 E) (ix4 v c v' d) = E (ix2 v v') :=
    (broadcastInDim_apply _ _ _ (ix4 v c v' d) (ix4 v (0 : Fin 1) v' (0 : Fin 1))
      fun a => match a with | ⟨0, _⟩ => rfl | ⟨1, _⟩ => rfl | ⟨2, _⟩ => rfl | ⟨3, _⟩ => rfl).trans
    (broadcastInDim_apply _ _ E (ix4 v (0 : Fin 1) v' (0 : Fin 1)) (ix2 v v')
      fun a => match a with | ⟨0, _⟩ => rfl | ⟨1, _⟩ => rfl)
  show _ * _ = _
  rw [hP, hE]

/-- The 25 × 64 × 25 × 64 array flattened to 1600 × 1600: position ((v·64 + c)·25 + v')·64 + d is k·1600 + j'. -/
theorem flat_read (Q : FVec Ideal S25x64x25x64 .f32) (k j' : Fin 1600) :
    shapeCast S1600x1600 Q shapeCasts_S25x64x25x64_S1600x1600 (ix2 k j')
      = Q (ix4 (Spec.colV k) (Spec.colC k) (Spec.colV j') (Spec.colC j')) := by
  refine shapeCast_apply _ _ (ix2 k j') (ix4 (Spec.colV k) (Spec.colC k) (Spec.colV j') (Spec.colC j')) ?_
  rw [Shape.rowMajor_val_four, Shape.rowMajor_val_two]
  show ((k.val / 64 * 64 + k.val % 64) * 25 + j'.val / 64) * 64 + j'.val % 64 = k.val * 1600 + j'.val
  omega

/-- The operations' own term for the block-diagonal matrix: each operation's result put in for its buffer. -/
theorem term_v22 (Vin : Valuation τ sig (Elt Ideal)) :
    (StableHlo.after (hostOps0 (F := Ideal)) Vin (Proc.devRef .tc main_v22) : S1600x1600.Idx → EReal)
      = fun i => shapeCast S1600x1600
          (blockArr (prodArr (maskArr (Vin (Proc.devRef .tc main_arg1))) (Vin (Proc.devRef .tc main_arg2))) eyeArr)
          shapeCasts_S25x64x25x64_S1600x1600 i := by
  after_results_simp
  rfl

/-- What the operations leave in the block-diagonal matrix, whatever the buffers held on entry. -/
theorem hostA_v22 (Vin : Valuation τ sig (Elt Ideal)) :
    StableHlo.after hostOps0 Vin (Proc.devRef .tc main_v22)
      = fun i => Spec.Mblock (Vin (Proc.devRef .tc main_arg1)) (Vin (Proc.devRef .tc main_arg2)) (i 0) (i 1) := by
  refine (term_v22 Vin).trans (funext fun i => ?_)
  obtain ⟨k, j', rfl⟩ : ∃ (k j' : Fin 1600), i = ix2 k j' := ⟨i 0, i 1, eq_ix2 i⟩
  refine (flat_read _ k j').trans ?_
  refine (blockArr_read _ _ _ _ _ _).trans ?_
  rw [prodArr_read, maskArr_read, eyeArr_read]
  rfl

end Cert.KernelIdeal.Hand
-- ==== Proof.KI.HostB1.lean ====
/-
  jnp.take along axis 1, as the host computes it, at the ideal values.

  `take(M, s, axis = 1)` of a 1600×1600 matrix at a vector `s` of 1600 index words: each word is normalised (1600 is
  added to a negative one), the columns of `M` are gathered at the normalised words read signed and clamped into
  [0, 1599], and an entry is replaced by NaN where its word lay outside [0, 1599]. When every word is in [0, 1600) the
  normalisation leaves it, the clamp leaves it and the in-range mask is 1 everywhere, so entry (r, j) of the result is
  `M` at row r and column `s j`.
-/
import proofs.«428867_j23261542875775_2_alg».proof.Proof.Gen.KernelIdeal.Launch
import proofs.«428867_j23261542875775_2_alg».proof.Proof.Spec
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

/-! ## Words below 1600 -/

/-- A word below 1600 is not negative when read signed. -/
theorem not_slt_zero {w : BitVec 32} (h : w.toNat < 1600) : ¬ IntOp.cmpi .slt w 0#32 = 1#1 := fun e =>
  Nat.not_lt_zero _ ((Predicate.slt_iff_toNat (a := w) (b := 0#32) (by omega) (by decide)).1 e)

/-- Read signed, it is its value. -/
theorem toInt_toNat_small {w : BitVec 32} (h : w.toNat < 1600) : w.toInt.toNat = w.toNat := by
  rw [Predicate.toInt_eq_toNat_of_lt (a := w) (by omega)]; exact Int.toNat_natCast _

/-- It is at least the word 0 and at most the word 1599, compared signed. -/
theorem sge_zero {w : BitVec 32} (h : w.toNat < 1600) : IntOp.cmpi .sge w 0#32 = 1#1 :=
  (Predicate.sge_iff_toNat (a := w) (b := 0#32) (by omega) (by decide)).2 (Nat.zero_le _)
theorem sle_1599 {w : BitVec 32} (h : w.toNat < 1600) : IntOp.cmpi .sle w 1599#32 = 1#1 :=
  (Predicate.sle_iff_toNat (a := w) (b := 1599#32) (by omega) (by decide)).2 (by
    show w.toNat ≤ 1599; omega)

/-! ## The index vector as the gather and the scatter read it -/

/-- jnp's normalisation of an index that may be negative: `where(s < 0, s + 1600, s)`. -/
def normIdx (s : IVec S1600 32) : IVec S1600 32 :=
  select (cmpi .slt s (broadcastInDim S1600 ![] bcast_S_S1600 (constantI S_ 32 0#32)))
    (addi s (broadcastInDim S1600 ![] bcast_S_S1600 (constantI S_ 32 1600#32))) s

/-- A word in [0, 1600) is left as it is. -/
theorem normIdx_apply (s : IVec S1600 32) (k : Fin 1600) (h : (s (ix1 k)).toNat < 1600) : normIdx s (ix1 k) = s (ix1 k) :=
  if_neg (not_slt_zero h)

/-- The normalised words as a [1600 × 1] column of start indices. -/
def idxCol (s : IVec S1600 32) : IVec S1600x1 32 := broadcastInDim S1600x1 ![0] bcast_S1600_S1600x1_0 (normIdx s)

theorem idxCol_apply (s : IVec S1600 32) (k : Fin 1600) (z : Fin 1) (h : (s (ix1 k)).toNat < 1600) :
    idxCol s (ix2 k z) = s (ix1 k) := by
  unfold idxCol
  refine (broadcastInDim_apply _ _ _ (ix2 k z) (ix1 k) fun a => ?_).trans (normIdx_apply s k h)
  match a with
  | ⟨0, _⟩ => rfl

/-! ## The in-bounds mask is all ones -/

/-- An `and`-reduction from 1 over words that are all 1 is 1 at every result index. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a]; exact ih

/-- jnp's test that every start index lies in [0, 1599], reduced with `and` over the column's unit axis. -/
def inRange (c : IVec S1600x1 32) : IVec S1600 1 :=
  Host.reduce IntOp.andi
    (andi (cmpi .sge c (broadcastInDim S1600x1 ![] bcast_S_S1600x1 (constantI S_ 32 0#32)))
      (cmpi .sle c (broadcastInDim S1600x1 ![0, 1] bcast_S1x1_S1600x1_0_1
        (broadcastInDim S1x1 ![1] bcast_S1_S1x1_1 (constantI S1 32 1599#32)))))
    (constantI S_ 1 1#1) reducesTo_S1600x1_S1600_d1 h_S_

/-- Over start indices that are all in [0, 1600) it is 1 everywhere. -/
theorem inRange_apply (c : IVec S1600x1 32) (hc : ∀ i, (c i).toNat < 1600) (j : S1600.Idx) : inRange c j = 1#1 :=
  reduce_andi_ones _ _ _ _ j rfl fun i =>
    IntOp.andi_eq_one.2 ⟨sge_zero (hc i), sle_1599 (hc i)⟩

/-! ## A gather of whole columns, read at an element -/

/-- A list known to be a singleton has that element at every position. -/
theorem getElem_of_eq_singleton {β : Type} {l : List β} {b : β} (h : l = [b]) (i : Nat) (hi : i < l.length) : l[i] = b := by
  subst h
  have : i = 0 := by simpa using hi
  subst this; rfl

theorem fin2_zero_not_mem_one : (0 : Fin 2) ∉ [(1 : Fin 2)] := by decide

/-- `x[:, idx]` of a matrix: a `stablehlo.gather` whose start indices are an [n × 1] column, whose axis 1 of the operand is
    collapsed and start-indexed and whose axis 0 is carried whole as the result's offset axis 0. Element (r, p) of the
    result is the operand at row r and at the column p's start index names, read signed and clamped into the matrix. -/
theorem gather_cols {α : Type} {R N n w : Nat} (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) (hN : 0 < N) :
    Host.gather d x idx (ix2 r p)
      = x (ix2 r ⟨min (idx (ix2 p (0 : Fin 1))).toInt.toNat (N - 1), by omega⟩) := by
  unfold Host.gather
  congr 1
  funext a
  apply Fin.ext
  have hb : ∀ a : Fin 2, a ∉ d.operandBatchingDims := fun a => by rw [hob]; exact List.not_mem_nil
  match a with
  | ⟨0, _⟩ =>
    -- the row: not start-indexed, the result's offset coordinate
    have hk : (0 : Fin 2) ∈ d.sKept := by rw [GatherDims.mem_sKept, hcoll, hob]; exact ⟨fin2_zero_not_mem_one, List.not_mem_nil⟩
    have hm : (0 : Fin 2) ∉ d.startIndexMap := by rw [hsim]; exact fin2_zero_not_mem_one
    show d.start (ix2 r p) idx 0 + d.batchCoord (ix2 r p) 0 + d.offCoord (ix2 r p) 0 = r.val
    rw [GatherDims.batchCoord_eq_zero _ _ _ (hb _)]
    unfold GatherDims.start GatherDims.offCoord
    rw [dif_neg hm, dif_pos hk]
    simp only [Nat.zero_add, Nat.add_zero]
    exact congrArg (fun a : Fin 2 => ((ix2 r p : (⟨2, ![R, n]⟩ : Shape).Idx) a).val) (getElem_of_eq_singleton hoff _ _)
  | ⟨1, _⟩ =>
    -- the column: collapsed, its start the index word of result column p
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 r p) idx 1 + d.batchCoord (ix2 r p) 1 + d.offCoord (ix2 r p) 1 = min (idx (ix2 p (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 1) = _
    rw [hsl]
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      have hbd : d.batchDims = [1] := by
        show Shape.kept _ d.offsetDims = [1]
        rw [hoff]; rfl
      exact congrArg (fun a : Fin 2 => ((ix2 r p : (⟨2, ![R, n]⟩ : Shape).Idx) a).val) (getElem_of_eq_singleton hbd _ _)
    | ⟨1, _⟩ =>
      unfold GatherDims.siIdx
      rw [dif_pos (by rw [hivd])]
      apply Fin.ext
      show List.idxOf (1 : Fin 2) d.startIndexMap = 0
      rw [hsim]; simp

/-! ## jnp.take along axis 1 -/

/-- What `jnp.take(M, s, axis=1)` lowers to: the columns of `M` gathered at the normalised words, kept where the word
    is in range and NaN elsewhere. -/
def takeFn (M : FVec Ideal S1600x1600 .f32) (s : IVec S1600 32) : FVec Ideal S1600x1600 .f32 :=
  select (broadcastInDim S1600x1600 ![1] bcast_S1600_S1600x1600_1 (inRange (idxCol s)))
    (Host.gather gather_S1600x1600_S1600x1_S1600x1600_0_1_n_n_1_1_16001 M (idxCol s))
    (broadcastInDim S1600x1600 ![] bcast_S_S1600x1600 (constant S_ .f32 0x7FC00000#32))

/-- With every word in [0, 1600) it is the column gather itself: entry (r, j) is `M` at row r, column `s j`. -/
theorem takeFn_apply (M : FVec Ideal S1600x1600 .f32) (s : IVec S1600 32) (h : ∀ k : Fin 1600, (s (ix1 k)).toNat < 1600)
    (r j : Fin 1600) : takeFn M s (ix2 r j) = M (ix2 r ⟨(s (ix1 j)).toNat, h j⟩) := by
  have hc : ∀ i, (idxCol s i).toNat < 1600 := fun i => by
    obtain ⟨a, z, rfl⟩ : ∃ (a : Fin 1600) (z : Fin 1), i = ix2 a z := ⟨i 0, i 1, eq_ix2 i⟩
    rw [idxCol_apply s a z (h a)]; exact h a
  unfold takeFn
  rw [select_apply]
  -- the mask at (r, j) is the in-range bit of column j: 1
  have hmask : broadcastInDim S1600x1600 ![1] bcast_S1600_S1600x1600_1 (inRange (idxCol s)) (ix2 r j) = 1#1 :=
    (broadcastInDim_apply _ _ _ (ix2 r j) (ix1 j) fun a => by
      match a with
      | ⟨0, _⟩ => rfl).trans (inRange_apply _ hc _)
  rw [hmask, select_one]
  refine (gather_cols _ rfl rfl rfl rfl rfl M (idxCol s) r j (by decide)).trans ?_
  congr 2
  apply Fin.ext
  show min (idxCol s (ix2 j (0 : Fin 1))).toInt.toNat (1600 - 1) = (s (ix1 j)).toNat
  rw [idxCol_apply s j 0 (h j), toInt_toNat_small (h j)]
  have := h j; omega

/-! ## The stretch -/

variable (Vin : Valuation τ sig (Elt Ideal))

/-- The take's operations leave, at the call's result, `takeFn` of the matrix and the index vector they were entered with. -/
theorem after_take :
    (StableHlo.after (hostOps0_1 (F := Ideal)) Vin (Proc.devRef .tc main_v23) : FVec Ideal S1600x1600 .f32)
      = takeFn (Vin (Proc.devRef .tc main_v22)) (Vin (Proc.devRef .tc main_arg7)) := by
  after_results_simp
  rfl

/-- THE TAKE: with every index word in [0, 1600), entry (r, j) of the call's result is the entering matrix at row r and
    at the column the j-th word names. -/
theorem hostB1_v23 (M : (⟨2, ![1600, 1600]⟩ : Shape).Idx → EReal) (hM : Vin (Proc.devRef .tc main_v22) = M)
    (h7 : ∀ k : Fin 1600, ((Vin (Proc.devRef .tc main_arg7)) (ix1 k)).toNat < 1600) :
    StableHlo.after hostOps0_1 Vin (Proc.devRef .tc main_v23)
      = fun i => M (ix2 (i 0) (Spec.sig (Vin (Proc.devRef .tc main_arg7)) h7 (i 1))) := by
  refine (after_take Vin).trans ?_
  rw [hM]
  funext i
  obtain ⟨r, j, rfl⟩ : ∃ (r j : Fin 1600), i = ix2 r j := ⟨i 0, i 1, eq_ix2 i⟩
  exact takeFn_apply M _ h7 r j

end Cert.KernelIdeal.Hand

end
-- ==== Proof.KI.ScatterIdx.lean ====
/-
  Where an update of the row scatter-add lands.

  `zeros.at[s].add(U)` over the rows of a 1600×1600 matrix is a scatter whose indices are the 1600 words of `s` as a
  column: update element (k, q) goes to the operand's row `s k` (read signed, not clamped) and column q, and is dropped if
  that is outside the operand. With the word below 1600 it is inside, so (k, q) lands exactly at (s k, q).
-/
import proofs.«428867_j23261542875775_2_alg».proof.Proof.KI.HostB1

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

/-! ## Where an update of the row scatter lands -/

theorem fin2_one_not_mem_zero : (1 : Fin 2) ∉ [(0 : Fin 2)] := by decide

/-- `x.at[idx].add(u)` over the rows of a matrix: a `stablehlo.scatter` whose scatter indices are an [n × 1] column, whose
    operand axis 0 is the inserted, scattered one and whose axis 1 is the update's window axis. For update element (k, q)
    the start plus the window coordinate is, on axis 0, the k-th index word read signed, and on axis 1 the column q. -/
theorem scatter_rows_terms {K C n w : Nat} (d : ScatterDims ⟨2, ![K, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (k : Fin n) (q : Fin C) :
    d.start (ix2 k q) idx 0 + d.window (ix2 k q) 0 = (idx (ix2 k (0 : Fin 1))).toInt
      ∧ d.start (ix2 k q) idx 1 + d.window (ix2 k q) 1 = (q.val : Int) := by
  have hkept : ∀ a : Fin 2, a ∈ d.sKept ↔ a ∉ d.insertedWindowDims := fun a => by
    simp [ScatterDims.sKept, Shape.kept, List.mem_filter, List.mem_finRange]
  constructor
  · -- axis 0: the scattered axis; no window coordinate
    have hm : (0 : Fin 2) ∈ d.scatterDimsToOperandDims := by rw [hsd]; exact List.mem_singleton.mpr rfl
    have hk : (0 : Fin 2) ∉ d.sKept := by rw [hkept, hiw]; exact fun h => h (List.mem_singleton.mpr rfl)
    unfold ScatterDims.start ScatterDims.window
    rw [dif_pos hm, dif_neg hk]
    simp only [Nat.cast_zero, add_zero]
    congr 2
    funext b
    match b with
    | ⟨0, _⟩ =>
      unfold ScatterDims.siIdx
      rw [dif_neg (by rw [hivd]; exact Nat.zero_ne_one)]
      unfold ScatterDims.siCoord
      apply Fin.ext
      simp only [Fin.val_cast]
      have hus : d.uScatter = [0] := by
        show Shape.kept _ d.updateWindowDims = [0]
        rw [huw]; rfl
      exact congrArg (fun a : Fin 2 => ((ix2 k q : (⟨2, ![n, C]⟩ : Shape).Idx) a).val) (getElem_of_eq_singleton hus _ _)
    | ⟨1, _⟩ =>
      unfold ScatterDims.siIdx
      rw [dif_pos (by rw [hivd])]
      apply Fin.ext
      show List.idxOf (0 : Fin 2) d.scatterDimsToOperandDims = 0
      rw [hsd]; simp
  · -- axis 1: not scattered; the update's window coordinate
    have hm : (1 : Fin 2) ∉ d.scatterDimsToOperandDims := by rw [hsd]; exact fin2_one_not_mem_zero
    have hk : (1 : Fin 2) ∈ d.sKept := by rw [hkept, hiw]; exact fin2_one_not_mem_zero
    unfold ScatterDims.start ScatterDims.window
    rw [dif_neg hm, dif_pos hk]
    simp only [zero_add]
    congr 1
    exact congrArg (fun a : Fin 2 => ((ix2 k q : (⟨2, ![n, C]⟩ : Shape).Idx) a).val) (getElem_of_eq_singleton huw _ _)

/-- An update element whose start plus window coordinate is, on the two axes, the naturals `r` and `c` inside the operand
    lands at (r, c) and nowhere else. -/
theorem resultIdx_iff_of_terms {K C n w : Nat} (d : ScatterDims ⟨2, ![K, C]⟩ ⟨2, ![n, 1]⟩ ⟨2, ![n, C]⟩)
    (idx : IVec ⟨2, ![n, 1]⟩ w) (j : (⟨2, ![n, C]⟩ : Shape).Idx) (r : Fin K) (c : Fin C)
    (e0 : d.start j idx 0 + d.window j 0 = (r.val : Int)) (e1 : d.start j idx 1 + d.window j 1 = (c.val : Int))
    (i : (⟨2, ![K, C]⟩ : Shape).Idx) :
    d.resultIdx? j idx = some i ↔ r.val = (i 0).val ∧ c.val = (i 1).val := by
  have hall : ∀ a, 0 ≤ d.start j idx a + d.window j a
      ∧ d.start j idx a + d.window j a < (⟨2, ![K, C]⟩ : Shape).size a := by
    intro a
    match a with
    | ⟨0, _⟩ =>
      show 0 ≤ d.start j idx 0 + d.window j 0 ∧ d.start j idx 0 + d.window j 0 < ((K : Nat) : Int)
      rw [e0]; exact ⟨Int.natCast_nonneg _, by exact_mod_cast r.isLt⟩
    | ⟨1, _⟩ =>
      show 0 ≤ d.start j idx 1 + d.window j 1 ∧ d.start j idx 1 + d.window j 1 < ((C : Nat) : Int)
      rw [e1]; exact ⟨Int.natCast_nonneg _, by exact_mod_cast c.isLt⟩
  unfold ScatterDims.resultIdx?
  rw [dif_pos hall, Option.some.injEq]
  constructor
  · intro e
    subst e
    constructor
    · show r.val = (d.start j idx 0 + d.window j 0).toNat
      rw [e0, Int.toNat_natCast]
    · show c.val = (d.start j idx 1 + d.window j 1).toNat
      rw [e1, Int.toNat_natCast]
  · rintro ⟨h0, h1⟩
    funext a
    apply Fin.ext
    match a with
    | ⟨0, _⟩ =>
      show (d.start j idx 0 + d.window j 0).toNat = (i 0).val
      rw [e0, Int.toNat_natCast]; exact h0
    | ⟨1, _⟩ =>
      show (d.start j idx 1 + d.window j 1).toNat = (i 1).val
      rw [e1, Int.toNat_natCast]; exact h1

/-- THE ROW SCATTER'S LANDING PLACE: with the k-th index word below 1600, update element (k, q) lands inside the operand,
    at the row the word names and at column q. -/
theorem scatter_resultIdx_iff (idx : IVec S1600x1 32) (k q : Fin 1600) (i : S1600x1600.Idx)
    (h : (idx (ix2 k (0 : Fin 1))).toNat < 1600) :
    scatter_S1600x1600_S1600x1_S1600x1600_1_0_0_1.resultIdx? (ix2 k q) idx = some i
      ↔ (idx (ix2 k (0 : Fin 1))).toNat = (i 0).val ∧ q = i 1 := by
  obtain ⟨e0, e1⟩ := scatter_rows_terms scatter_S1600x1600_S1600x1_S1600x1600_1_0_0_1 rfl rfl rfl rfl idx k q
  rw [Predicate.toInt_eq_toNat_of_lt (a := idx (ix2 k (0 : Fin 1))) (by omega)] at e0
  refine (resultIdx_iff_of_terms _ idx (ix2 k q) ⟨(idx (ix2 k (0 : Fin 1))).toNat, h⟩ q e0 e1 i).trans ?_
  exact and_congr_right fun _ => Fin.ext_iff.symm

end Cert.KernelIdeal.Hand

end
-- ==== Proof.KI.HostB2.lean ====
/-
  The folded matrix's rows, as the host computes them: a scatter-add of the rows of a matrix.

  The host starts from the 1600×1600 zero matrix and adds row k of the update matrix `Mo` into the row that index word
  k names (negative words are first moved up by 1600; a word in [0, 1600) is left as it is); the result is then
  converted to bf16, which is the identity on extended reals. An update element (k, q) lands on the operand element
  (word k, q), so entry (p, q) of the result is 0 plus the sum of `Mo (k, q)` over the k whose word is p.
-/
import proofs.«428867_j23261542875775_2_alg».proof.Proof.Gen.KernelIdeal.Launch
import proofs.«428867_j23261542875775_2_alg».proof.Proof.Spec
import proofs.«428867_j23261542875775_2_alg».proof.Proof.KI.HostB1
import proofs.«428867_j23261542875775_2_alg».proof.Proof.KI.ScatterIdx
import Idealize.ShloMosaic.Lib.StableHlo.Run
import Idealize.ShloMosaic.Lib.StableHlo.Predicate
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

/-! ## The scatter-add of rows -/

/-- The zero matrix the scatter accumulates into. -/
def zeroMat : FVec Ideal S1600x1600 .f32 :=
  broadcastInDim S1600x1600 ![] bcast_S_S1600x1600 (constant S_ .f32 0x00000000#32)

/-- It is 0 at every element. -/
theorem zeroMat_apply (i : S1600x1600.Idx) : zeroMat i = 0 := by
  unfold zeroMat
  rw [Predicate.bcast_scalar bcast_S_S1600x1600 h_S_]
  exact Ideal.ofBits_zero_f32

/-- What `zeros.at[s].add(Mo)` followed by the conversion to bf16 lowers to. -/
def scatterFn (Mo : FVec Ideal S1600x1600 .f32) (s : IVec S1600 32) : FVec Ideal S1600x1600 .bf16 :=
  truncf .bf16 (Host.scatterAdd scatter_S1600x1600_S1600x1_S1600x1600_1_0_0_1 zeroMat (idxCol s) Mo) bitsLt_bf16_f32

/-- With every word in [0, 1600): entry (p, q) is the sum of `Mo (k, q)` over the k whose word is p. -/
theorem scatterFn_apply (Mo : FVec Ideal S1600x1600 .f32) (s : IVec S1600 32)
    (h6 : ∀ k : Fin 1600, (s (ix1 k)).toNat < 1600) (p q : Fin 1600) :
    scatterFn Mo s (ix2 p q)
      = ∑ k ∈ Finset.univ.filter (fun k : Fin 1600 => Spec.sig s h6 k = p), Mo (ix2 k q) := by
  -- an update index (a, b) lands on (p, q) exactly when word a is p and b is q
  have hP : ∀ a b : Fin 1600,
      scatter_S1600x1600_S1600x1_S1600x1600_1_0_0_1.resultIdx? (ix2 a b) (idxCol s) = some (ix2 p q)
        ↔ Spec.sig s h6 a = p ∧ b = q := fun a b => by
    have hlt : (idxCol s (ix2 a (0 : Fin 1))).toNat < 1600 := by rw [idxCol_apply s a 0 (h6 a)]; exact h6 a
    refine (scatter_resultIdx_iff (idxCol s) a b (ix2 p q) hlt).trans ?_
    rw [idxCol_apply s a 0 (h6 a)]
    exact and_congr_left' ⟨fun h => Fin.ext h, fun h => congrArg Fin.val h⟩
  show zeroMat (ix2 p q)
      + ∑ j ∈ Finset.univ.filter (fun j => scatter_S1600x1600_S1600x1_S1600x1600_1_0_0_1.resultIdx? j (idxCol s) = some (ix2 p q)), Mo j = _
  rw [zeroMat_apply, zero_add]
  refine Finset.sum_bij (fun j _ => (j 0 : Fin 1600)) (fun j hj => ?_) (fun j hj j' hj' e => ?_) (fun k hk => ?_) (fun j hj => ?_)
  · obtain ⟨a, b, rfl⟩ : ∃ (a b : Fin 1600), j = ix2 a b := ⟨j 0, j 1, eq_ix2 j⟩
    exact Finset.mem_filter.2 ⟨Finset.mem_univ _, ((hP a b).1 (Finset.mem_filter.1 hj).2).1⟩
  · obtain ⟨a, b, rfl⟩ : ∃ (a b : Fin 1600), j = ix2 a b := ⟨j 0, j 1, eq_ix2 j⟩
    obtain ⟨a', b', rfl⟩ : ∃ (a' b' : Fin 1600), j' = ix2 a' b' := ⟨j' 0, j' 1, eq_ix2 j'⟩
    have h1 := ((hP a b).1 (Finset.mem_filter.1 hj).2).2
    have h1' := ((hP a' b').1 (Finset.mem_filter.1 hj').2).2
    have e' : a = a' := e
    rw [e', h1, h1']
  · exact ⟨ix2 k q, Finset.mem_filter.2 ⟨Finset.mem_univ _, (hP k q).2 ⟨(Finset.mem_filter.1 hk).2, rfl⟩⟩, rfl⟩
  · obtain ⟨a, b, rfl⟩ : ∃ (a b : Fin 1600), j = ix2 a b := ⟨j 0, j 1, eq_ix2 j⟩
    have h1 := ((hP a b).1 (Finset.mem_filter.1 hj).2).2
    rw [h1]

/-! ## The stretch -/

variable (Vin2 : Valuation τ sig (Elt Ideal))

set_option maxHeartbeats 2000000 in
/-- The stretch's operations leave, in the folded matrix's buffer, `scatterFn` of the matrix and the index vector they
    were entered with. -/
theorem after_scatter :
    (StableHlo.after (hostOps0_2 (F := Ideal)) Vin2 (Proc.devRef .tc main_v32) : FVec Ideal S1600x1600 .bf16)
      = scatterFn (Vin2 (Proc.devRef .tc main_v23)) (Vin2 (Proc.devRef .tc main_arg6)) := by
  after_results_simp
  rfl

/-- THE SCATTER-ADD: with every index word in [0, 1600), entry (p, q) of the folded matrix's buffer is the sum over the
    k whose word is p of the entering matrix at (k, q). -/
theorem hostB2_v32 (Mo : (⟨2, ![1600, 1600]⟩ : Shape).Idx → EReal) (hMo : Vin2 (Proc.devRef .tc main_v23) = Mo)
    (h6 : ∀ k : Fin 1600, ((Vin2 (Proc.devRef .tc main_arg6)) (ix1 k)).toNat < 1600) :
    StableHlo.after hostOps0_2 Vin2 (Proc.devRef .tc main_v32)
      = fun i => ∑ k ∈ Finset.univ.filter (fun k : Fin 1600 => Spec.sig (Vin2 (Proc.devRef .tc main_arg6)) h6 k = i 0),
          Mo (ix2 k (i 1)) := by
  refine (after_scatter Vin2).trans ?_
  rw [hMo]
  funext i
  obtain ⟨p, q, rfl⟩ : ∃ (p q : Fin 1600), i = ix2 p q := ⟨i 0, i 1, eq_ix2 i⟩
  exact scatterFn_apply Mo _ h6 p q

/-- The same, read at one element. -/
theorem hostB2_v32_apply (Mo : (⟨2, ![1600, 1600]⟩ : Shape).Idx → EReal) (hMo : Vin2 (Proc.devRef .tc main_v23) = Mo)
    (h6 : ∀ k : Fin 1600, ((Vin2 (Proc.devRef .tc main_arg6)) (ix1 k)).toNat < 1600) (k' j : Fin 1600) :
    StableHlo.after hostOps0_2 Vin2 (Proc.devRef .tc main_v32) (ix2 k' j)
      = ∑ k ∈ Finset.univ.filter (fun k : Fin 1600 => Spec.sig (Vin2 (Proc.devRef .tc main_arg6)) h6 k = k'),
          Mo (ix2 k j) := by
  refine (congrFun (after_scatter Vin2) (ix2 k' j)).trans ?_
  rw [hMo]
  exact scatterFn_apply Mo _ h6 k' j

end Cert.KernelIdeal.Hand

end
-- ==== Proof.KI.HostB3.lean ====
/-
  The bias row the first kernel adds. The host lays the 64 biases out over the 1600 columns (column k holds the bias of
  channel k mod 64: reshape, repeat over the 25 joints, flatten), then takes the entries the output index vector names:
  entry j of the result is the laid-out bias at position σo(j). The index words are nonnegative, so the wrap-around
  "w < 0 ? w + 1600 : w" returns w itself, and they are below 1600, so the take's clamp to [0, 1599] does nothing.
  Also: the two host stretches leave alone every buffer they do not write.
-/
import proofs.«428867_j23261542875775_2_alg».proof.Proof.Gen.KernelIdeal.Regions
import proofs.«428867_j23261542875775_2_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen

namespace HostB3

/-! ## Indices in either spelling -/

theorem ofFin_eq_ix1 {n : Nat} (k : Fin n) : Shape.Idx.ofFin k = ix1 k := by
  funext a; match a with | ⟨0, _⟩ => exact Fin.ext rfl

theorem ij_eq_ix2 {n m : Nat} (p : Fin n) (q : Fin m) : StableHlo.Predicate.ij p q = ix2 p q := by
  funext a; match a with | ⟨0, _⟩ => rfl | ⟨1, _⟩ => rfl

theorem i1q_eq_ix2 {m : Nat} (q : Fin m) : StableHlo.Predicate.i1q q = ix2 (0 : Fin 1) q := by
  funext a; match a with | ⟨0, _⟩ => rfl | ⟨1, _⟩ => rfl

/-! ## The pieces of the row, each read at one position -/

/-- The biases laid out over the 1600 columns: column k holds the bias of channel k mod 64. -/
theorem table_apply (h1 : S1x1x64.ShapeCasts S64) (h2 : S64.ShapeCasts S1x64)
    (hb : S1x64.BroadcastsInDim S25x64 (![0, 1] : Fin 2 → Fin S25x64.rank)) (h3 : S25x64.ShapeCasts S1600)
    (b : S1x1x64.Idx → EReal) (k : Fin 1600) :
    shapeCast S1600 (broadcastInDim S25x64 ![0, 1] hb (shapeCast S1x64 (shapeCast S64 b h1) h2)) h3 (ix1 k)
      = b (ix3 0 0 (Spec.colC k)) := by
  refine (shapeCast_apply _ h3 (ix1 k) (ix2 (Spec.colV k) (Spec.colC k)) ?_).trans ?_
  · rw [Shape.rowMajor_val_two, Shape.rowMajor_val_one]
    show (k.val / 64) * 64 + k.val % 64 = k.val
    omega
  rw [← ij_eq_ix2]
  refine (StableHlo.Predicate.bcast_of_row hb _ (Spec.colV k) (Spec.colC k)).trans ?_
  rw [i1q_eq_ix2]
  refine (shapeCast_a_1a_apply _ h2 0 (Spec.colC k)).trans ?_
  refine shapeCast_apply b h1 (ix1 (Spec.colC k)) (ix3 0 0 (Spec.colC k)) ?_
  rw [Shape.rowMajor_val_three, Shape.rowMajor_val_one]
  show (0 * 1 + 0) * 64 + k.val % 64 = k.val % 64
  omega

/-- The start-index column: a word in [0, 1600) passes the wrap-around unchanged. -/
theorem idx_apply (hb0 : S_.BroadcastsInDim S1600 (![] : Fin 0 → Fin S1600.rank))
    (hb1 : S1600.BroadcastsInDim S1600x1 (![0] : Fin 1 → Fin S1600x1.rank))
    (a : IVec S1600 32) (k : Fin 1600) (hk : (a (ix1 k)).toNat < 1600) :
    broadcastInDim S1600x1 ![0] hb1
        (select (cmpi .slt a (broadcastInDim S1600 ![] hb0 (constantI S_ 32 0#32)))
          (addi a (broadcastInDim S1600 ![] hb0 (constantI S_ 32 1600#32))) a) (StableHlo.Predicate.ixP k)
      = a (ix1 k) := by
  refine (StableHlo.Predicate.bcast_col1 hb1 _ k).trans ?_
  rw [ofFin_eq_ix1]
  show Scalar.select (IntOp.cmpi .slt (a (ix1 k)) 0#32) (IntOp.addi (a (ix1 k)) 1600#32) (a (ix1 k)) = a (ix1 k)
  have hn : ¬ IntOp.cmpi .slt (a (ix1 k)) 0#32 = 1#1 := by
    intro h
    have h' := IntOp.cmpi_slt.1 h
    rw [BitVec.toInt_eq_toNat_of_lt (by omega), show (0#32 : BitVec 32).toInt = 0 from by decide] at h'
    omega
  unfold Scalar.select
  rw [if_neg]
  exact hn

/-- The take: at position k it reads the table at the index word of position k, a word in [0, 1600). -/
theorem gather_apply (d : GatherDims S1600 S1600x1 S1600) (hcoll : d.collapsedSliceDims = [0])
    (hob : d.operandBatchingDims = []) (hsim : d.startIndexMap = [0]) (hivd : d.indexVectorDim = 1)
    (T : S1600.Idx → EReal) (idx : IVec S1600x1 32) (a : IVec S1600 32) (k : Fin 1600)
    (hk : (a (ix1 k)).toNat < 1600) (hidx : idx (StableHlo.Predicate.ixP k) = a (ix1 k)) :
    Host.gather d T idx (ix1 k) = T (ix1 ⟨(a (ix1 k)).toNat, hk⟩) := by
  have e := StableHlo.Predicate.gather_take d hcoll hob hsim hivd T idx k (by decide)
  rw [ofFin_eq_ix1, ofFin_eq_ix1] at e
  refine e.trans (congrArg T (congrArg ix1 (Fin.ext ?_)))
  show min (idx (StableHlo.Predicate.ixP k)).toInt.toNat (1600 - 1) = (a (ix1 k)).toNat
  have hn : (a (ix1 k)).toInt.toNat = (a (ix1 k)).toNat := by
    rw [BitVec.toInt_eq_toNat_of_lt (by omega)]; exact Int.toNat_natCast _
  rw [hidx, hn]
  omega

/-! ## The row -/

/-- The row as the host computes it, as a function of the bias array and the output index vector. -/
def rowTerm (b : S1x1x64.Idx → EReal) (a : IVec S1600 32) : S1x1600.Idx → EReal :=
  shapeCast S1x1600
    (Host.gather gather_S1600_S1600x1_S1600_n_0_n_n_0_1_1
      (shapeCast S1600 (broadcastInDim S25x64 ![0, 1] bcast_S1x64_S25x64_0_1
        (shapeCast S1x64 (shapeCast S64 b shapeCasts_S1x1x64_S64) shapeCasts_S64_S1x64)) shapeCasts_S25x64_S1600)
      (broadcastInDim S1600x1 ![0] bcast_S1600_S1600x1_0
        (select (cmpi .slt a (broadcastInDim S1600 ![] bcast_S_S1600 (constantI S_ 32 0#32)))
          (addi a (broadcastInDim S1600 ![] bcast_S_S1600 (constantI S_ 32 1600#32))) a)))
    shapeCasts_S1600_S1x1600

theorem rowTerm_apply (b : S1x1x64.Idx → EReal) (a : IVec S1600 32)
    (h7 : ∀ k : Fin 1600, (a (ix1 k)).toNat < 1600) (u : Fin 1) (j : Fin 1600) :
    rowTerm b a (ix2 u j) = Spec.biasK b (Spec.sig a h7) j := by
  unfold rowTerm
  refine (shapeCast_a_1a_apply _ shapeCasts_S1600_S1x1600 u j).trans ?_
  refine (gather_apply _ rfl rfl rfl rfl _ _ a j (h7 j) (idx_apply _ _ a j (h7 j))).trans ?_
  exact table_apply _ _ _ _ b _

set_option maxHeartbeats 1000000 in
/-- What the second stretch leaves in the bias row's buffer, from any contents at its start. -/
theorem v44_raw (V : Valuation τ sig (Elt Ideal)) :
    StableHlo.after (hostOps0_2 (F := Ideal)) V (Proc.devRef .tc main_v44)
      = rowTerm (V (Proc.devRef .tc main_arg3)) (V (Proc.devRef .tc main_arg7)) := by
  open StableHlo in after_results_simp
  rfl

end HostB3

variable (Vin : Valuation τ sig (Elt Ideal))

/-- The two stretches leave alone every buffer neither writes. -/
theorem hostB_keeps (b : Ref sig .tc) (hb1 : b ∉ (hostOps0_1_W : List (Ref sig .tc))) (hb2 : b ∉ (hostOps0_2_W : List (Ref sig .tc))) :
    StableHlo.after (hostOps0_2 (F := Ideal)) (StableHlo.after (hostOps0_1 (F := Ideal)) Vin) (Proc.devRef .tc b)
      = Vin (Proc.devRef .tc b) :=
  (StableHlo.after_of_writes_sub hostOps0_2 _ hostOps0_2_writes hb2).trans
    (StableHlo.after_of_writes_sub hostOps0_1 _ hostOps0_1_writes hb1)

/-- The first stretch alone leaves alone every buffer it does not write. -/
theorem hostB_mid_keeps (b : Ref sig .tc) (hb1 : b ∉ (hostOps0_1_W : List (Ref sig .tc))) :
    StableHlo.after (hostOps0_1 (F := Ideal)) Vin (Proc.devRef .tc b) = Vin (Proc.devRef .tc b) :=
  StableHlo.after_of_writes_sub hostOps0_1 _ hostOps0_1_writes hb1

theorem hostB_keeps_v1 : StableHlo.after (hostOps0_2 (F := Ideal)) (StableHlo.after (hostOps0_1 (F := Ideal)) Vin) (Proc.devRef .tc main_v1) = Vin (Proc.devRef .tc main_v1) :=
  hostB_keeps Vin main_v1 (by decide) (by decide)
theorem hostB_keeps_arg0 : StableHlo.after (hostOps0_2 (F := Ideal)) (StableHlo.after (hostOps0_1 (F := Ideal)) Vin) (Proc.devRef .tc main_arg0) = Vin (Proc.devRef .tc main_arg0) :=
  hostB_keeps Vin main_arg0 (by decide) (by decide)
theorem hostB_keeps_arg1 : StableHlo.after (hostOps0_2 (F := Ideal)) (StableHlo.after (hostOps0_1 (F := Ideal)) Vin) (Proc.devRef .tc main_arg1) = Vin (Proc.devRef .tc main_arg1) :=
  hostB_keeps Vin main_arg1 (by decide) (by decide)
theorem hostB_keeps_arg2 : StableHlo.after (hostOps0_2 (F := Ideal)) (StableHlo.after (hostOps0_1 (F := Ideal)) Vin) (Proc.devRef .tc main_arg2) = Vin (Proc.devRef .tc main_arg2) :=
  hostB_keeps Vin main_arg2 (by decide) (by decide)
theorem hostB_keeps_arg3 : StableHlo.after (hostOps0_2 (F := Ideal)) (StableHlo.after (hostOps0_1 (F := Ideal)) Vin) (Proc.devRef .tc main_arg3) = Vin (Proc.devRef .tc main_arg3) :=
  hostB_keeps Vin main_arg3 (by decide) (by decide)
theorem hostB_keeps_arg4 : StableHlo.after (hostOps0_2 (F := Ideal)) (StableHlo.after (hostOps0_1 (F := Ideal)) Vin) (Proc.devRef .tc main_arg4) = Vin (Proc.devRef .tc main_arg4) :=
  hostB_keeps Vin main_arg4 (by decide) (by decide)
theorem hostB_keeps_arg5 : StableHlo.after (hostOps0_2 (F := Ideal)) (StableHlo.after (hostOps0_1 (F := Ideal)) Vin) (Proc.devRef .tc main_arg5) = Vin (Proc.devRef .tc main_arg5) :=
  hostB_keeps Vin main_arg5 (by decide) (by decide)
theorem hostB_keeps_arg6 : StableHlo.after (hostOps0_2 (F := Ideal)) (StableHlo.after (hostOps0_1 (F := Ideal)) Vin) (Proc.devRef .tc main_arg6) = Vin (Proc.devRef .tc main_arg6) :=
  hostB_keeps Vin main_arg6 (by decide) (by decide)
theorem hostB_keeps_arg7 : StableHlo.after (hostOps0_2 (F := Ideal)) (StableHlo.after (hostOps0_1 (F := Ideal)) Vin) (Proc.devRef .tc main_arg7) = Vin (Proc.devRef .tc main_arg7) :=
  hostB_keeps Vin main_arg7 (by decide) (by decide)

/-- The bias row after the two stretches: entry j is the bias of the channel of column σo(j). -/
theorem hostB_v44 (h7 : ∀ k : Fin 1600, ((Vin (Proc.devRef .tc main_arg7)) (ix1 k)).toNat < 1600) :
    StableHlo.after (hostOps0_2 (F := Ideal)) (StableHlo.after (hostOps0_1 (F := Ideal)) Vin) (Proc.devRef .tc main_v44)
      = fun i => Spec.biasK (Vin (Proc.devRef .tc main_arg3)) (Spec.sig (Vin (Proc.devRef .tc main_arg7)) h7) (i 1) := by
  rw [HostB3.v44_raw, hostB_mid_keeps Vin main_arg3 (by decide), hostB_mid_keeps Vin main_arg7 (by decide)]
  funext i
  obtain ⟨u, j, rfl⟩ : ∃ (u : Fin 1) (j : Fin 1600), i = ix2 u j := ⟨i 0, i 1, eq_ix2 i⟩
  exact HostB3.rowTerm_apply _ _ h7 u j

end Cert.KernelIdeal.Hand
-- ==== Proof.KI.Pay0.lean ====
/-
  The first kernel's arithmetic read at one element, over the extended reals.

  At a grid point the body loads a 640-row tile x of the activations, the whole 1600×1600 matrix T and the bias row b, and
  forms y = x · T + b (one 1600-term product per element, into a zero accumulator, plus the bias row broadcast over the
  rows). It stores y; it adds the tile's column sums of y and of y² to two running rows; and it stores each running row,
  repeated over eight sublanes, into a [1, 8, 1600] block. Over the extended reals a change of float format is the
  identity, so every one of these values is a finite sum of products of the loaded elements. Each lemma below says so at
  an element named by its coordinates.
-/
import proofs.«428867_j23261542875775_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The product's dimension numbers: rows of the left operand against columns of the right -/

/-- The left operand is read at the result's row … -/
theorem dotA_lhs_0 (j : S640x1600.Idx) (k : dot_S640x1600_S1600x1600_S640x1600_1_0_0_1_n_n.contr.Idx) :
    (dot_S640x1600_S1600x1600_S640x1600_1_0_0_1_n_n.lhsIdx j k 0 : ℕ) = j 0 := by
  simp [DotDims.lhsIdx, dot_S640x1600_S1600x1600_S640x1600_1_0_0_1_n_n]; rfl
/-- … and the contracted position; -/
theorem dotA_lhs_1 (j : S640x1600.Idx) (k : dot_S640x1600_S1600x1600_S640x1600_1_0_0_1_n_n.contr.Idx) :
    (dot_S640x1600_S1600x1600_S640x1600_1_0_0_1_n_n.lhsIdx j k 1 : ℕ) = k ⟨0, by decide⟩ := by
  simp [DotDims.lhsIdx, dot_S640x1600_S1600x1600_S640x1600_1_0_0_1_n_n]; rfl
/-- the right operand at the contracted position … -/
theorem dotA_rhs_0 (j : S640x1600.Idx) (k : dot_S640x1600_S1600x1600_S640x1600_1_0_0_1_n_n.contr.Idx) :
    (dot_S640x1600_S1600x1600_S640x1600_1_0_0_1_n_n.rhsIdx j k 0 : ℕ) = k ⟨0, by decide⟩ := by
  simp [DotDims.rhsIdx, dot_S640x1600_S1600x1600_S640x1600_1_0_0_1_n_n]; rfl
/-- … and the result's column. -/
theorem dotA_rhs_1 (j : S640x1600.Idx) (k : dot_S640x1600_S1600x1600_S640x1600_1_0_0_1_n_n.contr.Idx) :
    (dot_S640x1600_S1600x1600_S640x1600_1_0_0_1_n_n.rhsIdx j k 1 : ℕ) = j 1 := by
  simp [DotDims.rhsIdx, dot_S640x1600_S1600x1600_S640x1600_1_0_0_1_n_n]; rfl

/-- The product into the zero accumulator at row p, column q: the sum over the 1600 contracted positions. -/
theorem matmulA_apply (l : FVec Ideal S640x1600 .bf16) (r : FVec Ideal S1600x1600 .bf16) (p : Fin 640) (q : Fin 1600) :
    matmul dot_S640x1600_S1600x1600_S640x1600_1_0_0_1_n_n none l r (constant (F := Ideal) S640x1600 .f32 0x00000000#32) (ix2 p q)
      = ∑ k : Fin 1600, l (ix2 p k) * r (ix2 k q) := by
  refine (Ideal.matmul_constant_zero_apply dot_S640x1600_S1600x1600_S640x1600_1_0_0_1_n_n none l r (ix2 p q)).trans ?_
  rw [← Equiv.sum_comp (contrEquiv1 dot_S640x1600_S1600x1600_S640x1600_1_0_0_1_n_n 1600 rfl rfl).symm]
  refine Finset.sum_congr rfl fun k _ => ?_
  have hk := contrEquiv1_symm_val dot_S640x1600_S1600x1600_S640x1600_1_0_0_1_n_n 1600 rfl rfl k
  refine congrArg₂ (· * ·) (congrArg l ?_) (congrArg r ?_)
  · funext a; apply Fin.ext
    match a with
    | ⟨0, _⟩ => exact dotA_lhs_0 _ _
    | ⟨1, _⟩ => exact (dotA_lhs_1 _ _).trans hk
  · funext a; apply Fin.ext
    match a with
    | ⟨0, _⟩ => exact (dotA_rhs_0 _ _).trans hk
    | ⟨1, _⟩ => exact dotA_rhs_1 _ _

/-! ## y = x · T + b at an element -/

/-- The bias row broadcast over the 640 rows reads the row's entry in that column. -/
theorem biasRows_apply (b : FVec Ideal S1x1600 .f32) (p : Fin 640) (q : Fin 1600) :
    broadcastTo S640x1600 b broadcasts_S1x1600_S640x1600 (ix2 p q) = b (ix2 (0 : Fin 1) q) :=
  broadcastTo_1b_ab_apply b broadcasts_S1x1600_S640x1600 p q

/-- y at row p, column q of the tile. -/
theorem pay5_apply (x : FVec Ideal S640x1600 .f32) (T : FVec Ideal S1600x1600 .bf16) (b : FVec Ideal S1x1600 .f32)
    (p : Fin 640) (q : Fin 1600) :
    k0_pay5 x T b (ix2 p q) = (∑ k : Fin 1600, x (ix2 p k) * T (ix2 k q)) + b (ix2 (0 : Fin 1) q) := by
  unfold k0_pay5
  show matmul dot_S640x1600_S1600x1600_S640x1600_1_0_0_1_n_n none
        (truncf .bf16 (shapeCast S640x1600 x shapeCasts_S640x1600_S640x1600) bitsLt_bf16_f32)
        (shapeCast S1600x1600 T shapeCasts_S1600x1600_S1600x1600) (constant (F := Ideal) S640x1600 .f32 0x00000000#32) (ix2 p q)
      + broadcastTo S640x1600 (shapeCast S1x1600 b shapeCasts_S1x1600_S1x1600) broadcasts_S1x1600_S640x1600 (ix2 p q) = _
  refine congrArg₂ (· + ·) ?_ ?_
  · refine (matmulA_apply _ _ p q).trans ?_
    refine Finset.sum_congr rfl fun k _ => ?_
    rw [shapeCast_self, shapeCast_self]
    rfl
  · refine (biasRows_apply _ p q).trans ?_
    rw [shapeCast_self]

/-- What is stored as y is the same number: narrowing the format is the identity over the extended reals. -/
theorem pay6_apply (x : FVec Ideal S640x1600 .f32) (T : FVec Ideal S1600x1600 .bf16) (b : FVec Ideal S1x1600 .f32)
    (p : Fin 640) (q : Fin 1600) :
    (k0_pay6 (F := Ideal) x T b (ix2 p q) : EReal) = (∑ k : Fin 1600, x (ix2 p k) * T (ix2 k q)) + b (ix2 (0 : Fin 1) q) :=
  pay5_apply x T b p q

/-! ## The column sums over the tile's 640 rows -/

/-- A sum over the rows, at column q, for any evidence of the reduction's two side conditions (the format is one the
    reduction is defined at; the accumulator's word is the zero of addition). -/
theorem colSum_apply (src : FVec Ideal S640x1600 .f32) (hφ : FKind.Formats .f32)
    (hacc : (0x00000000#32 : BitVec 32) = FKind.add.neutral .f32 hφ) (q : Fin 1600) :
    multiReduction (F := Ideal) .add [0] S1600 src 0x00000000#32 reduces_S640x1600_S1600 hφ hacc (ix1 q)
      = ∑ ρ : Fin 640, src (ix2 ρ q) := by
  refine (Ideal.multiReduction_add_single src 0x00000000#32 reduces_S640x1600_S1600 hφ hacc (ix1 q)).trans ?_
  show ∑ ρ : Fin 640, src (reduces_S640x1600_S1600.lift (ix1 q) ρ) = _
  refine Finset.sum_congr rfl fun ρ _ => congrArg src ?_
  funext a; apply Fin.ext
  match a with
  | ⟨0, _⟩ => rfl
  | ⟨1, _⟩ => rfl

/-- The running row of sums after a tile: the row before plus the tile's column sums of y. -/
theorem pay7_apply (x : FVec Ideal S640x1600 .f32) (T : FVec Ideal S1600x1600 .bf16) (b : FVec Ideal S1x1600 .f32)
    (a : FVec Ideal S1x1600 .f32) (u : Fin 1) (q : Fin 1600) :
    k0_pay7 x T b a (ix2 u q) = a (ix2 u q) + ∑ ρ : Fin 640, k0_pay5 x T b (ix2 ρ q) := by
  unfold k0_pay7
  show shapeCast S1x1600 (addf a (shapeCast S1x1600
      (multiReduction (F := Ideal) .add [0] S1600 (k0_pay5 x T b) 0x00000000#32 reduces_S640x1600_S1600 (.inl rfl) rfl)
      shapeCasts_S1600_S1x1600)) shapeCasts_S1x1600_S1x1600 (ix2 u q) = _
  rw [shapeCast_self]
  show a (ix2 u q) + shapeCast S1x1600
      (multiReduction (F := Ideal) .add [0] S1600 (k0_pay5 x T b) 0x00000000#32 reduces_S640x1600_S1600 (.inl rfl) rfl)
      shapeCasts_S1600_S1x1600 (ix2 u q) = _
  refine congrArg (a (ix2 u q) + ·) ?_
  refine (shapeCast_a_1a_apply _ shapeCasts_S1600_S1x1600 u q).trans ?_
  exact colSum_apply (k0_pay5 x T b) (.inl rfl) rfl q

/-- The running row of sums of squares after a tile: the row before plus the tile's column sums of y². -/
theorem pay8_apply (x : FVec Ideal S640x1600 .f32) (T : FVec Ideal S1600x1600 .bf16) (b : FVec Ideal S1x1600 .f32)
    (a : FVec Ideal S1x1600 .f32) (u : Fin 1) (q : Fin 1600) :
    k0_pay8 x T b a (ix2 u q) = a (ix2 u q) + ∑ ρ : Fin 640, k0_pay5 x T b (ix2 ρ q) * k0_pay5 x T b (ix2 ρ q) := by
  unfold k0_pay8
  show shapeCast S1x1600 (addf a (shapeCast S1x1600
      (multiReduction (F := Ideal) .add [0] S1600 (mulf (k0_pay5 x T b) (k0_pay5 x T b)) 0x00000000#32 reduces_S640x1600_S1600 (.inl rfl) rfl)
      shapeCasts_S1600_S1x1600)) shapeCasts_S1x1600_S1x1600 (ix2 u q) = _
  rw [shapeCast_self]
  show a (ix2 u q) + shapeCast S1x1600
      (multiReduction (F := Ideal) .add [0] S1600 (mulf (k0_pay5 x T b) (k0_pay5 x T b)) 0x00000000#32 reduces_S640x1600_S1600 (.inl rfl) rfl)
      shapeCasts_S1600_S1x1600 (ix2 u q) = _
  refine congrArg (a (ix2 u q) + ·) ?_
  refine (shapeCast_a_1a_apply _ shapeCasts_S1600_S1x1600 u q).trans ?_
  exact colSum_apply (mulf (k0_pay5 x T b) (k0_pay5 x T b)) (.inl rfl) rfl q

/-! ## The rows a core starts from, and the blocks it writes back -/

/-- A core's running row of sums starts at zero … -/
theorem pay3_apply (i : S1x1600.Idx) : k0_pay3 (F := Ideal) i = 0 := by
  unfold k0_pay3
  rw [shapeCast_self]
  exact Ideal.ofBits_zero_f32
/-- … and so does its running row of sums of squares. -/
theorem pay4_apply (i : S1x1600.Idx) : k0_pay4 (F := Ideal) i = 0 := by
  unfold k0_pay4
  rw [shapeCast_self]
  exact Ideal.ofBits_zero_f32

/-- A row repeated over the eight sublanes of a [1, 8, 1600] block reads the row's entry in that column. -/
theorem rowBlock_apply (v : FVec Ideal S1x1600 .f32) (u : Fin 1) (s : Fin 8) (q : Fin 1600) :
    broadcastTo S1x8x1600 (shapeCast S1x1x1600 (shapeCast S1x1x1600 v shapeCasts_S1x1600_S1x1x1600) shapeCasts_S1x1x1600_S1x1x1600)
      broadcasts_S1x1x1600_S1x8x1600 (ix3 u s q) = v (ix2 (0 : Fin 1) q) := by
  rw [shapeCast_self]
  refine (broadcastTo_apply _ broadcasts_S1x1x1600_S1x8x1600 (ix3 u s q) (ix3 (0 : Fin 1) (0 : Fin 1) q) fun ax => ?_).trans ?_
  · match ax with
    | ⟨0, _⟩ => rfl
    | ⟨1, _⟩ => rfl
    | ⟨2, _⟩ => rfl
  · exact shapeCast_ab_1ab_apply v shapeCasts_S1x1600_S1x1x1600 (0 : Fin 1) (0 : Fin 1) q

/-- The block of sums written back … -/
theorem pay1_apply (v : FVec Ideal S1x1600 .f32) (u : Fin 1) (s : Fin 8) (q : Fin 1600) :
    k0_pay1 v (ix3 u s q) = v (ix2 (0 : Fin 1) q) := by
  unfold k0_pay1
  exact rowBlock_apply v u s q
/-- … and the block of sums of squares. -/
theorem pay2_apply (v : FVec Ideal S1x1600 .f32) (u : Fin 1) (s : Fin 8) (q : Fin 1600) :
    k0_pay2 v (ix3 u s q) = v (ix2 (0 : Fin 1) q) := by
  unfold k0_pay2
  exact rowBlock_apply v u s q

end Cert.KernelIdeal.Hand

end
-- ==== Proof.KI.Value0.lean ====
/-
  What the first kernel leaves in its three result arrays, over the extended reals.

  The grid has 30 points; point t = 15·core + tile works on rows 640·t … 640·t + 639 of the flattened activations X, with
  the whole matrix T and the bias row B. Its y block is rows 640·t … of Y = X · T + B, so after the run the y array holds Y.
  Each core keeps two running rows: the column sums of Y and of Y² over the tiles it has done, started afresh at the
  core's first tile. Only at the core's last tile are they written back, to the core's own [8, 1600] slab of the two
  statistics arrays, the row repeated over the eight sublanes: every row of slab c ends holding the sum of the column
  over the 15 · 640 rows of core c.
-/
import proofs.«428867_j23261542875775_2_alg».proof.Proof.KI.Region0
import proofs.«428867_j23261542875775_2_alg».proof.Proof.KI.Pay0
import proofs.«428867_j23261542875775_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- The contents of every buffer of core c when the region is entered.
variable (V : (c : Dev nD) → (b : Ref sig .tc) → Buf (Elt Ideal) ((c : Thread nD τ).loc b))

/-! ## The arrays and the blocks, at their literal types -/

/-- The flattened activations, the folded matrix and the bias row as the region finds them. -/
abbrev Xarr (c : Dev nD) : FVec Ideal S19200x1600 .f32 := V c main_v1
abbrev Tarr (c : Dev nD) : FVec Ideal S1600x1600 .bf16 := V c main_v32
abbrev Barr (c : Dev nD) : FVec Ideal S1x1600 .f32 := V c main_v44

/-- The three blocks the body loads at point t. -/
abbrev xblk (c : Dev nD) (t : Fin cfg0.N) : FVec Ideal S640x1600 .f32 := iblk0 V c 0 t
abbrev tblk (c : Dev nD) (t : Fin cfg0.N) : FVec Ideal S1600x1600 .bf16 := iblk0 V c 1 t
abbrev bblk (c : Dev nD) (t : Fin cfg0.N) : FVec Ideal S1x1600 .f32 := iblk0 V c 2 t

/-- Where each window's block sits at point t: the activations' and y's at block row t, the matrix and the bias whole,
    the two statistics arrays' at the slab of the point's core. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 15 ∧ win0_4.index t (1 : Fin 3) = 0 ∧ win0_4.index t (2 : Fin 3) = 0
    ∧ win0_5.index t (0 : Fin 3) = t.val / 15 ∧ win0_5.index t (1 : Fin 3) = 0 ∧ win0_5.index t (2 : Fin 3) = 0 :=
  (by decide +kernel : ∀ t : Fin grid0.N, _)

/-- Row ρ of the activations' block at point t is row 640·t + ρ of the array. -/
theorem xblk_apply (c : Dev nD) (t : Fin cfg0.N) (ρ : Fin 640) (k : Fin 1600) (r : Fin 19200)
    (hr : r.val = t.val * 640 + ρ.val) : xblk V c t (ix2 ρ k) = Xarr V c (ix2 r k) := by
  obtain ⟨e0, e1, -⟩ := blockIndex t
  show V c main_v1 (((cfg0.win 0).blk t).view.emb (ix2 ρ k)) = V c main_v1 (ix2 r k)
  refine congrArg (V c main_v1) (funext fun a => Fin.ext ?_)
  match a with
  | ⟨0, _⟩ => show win0_0.index t (0 : Fin 2) * 640 + 1 * ρ.val = r.val; rw [e0, hr]; omega
  | ⟨1, _⟩ => show win0_0.index t (1 : Fin 2) * 1600 + 1 * k.val = k.val; rw [e1]; omega

/-- The matrix's block is the matrix. -/
theorem tblk_apply (c : Dev nD) (t : Fin cfg0.N) (k : Fin 1600) (q : Fin 1600) :
    tblk V c t (ix2 k q) = Tarr V c (ix2 k q) := by
  obtain ⟨-, -, e0, e1, -⟩ := blockIndex t
  show V c main_v32 (((cfg0.win 1).blk t).view.emb (ix2 k q)) = V c main_v32 (ix2 k q)
  refine congrArg (V c main_v32) (funext fun a => Fin.ext ?_)
  match a with
  | ⟨0, _⟩ => show win0_1.index t (0 : Fin 2) * 1600 + 1 * k.val = k.val; rw [e0]; omega
  | ⟨1, _⟩ => show win0_1.index t (1 : Fin 2) * 1600 + 1 * q.val = q.val; rw [e1]; omega

/-- The bias row's block is the bias row. -/
theorem bblk_apply (c : Dev nD) (t : Fin cfg0.N) (u : Fin 1) (q : Fin 1600) :
    bblk V c t (ix2 u q) = Barr V c (ix2 u q) := by
  obtain ⟨-, -, -, -, e0, e1, -⟩ := blockIndex t
  show V c main_v44 (((cfg0.win 2).blk t).view.emb (ix2 u q)) = V c main_v44 (ix2 u q)
  refine congrArg (V c main_v44) (funext fun a => Fin.ext ?_)
  match a with
  | ⟨0, _⟩ => show win0_2.index t (0 : Fin 2) * 1 + 1 * u.val = u.val; rw [e0]; omega
  | ⟨1, _⟩ => show win0_2.index t (1 : Fin 2) * 1600 + 1 * q.val = q.val; rw [e1]; omega

/-! ## y -/

/-- Y = X · T + B at row r, column q. -/
abbrev Yat (c : Dev nD) (r : Fin 19200) (q : Fin 1600) : EReal :=
  Spec.ymat (V c main_v1) (V c main_v32) (V c main_v44) r q

/-- The body's y at row ρ of point t's tile is Y at row 640·t + ρ. -/
theorem pay5_blk (c : Dev nD) (t : Fin cfg0.N) (ρ : Fin 640) (q : Fin 1600) (r : Fin 19200)
    (hr : r.val = t.val * 640 + ρ.val) :
    k0_pay5 (F := Ideal) (xblk V c t) (tblk V c t) (bblk V c t) (ix2 ρ q) = Yat V c r q := by
  refine (pay5_apply (xblk V c t) (tblk V c t) (bblk V c t) ρ q).trans ?_
  show _ = (∑ k : Fin 1600, Xarr V c (ix2 r k) * Tarr V c (ix2 k q)) + Barr V c (ix2 (0 : Fin 1) q)
  refine congrArg₂ (· + ·) (Finset.sum_congr rfl fun k _ => ?_) (bblk_apply V c t 0 q)
  rw [xblk_apply V c t ρ k r hr, tblk_apply V c t k q]

/-- The same at an element of the tile named by its index. -/
theorem pay6_blk (c : Dev nD) (t : Fin cfg0.N) (j : S640x1600.Idx) (r : Fin 19200) (q : Fin 1600)
    (hr : r.val = t.val * 640 + (j 0).val) (hq : q.val = (j 1).val) :
    k0_pay6 (F := Ideal) (xblk V c t) (tblk V c t) (bblk V c t) j = Yat V c r q := by
  obtain ⟨ρ, q', rfl⟩ : ∃ (ρ : Fin 640) (q' : Fin 1600), j = ix2 ρ q' := ⟨j 0, j 1, eq_ix2 j⟩
  obtain rfl : q = q' := Fin.ext hq
  exact pay5_blk V c t ρ q r hr

/-- Point t writes back rows 640·t … 640·t + 639 of Y. -/
theorem flushed3_eq (c : Dev nD) (t : Fin cfg0.N) :
    (dat0 V c).flushed 3 t = ((cfg0.win 3).blk t).view.read (Elt Ideal) (fun i => Yat V c (i 0) (i 1)) := by
  obtain ⟨-, -, -, -, -, -, e0, e1, -⟩ := blockIndex t
  show (cfg0.win 3).cut (grid0.coords t) ((dat0 V c).after 3 t) = _
  rw [after0_3]
  funext j
  show k0_pay6 (F := Ideal) (xblk V c t) (tblk V c t) (bblk V c t) j
    = Yat V c ((((cfg0.win 3).blk t).view.emb j) 0) ((((cfg0.win 3).blk t).view.emb j) 1)
  refine pay6_blk V c t j _ _ ?_ ?_
  · show win0_3.index t (0 : Fin 2) * 640 + 1 * (j 0).val = t.val * 640 + (j 0).val; rw [e0]; omega
  · show win0_3.index t (1 : Fin 2) * 1600 + 1 * (j 1).val = (j 1).val; rw [e1]; omega

/-- An index of the y array is in point t's block iff each coordinate is in the block's range on its axis. -/
theorem mem_blk3 (t : Fin cfg0.N) (i : S19200x1600.Idx) :
    i ∈ ((cfg0.win 3).blk t).view.set ↔ ∀ a : Fin 2, win0_3.index t a * S640x1600.size a ≤ (i a).val
      ∧ (i a).val < win0_3.index t a * S640x1600.size a + S640x1600.size a := by
  show i ∈ ((View.whole main_v45_0).slice (win0_3.rect t)).set ↔ _
  rw [View.set_slice_whole, Rect.mem_set_unit]
  exact Iff.rfl

/-- THE Y ARRAY after the run is Y: row r lies in the block of point r / 640. -/
theorem y_final (c : Dev nD) :
    (dat0 V c).arrAt 3 cfg0.N = fun i => Spec.ymat (V c main_v1) (V c main_v32) (V c main_v44) (i 0) (i 1) :=
  (dat0 V c).arrAt_eq_of_cover 3 (fun i => Yat V c (i 0) (i 1)) (fun t _ => flushed3_eq V c t) fun i => by
    have h0 : (i 0).val < 19200 := (i 0).isLt
    have h1 : (i 1).val < 1600 := (i 1).isLt
    have hN : cfg0.N = 30 := N_0
    have ht : (i 0).val / 640 < cfg0.N := by rw [hN]; omega
    obtain ⟨-, -, -, -, -, -, e0, e1, -⟩ := blockIndex ⟨(i 0).val / 640, ht⟩
    refine ⟨⟨(i 0).val / 640, ht⟩, flush0_3 _, ?_⟩
    rw [mem_blk3]
    intro a
    match a with
    | ⟨0, _⟩ =>
      show win0_3.index ⟨(i 0).val / 640, ht⟩ (0 : Fin 2) * 640 ≤ (i 0).val
        ∧ (i 0).val < win0_3.index ⟨(i 0).val / 640, ht⟩ (0 : Fin 2) * 640 + 640
      rw [e0]; show (i 0).val / 640 * 640 ≤ (i 0).val ∧ (i 0).val < (i 0).val / 640 * 640 + 640; omega
    | ⟨1, _⟩ =>
      show win0_3.index ⟨(i 0).val / 640, ht⟩ (1 : Fin 2) * 1600 ≤ (i 1).val
        ∧ (i 1).val < win0_3.index ⟨(i 0).val / 640, ht⟩ (1 : Fin 2) * 1600 + 1600
      rw [e1]; omega

/-! ## The running sums -/

/-- The sum of f over point n's tile of 640 rows (zero past the grid). -/
def tileCol (f : Fin 19200 → EReal) (n : ℕ) : EReal := if h : n < 30 then Spec.tileSum f ⟨n, h⟩ else 0

/-- A quantity that starts afresh from a tile's sum at the first tile of a core and adds the tile's sum to its value at
    the point before elsewhere is, at point n, the sum over the core's tiles up to n. -/
theorem fold_eq (g : Fin 19200 → EReal) (A : (n : ℕ) → n < cfg0.N → EReal)
    (h0 : ∀ t : Fin cfg0.N, t.val % 15 = 0 → A t.val t.isLt = 0 + tileCol g t.val)
    (hs : ∀ (t : Fin cfg0.N) (h : ¬ t.val % 15 = 0),
      A t.val t.isLt = A (t.val - 1) (Nat.lt_of_le_of_lt (Nat.sub_le _ _) t.isLt) + tileCol g t.val) :
    ∀ (n : ℕ) (h : n < cfg0.N), A n h = ∑ s ∈ Finset.range (n % 15 + 1), tileCol g (n - n % 15 + s)
  | 0, h => by
    rw [show A 0 h = 0 + tileCol g 0 from h0 ⟨0, h⟩ rfl, zero_add]
    simp
  | n + 1, h => by
    by_cases hm : (n + 1) % 15 = 0
    · rw [show A (n + 1) h = 0 + tileCol g (n + 1) from h0 ⟨n + 1, h⟩ hm, zero_add, hm]
      simp
    · have ih := fold_eq g A h0 hs n (Nat.lt_of_succ_lt h)
      have e1 : (n + 1) % 15 = n % 15 + 1 := by omega
      have e2 : n + 1 - (n % 15 + 1) = n - n % 15 := by omega
      have e3 : n - n % 15 + (n % 15 + 1) = n + 1 := by omega
      rw [show A (n + 1) h = A n (Nat.lt_of_succ_lt h) + tileCol g (n + 1) from hs ⟨n + 1, h⟩ hm, ih, e1, e2,
        Finset.sum_range_succ _ (n % 15 + 1), e3]

/-- At a core's last tile that is the sum over the core's 15 tiles. -/
theorem fold_last (g : Fin 19200 → EReal) (n : ℕ) (h14 : n % 15 = 14) (κ : Fin 2) (hκ : κ.val = n / 15) :
    ∑ s ∈ Finset.range (n % 15 + 1), tileCol g (n - n % 15 + s) = Spec.coreSum g κ := by
  have hk : κ.val < 2 := κ.isLt
  rw [h14, Finset.sum_range]
  unfold Spec.coreSum
  refine Finset.sum_congr rfl fun i _ => ?_
  have hi : i.val < 15 := i.isLt
  have hlt : n - 14 + i.val < 30 := by omega
  unfold tileCol
  rw [dif_pos hlt]
  exact congrArg (Spec.tileSum g) (Fin.ext (by show n - 14 + i.val = κ.val * 15 + i.val; omega))

/-- The column sum of the body's y over point t's tile is the sum of Y over the tile's rows … -/
theorem tile_sum (c : Dev nD) (t : Fin cfg0.N) (q : Fin 1600) :
    ∑ ρ : Fin 640, k0_pay5 (F := Ideal) (xblk V c t) (tblk V c t) (bblk V c t) (ix2 ρ q)
      = tileCol (fun r => Yat V c r q) t.val := by
  have hN : cfg0.N = 30 := N_0
  have ht : t.val < 30 := by have := t.isLt; omega
  unfold tileCol
  rw [dif_pos ht]
  unfold Spec.tileSum
  exact Finset.sum_congr rfl fun ρ _ =>
    pay5_blk V c t ρ q ⟨t.val * 640 + ρ.val, by have := ρ.isLt; omega⟩ rfl

/-- … and likewise for the squares. -/
theorem tile_sq (c : Dev nD) (t : Fin cfg0.N) (q : Fin 1600) :
    ∑ ρ : Fin 640, k0_pay5 (F := Ideal) (xblk V c t) (tblk V c t) (bblk V c t) (ix2 ρ q)
        * k0_pay5 (F := Ideal) (xblk V c t) (tblk V c t) (bblk V c t) (ix2 ρ q)
      = tileCol (fun r => Yat V c r q * Yat V c r q) t.val := by
  have hN : cfg0.N = 30 := N_0
  have ht : t.val < 30 := by have := t.isLt; omega
  unfold tileCol
  rw [dif_pos ht]
  unfold Spec.tileSum
  exact Finset.sum_congr rfl fun ρ _ => congrArg₂ (· * ·)
    (pay5_blk V c t ρ q ⟨t.val * 640 + ρ.val, by have := ρ.isLt; omega⟩ rfl)
    (pay5_blk V c t ρ q ⟨t.val * 640 + ρ.val, by have := ρ.isLt; omega⟩ rfl)

/-- The running row of sums after point n, at column q: the sum of Y's column over the core's tiles up to n. -/
theorem acc1_eq (c : Dev nD) (u : Fin 1) (q : Fin 1600) (n : ℕ) (h : n < cfg0.N) :
    (accAt0 V c n h).1 (ix2 u q)
      = ∑ s ∈ Finset.range (n % 15 + 1), tileCol (fun r => Yat V c r q) (n - n % 15 + s) :=
  fold_eq (fun r => Yat V c r q) (fun n h => (accAt0 V c n h).1 (ix2 u q))
    (fun t hm => by
      show (accAt0 V c t.val t.isLt).1 (ix2 u q) = _
      rw [accAt0_reset V c t hm]
      show k0_pay7 (F := Ideal) (xblk V c t) (tblk V c t) (bblk V c t) (k0_pay3 (F := Ideal)) (ix2 u q) = _
      refine (pay7_apply (xblk V c t) (tblk V c t) (bblk V c t) (k0_pay3 (F := Ideal)) u q).trans ?_
      rw [pay3_apply, tile_sum])
    (fun t hm => by
      show (accAt0 V c t.val t.isLt).1 (ix2 u q)
        = (accAt0 V c (t.val - 1) (Nat.lt_of_le_of_lt (Nat.sub_le _ _) t.isLt)).1 (ix2 u q) + _
      rw [accAt0_step V c t hm]
      show k0_pay7 (F := Ideal) (xblk V c t) (tblk V c t) (bblk V c t)
          (accAt0 V c (t.val - 1) (Nat.lt_of_le_of_lt (Nat.sub_le _ _) t.isLt)).1 (ix2 u q) = _
      refine (pay7_apply (xblk V c t) (tblk V c t) (bblk V c t)
          (accAt0 V c (t.val - 1) (Nat.lt_of_le_of_lt (Nat.sub_le _ _) t.isLt)).1 u q).trans ?_
      rw [tile_sum])
    n h

/-- The running row of sums of squares after point n, at column q. -/
theorem acc2_eq (c : Dev nD) (u : Fin 1) (q : Fin 1600) (n : ℕ) (h : n < cfg0.N) :
    (accAt0 V c n h).2 (ix2 u q)
      = ∑ s ∈ Finset.range (n % 15 + 1), tileCol (fun r => Yat V c r q * Yat V c r q) (n - n % 15 + s) :=
  fold_eq (fun r => Yat V c r q * Yat V c r q) (fun n h => (accAt0 V c n h).2 (ix2 u q))
    (fun t hm => by
      show (accAt0 V c t.val t.isLt).2 (ix2 u q) = _
      rw [accAt0_reset V c t hm]
      show k0_pay8 (F := Ideal) (xblk V c t) (tblk V c t) (bblk V c t) (k0_pay4 (F := Ideal)) (ix2 u q) = _
      refine (pay8_apply (xblk V c t) (tblk V c t) (bblk V c t) (k0_pay4 (F := Ideal)) u q).trans ?_
      rw [pay4_apply, tile_sq])
    (fun t hm => by
      show (accAt0 V c t.val t.isLt).2 (ix2 u q)
        = (accAt0 V c (t.val - 1) (Nat.lt_of_le_of_lt (Nat.sub_le _ _) t.isLt)).2 (ix2 u q) + _
      rw [accAt0_step V c t hm]
      show k0_pay8 (F := Ideal) (xblk V c t) (tblk V c t) (bblk V c t)
          (accAt0 V c (t.val - 1) (Nat.lt_of_le_of_lt (Nat.sub_le _ _) t.isLt)).2 (ix2 u q) = _
      refine (pay8_apply (xblk V c t) (tblk V c t) (bblk V c t)
          (accAt0 V c (t.val - 1) (Nat.lt_of_le_of_lt (Nat.sub_le _ _) t.isLt)).2 u q).trans ?_
      rw [tile_sq])
    n h

/-! ## The two statistics arrays -/

/-- What a core's last tile writes back as sums, at an element of the block: the core's sum of Y's column. -/
theorem pay1_acc (c : Dev nD) (t : Fin cfg0.N) (h14 : t.val % 15 = 14) (j : S1x8x1600.Idx) (κ : Fin 2) (q : Fin 1600)
    (hκ : κ.val = t.val / 15) (hq : q.val = (j 2).val) :
    k0_pay1 (F := Ideal) (accAt0 V c t.val t.isLt).1 j = Spec.coreSum (fun r => Yat V c r q) κ := by
  obtain ⟨u, s, q', rfl⟩ : ∃ (u : Fin 1) (s : Fin 8) (q' : Fin 1600), j = ix3 u s q' := ⟨j 0, j 1, j 2, eq_ix3 j⟩
  obtain rfl : q = q' := Fin.ext hq
  refine (pay1_apply (accAt0 V c t.val t.isLt).1 u s q).trans ?_
  rw [acc1_eq V c 0 q t.val t.isLt]
  exact fold_last _ t.val h14 κ hκ

/-- The same for the sums of squares. -/
theorem pay2_acc (c : Dev nD) (t : Fin cfg0.N) (h14 : t.val % 15 = 14) (j : S1x8x1600.Idx) (κ : Fin 2) (q : Fin 1600)
    (hκ : κ.val = t.val / 15) (hq : q.val = (j 2).val) :
    k0_pay2 (F := Ideal) (accAt0 V c t.val t.isLt).2 j = Spec.coreSum (fun r => Yat V c r q * Yat V c r q) κ := by
  obtain ⟨u, s, q', rfl⟩ : ∃ (u : Fin 1) (s : Fin 8) (q' : Fin 1600), j = ix3 u s q' := ⟨j 0, j 1, j 2, eq_ix3 j⟩
  obtain rfl : q = q' := Fin.ext hq
  refine (pay2_apply (accAt0 V c t.val t.isLt).2 u s q).trans ?_
  rw [acc2_eq V c 0 q t.val t.isLt]
  exact fold_last _ t.val h14 κ hκ

/-- A core's last tile writes its slab of the sums array: every row of the slab the core's column sums. -/
theorem flushed4_eq (c : Dev nD) (t : Fin cfg0.N) (hf : (cfg0.win 4).flush t = true) :
    (dat0 V c).flushed 4 t
      = ((cfg0.win 4).blk t).view.read (Elt Ideal) (fun i => Spec.coreSum (fun r => Yat V c r (i 2)) (i 0)) := by
  have h14 : t.val % 15 = 14 := (flush0_4 t).mp hf
  obtain ⟨-, -, -, -, -, -, -, -, e0, e1, e2, -⟩ := blockIndex t
  show (cfg0.win 4).cut (grid0.coords t) ((dat0 V c).after 4 t) = _
  rw [after0_4]
  funext j
  have hj : (j 0).val < 1 := (j 0).isLt
  show k0_pay1 (F := Ideal) (accAt0 V c t.val t.isLt).1 j
    = Spec.coreSum (fun r => Yat V c r ((((cfg0.win 4).blk t).view.emb j) 2)) ((((cfg0.win 4).blk t).view.emb j) 0)
  refine pay1_acc V c t h14 j _ _ ?_ ?_
  · show win0_4.index t (0 : Fin 3) * 1 + 1 * (j 0).val = t.val / 15; rw [e0]; omega
  · show win0_4.index t (2 : Fin 3) * 1600 + 1 * (j 2).val = (j 2).val; rw [e2]; omega

theorem flushed5_eq (c : Dev nD) (t : Fin cfg0.N) (hf : (cfg0.win 5).flush t = true) :
    (dat0 V c).flushed 5 t
      = ((cfg0.win 5).blk t).view.read (Elt Ideal)
          (fun i => Spec.coreSum (fun r => Yat V c r (i 2) * Yat V c r (i 2)) (i 0)) := by
  have h14 : t.val % 15 = 14 := (flush0_5 t).mp hf
  obtain ⟨-, -, -, -, -, -, -, -, -, -, -, e0, e1, e2⟩ := blockIndex t
  show (cfg0.win 5).cut (grid0.coords t) ((dat0 V c).after 5 t) = _
  rw [after0_5]
  funext j
  have hj : (j 0).val < 1 := (j 0).isLt
  show k0_pay2 (F := Ideal) (accAt0 V c t.val t.isLt).2 j
    = Spec.coreSum (fun r => Yat V c r ((((cfg0.win 5).blk t).view.emb j) 2)
        * Yat V c r ((((cfg0.win 5).blk t).view.emb j) 2)) ((((cfg0.win 5).blk t).view.emb j) 0)
  refine pay2_acc V c t h14 j _ _ ?_ ?_
  · show win0_5.index t (0 : Fin 3) * 1 + 1 * (j 0).val = t.val / 15; rw [e0]; omega
  · show win0_5.index t (2 : Fin 3) * 1600 + 1 * (j 2).val = (j 2).val; rw [e2]; omega

/-- An index of a statistics array is in point t's block iff each coordinate is in the block's range on its axis. -/
theorem mem_blk4 (t : Fin cfg0.N) (i : S2x8x1600.Idx) :
    i ∈ ((cfg0.win 4).blk t).view.set ↔ ∀ a : Fin 3, win0_4.index t a * S1x8x1600.size a ≤ (i a).val
      ∧ (i a).val < win0_4.index t a * S1x8x1600.size a + S1x8x1600.size a := by
  show i ∈ ((View.whole main_v45_1).slice (win0_4.rect t)).set ↔ _
  rw [View.set_slice_whole, Rect.mem_set_unit]
  exact Iff.rfl

theorem mem_blk5 (t : Fin cfg0.N) (i : S2x8x1600.Idx) :
    i ∈ ((cfg0.win 5).blk t).view.set ↔ ∀ a : Fin 3, win0_5.index t a * S1x8x1600.size a ≤ (i a).val
      ∧ (i a).val < win0_5.index t a * S1x8x1600.size a + S1x8x1600.size a := by
  show i ∈ ((View.whole main_v45_2).slice (win0_5.rect t)).set ↔ _
  rw [View.set_slice_whole, Rect.mem_set_unit]
  exact Iff.rfl

/-- THE SUMS ARRAY after the run: slab κ is covered by the block of core κ's last tile, point 15·κ + 14. -/
theorem sum_final (c : Dev nD) :
    (dat0 V c).arrAt 4 cfg0.N
      = fun i => Spec.coreSum (fun r => Spec.ymat (V c main_v1) (V c main_v32) (V c main_v44) r (i 2)) (i 0) :=
  (dat0 V c).arrAt_eq_of_cover 4 (fun i => Spec.coreSum (fun r => Yat V c r (i 2)) (i 0))
    (fun t hf => flushed4_eq V c t hf) fun i => by
    have h0 : (i 0).val < 2 := (i 0).isLt
    have h1 : (i 1).val < 8 := (i 1).isLt
    have h2 : (i 2).val < 1600 := (i 2).isLt
    have hN : cfg0.N = 30 := N_0
    have ht : 15 * (i 0).val + 14 < cfg0.N := by rw [hN]; omega
    obtain ⟨-, -, -, -, -, -, -, -, e0, e1, e2, -⟩ := blockIndex ⟨15 * (i 0).val + 14, ht⟩
    refine ⟨⟨15 * (i 0).val + 14, ht⟩, (flush0_4 _).mpr (by show (15 * (i 0).val + 14) % 15 = 14; omega), ?_⟩
    rw [mem_blk4]
    intro a
    match a with
    | ⟨0, _⟩ =>
      show win0_4.index ⟨15 * (i 0).val + 14, ht⟩ (0 : Fin 3) * 1 ≤ (i 0).val
        ∧ (i 0).val < win0_4.index ⟨15 * (i 0).val + 14, ht⟩ (0 : Fin 3) * 1 + 1
      rw [e0]; show (15 * (i 0).val + 14) / 15 * 1 ≤ (i 0).val ∧ (i 0).val < (15 * (i 0).val + 14) / 15 * 1 + 1; omega
    | ⟨1, _⟩ =>
      show win0_4.index ⟨15 * (i 0).val + 14, ht⟩ (1 : Fin 3) * 8 ≤ (i 1).val
        ∧ (i 1).val < win0_4.index ⟨15 * (i 0).val + 14, ht⟩ (1 : Fin 3) * 8 + 8
      rw [e1]; omega
    | ⟨2, _⟩ =>
      show win0_4.index ⟨15 * (i 0).val + 14, ht⟩ (2 : Fin 3) * 1600 ≤ (i 2).val
        ∧ (i 2).val < win0_4.index ⟨15 * (i 0).val + 14, ht⟩ (2 : Fin 3) * 1600 + 1600
      rw [e2]; omega

/-- THE SUMS-OF-SQUARES ARRAY after the run, likewise. -/
theorem sq_final (c : Dev nD) :
    (dat0 V c).arrAt 5 cfg0.N
      = fun i => Spec.coreSum (fun r => Spec.ymat (V c main_v1) (V c main_v32) (V c main_v44) r (i 2)
          * Spec.ymat (V c main_v1) (V c main_v32) (V c main_v44) r (i 2)) (i 0) :=
  (dat0 V c).arrAt_eq_of_cover 5 (fun i => Spec.coreSum (fun r => Yat V c r (i 2) * Yat V c r (i 2)) (i 0))
    (fun t hf => flushed5_eq V c t hf) fun i => by
    have h0 : (i 0).val < 2 := (i 0).isLt
    have h1 : (i 1).val < 8 := (i 1).isLt
    have h2 : (i 2).val < 1600 := (i 2).isLt
    have hN : cfg0.N = 30 := N_0
    have ht : 15 * (i 0).val + 14 < cfg0.N := by rw [hN]; omega
    obtain ⟨-, -, -, -, -, -, -, -, -, -, -, e0, e1, e2⟩ := blockIndex ⟨15 * (i 0).val + 14, ht⟩
    refine ⟨⟨15 * (i 0).val + 14, ht⟩, (flush0_5 _).mpr (by show (15 * (i 0).val + 14) % 15 = 14; omega), ?_⟩
    rw [mem_blk5]
    intro a
    match a with
    | ⟨0, _⟩ =>
      show win0_5.index ⟨15 * (i 0).val + 14, ht⟩ (0 : Fin 3) * 1 ≤ (i 0).val
        ∧ (i 0).val < win0_5.index ⟨15 * (i 0).val + 14, ht⟩ (0 : Fin 3) * 1 + 1
      rw [e0]; show (15 * (i 0).val + 14) / 15 * 1 ≤ (i 0).val ∧ (i 0).val < (15 * (i 0).val + 14) / 15 * 1 + 1; omega
    | ⟨1, _⟩ =>
      show win0_5.index ⟨15 * (i 0).val + 14, ht⟩ (1 : Fin 3) * 8 ≤ (i 1).val
        ∧ (i 1).val < win0_5.index ⟨15 * (i 0).val + 14, ht⟩ (1 : Fin 3) * 8 + 8
      rw [e1]; omega
    | ⟨2, _⟩ =>
      show win0_5.index ⟨15 * (i 0).val + 14, ht⟩ (2 : Fin 3) * 1600 ≤ (i 2).val
        ∧ (i 2).val < win0_5.index ⟨15 * (i 0).val + 14, ht⟩ (2 : Fin 3) * 1600 + 1600
      rw [e2]; omega

end Cert.KernelIdeal.Hand

end
-- ==== Proof.KI.HostC.lean ====
/-
  The statistics stretch of the host program between the two kernels, read at the extended reals: from the two cores'
  column sums and column sums of squares (each core's row on sublane 0 of its slab of a 2 × 8 × 1600 array) to the mean
  row and the inverse deviation row, both 1 × 1600. Stated over whatever the buffers hold when the stretch begins.

    mean[j]   = (S[0,0,j] + S[1,0,j]) / 19200
    invstd[j] = rsqrt (max ((Q[0,0,j] + Q[1,0,j]) / 19200 − mean[j]², 0) + ε)
-/
import proofs.«428867_j23261542875775_2_alg».proof.Proof.Gen.KernelIdeal.Launch
import proofs.«428867_j23261542875775_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Idealize.ShloMosaic.StableHlo
open Cert.KernelIdeal Cert.KernelIdeal.Gen

variable (Vin : Valuation τ sig (Elt Ideal))

/-! ## The stretch's layout operations read at an index -/

/-- A flat row of 1600 entries seen as a 1 × 1600 array: entry (0, j) is entry j. -/
private theorem flat_as_row_apply {α : Type} (G : S1600.Idx → α) (i : S1x1600.Idx) :
    shapeCast S1x1600 G shapeCasts_S1600_S1x1600 i = G (ix1 (i 1)) := by
  refine shapeCast_apply G _ i (ix1 (i 1)) ?_
  rw [Shape.rowMajor_val_one, Shape.rowMajor_val_two]
  have h0 : (i 0).val < 1 := idx2_lt0 i
  show (i 1).val = (i 0).val * 1600 + (i 1).val
  omega

/-- Slab `c`, sublane 0 of a 2 × 8 × 1600 array, flattened to a row: entry j is entry (c, 0, j). -/
private theorem slab_row_apply {α : Type} (S : S2x8x1600.Idx → α) (c : Fin 2) (off : Fin 3 → Nat)
    (h : S2x8x1600.Slices off S1x1x1600) (hoff : off = ![c.val, 0, 0]) (j : Fin 1600) :
    shapeCast S1600 (extractStridedSlice S1x1x1600 off S h) shapeCasts_S1x1x1600_S1600 (ix1 j) = S (ix3 c 0 j) := by
  subst hoff
  refine (shapeCast_apply _ _ (ix1 j) (ix3 0 0 j) ?_).trans ?_
  · rw [Shape.rowMajor_val_three, Shape.rowMajor_val_one]
    show ((0 : Fin 1).val * 1 + (0 : Fin 1).val) * 1600 + j.val = j.val
    simp
  · refine extractStridedSlice_apply _ S h (ix3 0 0 j) (ix3 c 0 j) fun a => ?_
    match a with
    | ⟨0, _⟩ => rfl
    | ⟨1, _⟩ => rfl
    | ⟨2, _⟩ => show j.val = 0 + j.val; omega

/-! ## The mean row and the inverse deviation row -/

/-- The stretch's two inputs as arrays of extended reals: per core (first axis) the column sums, and the column sums of
    squares, each on sublane 0 of its slab. -/
abbrev hostC_S : S2x8x1600.Idx → EReal := Vin (Proc.devRef .tc main_v45_1)
abbrev hostC_Q : S2x8x1600.Idx → EReal := Vin (Proc.devRef .tc main_v45_2)

/-- The mean row: at column j, the two cores' sums added and divided by the number of rows. -/
theorem hostC_v67 :
    StableHlo.after hostOps1 Vin (Proc.devRef .tc main_v67)
      = fun i : S1x1600.Idx => Ideal.div (hostC_S Vin (ix3 0 0 (i 1)) + hostC_S Vin (ix3 1 0 (i 1))) Spec.n19200 := by
  after_results
  funext i
  refine (flat_as_row_apply _ i).trans ?_
  have hA := slab_row_apply (hostC_S Vin) 0 ![0, 0, 0] slices_S2x8x1600_S1x1x1600_0_0_0 rfl (i 1)
  have hB := slab_row_apply (hostC_S Vin) 1 ![1, 0, 0] slices_S2x8x1600_S1x1x1600_1_0_0 rfl (i 1)
  show Ideal.div
          (shapeCast S1600 (extractStridedSlice S1x1x1600 ![0, 0, 0] (hostC_S Vin) slices_S2x8x1600_S1x1x1600_0_0_0) shapeCasts_S1x1x1600_S1600 (ix1 (i 1))
            + shapeCast S1600 (extractStridedSlice S1x1x1600 ![1, 0, 0] (hostC_S Vin) slices_S2x8x1600_S1x1x1600_1_0_0) shapeCasts_S1x1x1600_S1600 (ix1 (i 1)))
          Spec.n19200 = _
  rw [hA, hB]

/-- The inverse deviation row: at column j, the reciprocal square root of the variance, taken as the mean of squares less
    the squared mean and held at or above 0, plus the offset. -/
theorem hostC_v68 :
    StableHlo.after hostOps1 Vin (Proc.devRef .tc main_v68)
      = fun i : S1x1600.Idx => Ideal.rsqrt (max (Ideal.div (hostC_Q Vin (ix3 0 0 (i 1)) + hostC_Q Vin (ix3 1 0 (i 1))) Spec.n19200
          - (Ideal.div (hostC_S Vin (ix3 0 0 (i 1)) + hostC_S Vin (ix3 1 0 (i 1))) Spec.n19200)
            * (Ideal.div (hostC_S Vin (ix3 0 0 (i 1)) + hostC_S Vin (ix3 1 0 (i 1))) Spec.n19200)) 0 + Spec.eps) := by
  after_results_simp
  funext i
  refine (flat_as_row_apply _ i).trans ?_
  have hA := slab_row_apply (hostC_S Vin) 0 ![0, 0, 0] slices_S2x8x1600_S1x1x1600_0_0_0 rfl (i 1)
  have hB := slab_row_apply (hostC_S Vin) 1 ![1, 0, 0] slices_S2x8x1600_S1x1x1600_1_0_0 rfl (i 1)
  have hA' := slab_row_apply (hostC_Q Vin) 0 ![0, 0, 0] slices_S2x8x1600_S1x1x1600_0_0_0 rfl (i 1)
  have hB' := slab_row_apply (hostC_Q Vin) 1 ![1, 0, 0] slices_S2x8x1600_S1x1x1600_1_0_0 rfl (i 1)
  show Ideal.rsqrt (max
      (Ideal.div
          (shapeCast S1600 (extractStridedSlice S1x1x1600 ![0, 0, 0] (hostC_Q Vin) slices_S2x8x1600_S1x1x1600_0_0_0) shapeCasts_S1x1x1600_S1600 (ix1 (i 1))
            + shapeCast S1600 (extractStridedSlice S1x1x1600 ![1, 0, 0] (hostC_Q Vin) slices_S2x8x1600_S1x1x1600_1_0_0) shapeCasts_S1x1x1600_S1600 (ix1 (i 1)))
          Spec.n19200
        - Ideal.div
          (shapeCast S1600 (extractStridedSlice S1x1x1600 ![0, 0, 0] (hostC_S Vin) slices_S2x8x1600_S1x1x1600_0_0_0) shapeCasts_S1x1x1600_S1600 (ix1 (i 1))
            + shapeCast S1600 (extractStridedSlice S1x1x1600 ![1, 0, 0] (hostC_S Vin) slices_S2x8x1600_S1x1x1600_1_0_0) shapeCasts_S1x1x1600_S1600 (ix1 (i 1)))
          Spec.n19200
          * Ideal.div
          (shapeCast S1600 (extractStridedSlice S1x1x1600 ![0, 0, 0] (hostC_S Vin) slices_S2x8x1600_S1x1x1600_0_0_0) shapeCasts_S1x1x1600_S1600 (ix1 (i 1))
            + shapeCast S1600 (extractStridedSlice S1x1x1600 ![1, 0, 0] (hostC_S Vin) slices_S2x8x1600_S1x1x1600_1_0_0) shapeCasts_S1x1x1600_S1600 (ix1 (i 1)))
          Spec.n19200)
      (Ideal.ofBits .f32 0x00000000#32) + Spec.eps) = _
  rw [hA, hB, hA', hB', Ideal.ofBits_zero_f32]

/-! The same two, with each array the stretch reads given by an equation (for use with a value already known). -/

theorem hostC_v67_of {S : S2x8x1600.Idx → EReal} (hS : Vin (Proc.devRef .tc main_v45_1) = S) :
    StableHlo.after hostOps1 Vin (Proc.devRef .tc main_v67)
      = fun i : S1x1600.Idx => Ideal.div (S (ix3 0 0 (i 1)) + S (ix3 1 0 (i 1))) Spec.n19200 := by
  subst hS; exact hostC_v67 Vin

theorem hostC_v68_of {S Q : S2x8x1600.Idx → EReal} (hS : Vin (Proc.devRef .tc main_v45_1) = S)
    (hQ : Vin (Proc.devRef .tc main_v45_2) = Q) :
    StableHlo.after hostOps1 Vin (Proc.devRef .tc main_v68)
      = fun i : S1x1600.Idx => Ideal.rsqrt (max (Ideal.div (Q (ix3 0 0 (i 1)) + Q (ix3 1 0 (i 1))) Spec.n19200
          - (Ideal.div (S (ix3 0 0 (i 1)) + S (ix3 1 0 (i 1))) Spec.n19200)
            * (Ideal.div (S (ix3 0 0 (i 1)) + S (ix3 1 0 (i 1))) Spec.n19200)) 0 + Spec.eps) := by
  subst hS; subst hQ; exact hostC_v68 Vin

end Cert.KernelIdeal.Hand

end
-- ==== Proof.KI.HostD.lean ====
/-
  THE HOST STRETCHES AROUND REGION 1, read at an index, on extended reals and over ARBITRARY buffer contents.

  After the second kernel the program reshapes the 19200×1600 output to 64×300×25×64 and transposes it by
  [0, 3, 1, 2] to 64×64×300×25: element (n, d, t, v) of the result is element (n, t, v, d) of the reshaped array,
  which is element (300·n + t, 64·v + d) of the kernel's output, the two having the same row-major position
  ((300·n + t)·25 + v)·64 + d = (300·n + t)·1600 + (64·v + d).

  Before the second kernel the last two host operations reshape the scale and the shift vectors, of length 1600, to
  1×1600: element (0, j) of the result is element j of the vector.

  Every buffer a stretch does not write keeps its contents.
-/
import proofs.«428867_j23261542875775_2_alg».proof.Proof.Gen.KernelIdeal.Launch
import proofs.«428867_j23261542875775_2_alg».proof.Proof.Gen.KernelIdeal.Regions
import proofs.«428867_j23261542875775_2_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.ValueIdx Idealize.ShloMosaic.TcCoe Idealize.SL.Sem

/-! ## After the second kernel: the reshape and the transpose -/

/-- THE RESULT ARRAY at (n, d, t, v) is the second kernel's output at row 300·n + t, column 64·v + d. -/
theorem hostD_v73 (Vin' : Valuation τ sig (Elt Ideal)) :
    StableHlo.after hostOps2 Vin' (Proc.devRef .tc main_v73)
      = fun i => (Vin' (Proc.devRef .tc main_v71)) (ix2 (Spec.rowOf (i 0) (i 2)) (Spec.colOf (i 3) (i 1))) := by
  have e : StableHlo.after hostOps2 Vin' (Proc.devRef .tc main_v73)
      = transpose S64x64x300x25 [0, 3, 1, 2]
          (shapeCast S64x300x25x64 (Vin' (Proc.devRef .tc main_v71)) shapeCasts_S19200x1600_S64x300x25x64)
          transposes_S64x300x25x64_S64x64x300x25_0_3_1_2 := by
    after_results; rfl
  rw [e]
  funext i
  obtain ⟨n, d, t, v, rfl⟩ : ∃ (n : Fin 64) (d : Fin 64) (t : Fin 300) (v : Fin 25), i = ix4 n d t v :=
    ⟨i 0, i 1, i 2, i 3, eq_ix4 i⟩
  -- the transpose reads the reshaped array at (n, t, v, d)
  refine (transpose_apply _ _ _ (ix4 n d t v) (ix4 n t v d) fun b => ?_).trans ?_
  · match b with
    | ⟨0, _⟩ => rfl
    | ⟨1, _⟩ => rfl
    | ⟨2, _⟩ => rfl
    | ⟨3, _⟩ => rfl
  -- the reshape reads the output at the index of the same row-major position
  refine (shapeCast_apply _ _ (ix4 n t v d) (ix2 (Spec.rowOf n t) (Spec.colOf v d)) ?_).trans rfl
  rw [Shape.rowMajor_val_two, Shape.rowMajor_val_four]
  show (n.val * 300 + t.val) * 1600 + (v.val * 64 + d.val) = ((n.val * 300 + t.val) * 25 + v.val) * 64 + d.val
  omega

/-- The stretch writes only the reshaped array and the result: every other buffer keeps its contents. -/
theorem hostD_keeps (Vin' : Valuation τ sig (Elt Ideal)) (b : Ref sig .tc) (hb : b ∉ [main_v72, main_v73]) :
    StableHlo.after hostOps2 Vin' (Proc.devRef .tc b) = Vin' (Proc.devRef .tc b) :=
  StableHlo.after_of_writes_sub hostOps2 Vin' hostOps2_writes hb

/-! ## Before the second kernel: the scale and the shift as rows -/

/-- The scale row at (0, j) is the scale vector at j. -/
theorem hostC_v69 (Vin : Valuation τ sig (Elt Ideal)) :
    StableHlo.after hostOps1 Vin (Proc.devRef .tc main_v69)
      = fun i => (Vin (Proc.devRef .tc main_arg4)) (ix1 (i 1)) := by
  have e : StableHlo.after hostOps1 Vin (Proc.devRef .tc main_v69)
      = shapeCast S1x1600 (Vin (Proc.devRef .tc main_arg4)) shapeCasts_S1600_S1x1600 := by
    after_results; rfl
  rw [e]
  funext i
  obtain ⟨u, j, rfl⟩ : ∃ (u : Fin 1) (j : Fin 1600), i = ix2 u j := ⟨i 0, i 1, eq_ix2 i⟩
  exact shapeCast_a_1a_apply _ _ u j

/-- The shift row at (0, j) is the shift vector at j. -/
theorem hostC_v70 (Vin : Valuation τ sig (Elt Ideal)) :
    StableHlo.after hostOps1 Vin (Proc.devRef .tc main_v70)
      = fun i => (Vin (Proc.devRef .tc main_arg5)) (ix1 (i 1)) := by
  have e : StableHlo.after hostOps1 Vin (Proc.devRef .tc main_v70)
      = shapeCast S1x1600 (Vin (Proc.devRef .tc main_arg5)) shapeCasts_S1600_S1x1600 := by
    after_results; rfl
  rw [e]
  funext i
  obtain ⟨u, j, rfl⟩ : ∃ (u : Fin 1) (j : Fin 1600), i = ix2 u j := ⟨i 0, i 1, eq_ix2 i⟩
  exact shapeCast_a_1a_apply _ _ u j

/-- The stretch writes only its 29 results: every other buffer keeps its contents. -/
theorem hostC_keeps (Vin : Valuation τ sig (Elt Ideal)) (b : Ref sig .tc) (hb : b ∉ hostOps1_W) :
    StableHlo.after hostOps1 Vin (Proc.devRef .tc b) = Vin (Proc.devRef .tc b) :=
  StableHlo.after_of_writes_sub hostOps1 Vin hostOps1_writes hb

end Cert.KernelIdeal.Hand

end
-- ==== Proof.KI.Value1.lean ====
/-
  THE VALUE OF REGION 1 (the second kernel), on extended reals: the output array after the region, as one function of
  the arrays the region is handed.

  The kernel walks 30 points; at point t it reads rows 640·t … 640·t + 639 of the activations y and of the input x,
  and the four 1×1600 row vectors (mean, inverse deviation, scale, shift) whole, and stores over rows
  640·t … 640·t + 639 of the output
      max ((((y − mean) · inv) · scale + shift) + x, 0),
  each row vector read at its column. On extended reals the widening of y is the identity and the constant 0 is 0. So
  what point t writes back is block t of ONE array, `Spec.bnrow` of the six arrays; the 30 blocks cover all 19200
  rows (row r lies in block r / 640); hence the output array after the region is that array.
-/
import proofs.«428867_j23261542875775_2_alg».proof.Proof.KI.Region1
import proofs.«428867_j23261542875775_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

namespace Value1

/-! ## The stored value at one element of a block -/

/-- The second kernel's stored value at row p, column q of its block: the block of activations less the first row
    vector, times the second and the third, plus the fourth, plus the block of inputs, clamped below at 0; each row
    vector read at (0, q), the widening of the activations the identity on extended reals. -/
theorem k1_pay1_apply (y : FVec Ideal S640x1600 .bf16) (x : FVec Ideal S640x1600 .f32)
    (mu inv g be : FVec Ideal S1x1600 .f32) (p : Fin 640) (q : Fin 1600) :
    k1_pay1 (F := Ideal) y x mu inv g be (ix2 p q)
      = max (((((y (ix2 p q) - mu (ix2 0 q)) * inv (ix2 0 q)) * g (ix2 0 q)) + be (ix2 0 q)) + x (ix2 p q)) 0 := by
  unfold k1_pay1
  simp only [shapeCast_self]
  rw [maximumf_apply, broadcast_apply, addf_apply, addf_apply, mulf_apply, mulf_apply, subf_apply, extf_apply]
  rw [broadcastTo_1b_ab_apply, broadcastTo_1b_ab_apply, broadcastTo_1b_ab_apply, broadcastTo_1b_ab_apply]
  exact congrArg (max _) Ideal.ofBits_zero_f32

/-! ## Where each window's block sits in its array -/

/-- The printed index maps, decided over the 30 points: the three big windows sit at block (t, 0), the four row
    vectors at block (0, 0). -/
theorem idx_facts1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The grid has 30 points. -/
theorem lt30 (t : Fin cfg1.N) : t.val < 30 := by have h := t.isLt; have e : cfg1.N = 30 := N_1; omega

/-- Row p of the block at point t is row 640·t + p of the array. -/
def rowAt (t : Fin cfg1.N) (p : Fin 640) : Fin 19200 := ⟨t.val * 640 + p.val, by have := lt30 t; have := p.isLt; omega⟩

/-- Element (p, q) of the output's block at point t is element (640·t + p, q) of the output array … -/
theorem emb6 (t : Fin cfg1.N) (p : Fin 640) (q : Fin 1600) :
    ((cfg1.win 6).blk t).view.emb (ix2 p q) = ix2 (rowAt t p) q := by
  obtain ⟨e0, e1, -⟩ := idx_facts1 t
  funext a; apply Fin.ext
  match a with
  | ⟨0, _⟩ => show win1_6.index t (0 : Fin 2) * 640 + 1 * p.val = t.val * 640 + p.val; omega
  | ⟨1, _⟩ => show win1_6.index t (1 : Fin 2) * 1600 + 1 * q.val = q.val; omega

/-- … and so it is for the activations' block … -/
theorem emb0 (t : Fin cfg1.N) (p : Fin 640) (q : Fin 1600) :
    ((cfg1.win 0).blk t).view.emb (ix2 p q) = ix2 (rowAt t p) q := by
  obtain ⟨-, -, e0, e1, -⟩ := idx_facts1 t
  funext a; apply Fin.ext
  match a with
  | ⟨0, _⟩ => show win1_0.index t (0 : Fin 2) * 640 + 1 * p.val = t.val * 640 + p.val; omega
  | ⟨1, _⟩ => show win1_0.index t (1 : Fin 2) * 1600 + 1 * q.val = q.val; omega

/-- … and for the inputs' block. -/
theorem emb1 (t : Fin cfg1.N) (p : Fin 640) (q : Fin 1600) :
    ((cfg1.win 1).blk t).view.emb (ix2 p q) = ix2 (rowAt t p) q := by
  obtain ⟨-, -, -, -, e0, e1, -⟩ := idx_facts1 t
  funext a; apply Fin.ext
  match a with
  | ⟨0, _⟩ => show win1_1.index t (0 : Fin 2) * 640 + 1 * p.val = t.val * 640 + p.val; omega
  | ⟨1, _⟩ => show win1_1.index t (1 : Fin 2) * 1600 + 1 * q.val = q.val; omega

/-- Each row vector's block is the whole row vector, at every point. -/
theorem emb2 (t : Fin cfg1.N) (q : Fin 1600) :
    ((cfg1.win 2).blk t).view.emb (ix2 (0 : Fin 1) q) = ix2 (0 : Fin 1) q := by
  obtain ⟨-, -, -, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 1600 + 1 * q.val = q.val; omega

theorem emb3 (t : Fin cfg1.N) (q : Fin 1600) :
    ((cfg1.win 3).blk t).view.emb (ix2 (0 : Fin 1) q) = ix2 (0 : Fin 1) q := by
  obtain ⟨-, -, -, -, -, -, -, -, e0, e1, -⟩ := idx_facts1 t
  funext a; apply Fin.ext
  match a with
  | ⟨0, _⟩ => show win1_3.index t (0 : Fin 2) * 1 + 1 * 0 = 0; omega
  | ⟨1, _⟩ => show win1_3.index t (1 : Fin 2) * 1600 + 1 * q.val = q.val; omega

theorem emb4 (t : Fin cfg1.N) (q : Fin 1600) :
    ((cfg1.win 4).blk t).view.emb (ix2 (0 : Fin 1) q) = ix2 (0 : Fin 1) q := by
  obtain ⟨-, -, -, -, -, -, -, -, -, -, e0, e1, -⟩ := idx_facts1 t
  funext a; apply Fin.ext
  match a with
  | ⟨0, _⟩ => show win1_4.index t (0 : Fin 2) * 1 + 1 * 0 = 0; omega
  | ⟨1, _⟩ => show win1_4.index t (1 : Fin 2) * 1600 + 1 * q.val = q.val; omega

theorem emb5 (t : Fin cfg1.N) (q : Fin 1600) :
    ((cfg1.win 5).blk t).view.emb (ix2 (0 : Fin 1) q) = ix2 (0 : Fin 1) q := by
  obtain ⟨-, -, -, -, -, -, -, -, -, -, -, -, e0, e1⟩ := idx_facts1 t
  funext a; apply Fin.ext
  match a with
  | ⟨0, _⟩ => show win1_5.index t (0 : Fin 2) * 1 + 1 * 0 = 0; omega
  | ⟨1, _⟩ => show win1_5.index t (1 : Fin 2) * 1600 + 1 * q.val = q.val; omega

variable (V : (c : Dev nD) → (b : Ref sig .tc) → Buf (Elt Ideal) ((c : Thread nD τ).loc b))

/-! ## Each window's block read off its array -/

/-- The activations' block at point t, element (p, q), is the activations' array at (640·t + p, q). -/
theorem iblk1_0 (c : Dev nD) (t : Fin cfg1.N) (p : Fin 640) (q : Fin 1600) :
    iblk1 V c 0 t (ix2 p q) = V c main_v45_0 (ix2 (rowAt t p) q) := by
  show V c main_v45_0 (((cfg1.win 0).blk t).view.emb (ix2 p q)) = _
  rw [emb0]

/-- The inputs' block likewise. -/
theorem iblk1_1 (c : Dev nD) (t : Fin cfg1.N) (p : Fin 640) (q : Fin 1600) :
    iblk1 V c 1 t (ix2 p q) = V c main_v1 (ix2 (rowAt t p) q) := by
  show V c main_v1 (((cfg1.win 1).blk t).view.emb (ix2 p q)) = _
  rw [emb1]

/-- Each row vector's block, at every point, is the row vector. -/
theorem iblk1_2 (c : Dev nD) (t : Fin cfg1.N) (q : Fin 1600) :
    iblk1 V c 2 t (ix2 (0 : Fin 1) q) = V c main_v67 (ix2 (0 : Fin 1) q) := by
  show V c main_v67 (((cfg1.win 2).blk t).view.emb (ix2 (0 : Fin 1) q)) = _
  rw [emb2]

theorem iblk1_3 (c : Dev nD) (t : Fin cfg1.N) (q : Fin 1600) :
    iblk1 V c 3 t (ix2 (0 : Fin 1) q) = V c main_v68 (ix2 (0 : Fin 1) q) := by
  show V c main_v68 (((cfg1.win 3).blk t).view.emb (ix2 (0 : Fin 1) q)) = _
  rw [emb3]

theorem iblk1_4 (c : Dev nD) (t : Fin cfg1.N) (q : Fin 1600) :
    iblk1 V c 4 t (ix2 (0 : Fin 1) q) = V c main_v69 (ix2 (0 : Fin 1) q) := by
  show V c main_v69 (((cfg1.win 4).blk t).view.emb (ix2 (0 : Fin 1) q)) = _
  rw [emb4]

theorem iblk1_5 (c : Dev nD) (t : Fin cfg1.N) (q : Fin 1600) :
    iblk1 V c 5 t (ix2 (0 : Fin 1) q) = V c main_v70 (ix2 (0 : Fin 1) q) := by
  show V c main_v70 (((cfg1.win 5).blk t).view.emb (ix2 (0 : Fin 1) q)) = _
  rw [emb5]

/-! ## What every point writes back is its block of one array -/

/-- The array the second kernel leaves: at (r, j) the activations normalised by the row vectors at j, scaled, shifted,
    the input added back, clamped below at 0. -/
def G1 (c : Dev nD) : Buf (Elt Ideal) ((cfg1.win 6).arr.view.loc (c.tc : Thread nD τ)) :=
  fun i => Spec.bnrow (V c main_v45_0) (V c main_v1) (V c main_v67) (V c main_v68) (V c main_v69) (V c main_v70) (i 0) (i 1)

/-- The stored value of the blocks at point t is block t of that array: at element (p, q) both sides are the same
    expression in the arrays at row 640·t + p and column q. -/
theorem pay_block (c : Dev nD) (t : Fin cfg1.N) :
    (cfg1.win 6).cut (grid1.coords t)
        (k1_pay1 (iblk1 V c 0 t) (iblk1 V c 1 t) (iblk1 V c 2 t) (iblk1 V c 3 t) (iblk1 V c 4 t) (iblk1 V c 5 t))
      = ((cfg1.win 6).blk t).view.read (Elt Ideal) (G1 V c) := by
  funext j
  obtain ⟨p, q, rfl⟩ : ∃ (p : Fin 640) (q : Fin 1600), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = G1 V c (((cfg1.win 6).blk t).view.emb (ix2 p q))
  rw [emb6]
  refine (k1_pay1_apply _ _ _ _ _ _ p q).trans ?_
  rw [iblk1_0, iblk1_1, iblk1_2, iblk1_3, iblk1_4, iblk1_5]
  rfl

/-! ## The blocks cover the array -/

/-- An index of the output array is in point t's block iff each coordinate is in the block's range on its axis. -/
theorem mem_blk6 (t : Fin cfg1.N) (i : S19200x1600.Idx) :
    i ∈ ((cfg1.win 6).blk t).view.set ↔ ∀ a : Fin 2, win1_6.index t a * S640x1600.size a ≤ (i a).val
      ∧ (i a).val < win1_6.index t a * S640x1600.size a + S640x1600.size a := by
  show i ∈ ((View.whole main_v71).slice (win1_6.rect t)).set ↔ _
  rw [View.set_slice_whole, Rect.mem_set_unit]
  exact Iff.rfl

/-- Row r lies in the block of point r / 640, which writes back (every point does). -/
theorem cover6 (i : S19200x1600.Idx) :
    ∃ t : Fin cfg1.N, (cfg1.win 6).flush t = true ∧ i ∈ ((cfg1.win 6).blk t).view.set := by
  have hi0 : (i 0).val < 19200 := (i 0).isLt
  have hi1 : (i 1).val < 1600 := (i 1).isLt
  have hN : cfg1.N = 30 := N_1
  obtain ⟨t, ht⟩ : ∃ t : Fin cfg1.N, t.val = (i 0).val / 640 := ⟨⟨(i 0).val / 640, by omega⟩, rfl⟩
  obtain ⟨e0, e1, -⟩ := idx_facts1 t
  refine ⟨t, flush1_6 t, ?_⟩
  rw [mem_blk6]
  intro a
  match a with
  | ⟨0, _⟩ =>
    show win1_6.index t (0 : Fin 2) * 640 ≤ (i 0).val ∧ (i 0).val < win1_6.index t (0 : Fin 2) * 640 + 640
    omega
  | ⟨1, _⟩ =>
    show win1_6.index t (1 : Fin 2) * 1600 ≤ (i 1).val ∧ (i 1).val < win1_6.index t (1 : Fin 2) * 1600 + 1600
    omega

/-- What point t writes back to the output array is block t of that array. -/
theorem flushed6_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  exact pay_block V c t

end Value1

variable (V : (c : Dev nD) → (b : Ref sig .tc) → Buf (Elt Ideal) ((c : Thread nD τ).loc b))

/-- THE OUTPUT ARRAY AFTER REGION 1: at (r, j) the activations at (r, j) less the mean at j, times the inverse
    deviation, times the scale, plus the shift, plus the input at (r, j), clamped below at 0. Every point writes its
    block of this one array and the blocks cover every row. -/
theorem out_final (c : Dev nD) : (dat1 V c).arrAt 6 cfg1.N
    = fun i => Spec.bnrow (V c main_v45_0) (V c main_v1) (V c main_v67) (V c main_v68) (V c main_v69) (V c main_v70) (i 0) (i 1) :=
  (dat1 V c).arrAt_eq_of_cover 6 (Value1.G1 V c) (fun t _ => Value1.flushed6_eq V c t) Value1.cover6

end Cert.KernelIdeal.Hand

end
-- ==== Proof.KI.KernelValue.lean ====
/- THE VALUE OF THE KERNEL PROGRAM: what @main leaves in its result, as the mathematics of Spec.lean.

   The run's buffer contents at each boundary of @main are a fold from the launch memory (KI/Run.lean `W0 … W7`).
   Read stage by stage:
     the first stretch makes the flattened input X = Xf and the block-diagonal matrix Mblock;
     the second gathers Mblock's columns by σo; the third scatter-adds its rows by σi: the folded matrix Tm, and the
       folded bias row biasK;
     the first kernel leaves Y = X·Tm + biasK and, per core, the column sums of Y and of Y²;
     the fourth stretch makes of them the mean row and the inverse-deviation row, and spreads gamma and beta as rows;
     the second kernel leaves max(((Y − mean)·inv)·gamma + beta + X, 0) = outK;
     the last stretch reshapes and transposes it back: resultK4. -/
import proofs.«428867_j23261542875775_2_alg».proof.Proof.Spec
import proofs.«428867_j23261542875775_2_alg».proof.Proof.KI.Run
import proofs.«428867_j23261542875775_2_alg».proof.Proof.KI.HostA
import proofs.«428867_j23261542875775_2_alg».proof.Proof.KI.HostB1
import proofs.«428867_j23261542875775_2_alg».proof.Proof.KI.HostB2
import proofs.«428867_j23261542875775_2_alg».proof.Proof.KI.HostB3
import proofs.«428867_j23261542875775_2_alg».proof.Proof.KI.Value0
import proofs.«428867_j23261542875775_2_alg».proof.Proof.KI.HostC
import proofs.«428867_j23261542875775_2_alg».proof.Proof.KI.HostD
import proofs.«428867_j23261542875775_2_alg».proof.Proof.KI.Value1
import Idealize.ShloMosaic.Lib.ValueIdx

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)

/-! # The arrays of the kernel's reading, and how the two kernels' bodies and the host rows combine them

Pure mathematics over Spec.lean: each array the run holds at a boundary is one of these functions of its index. -/

namespace KV

variable (a0 : Spec.SX.Idx → EReal) (a1 : Spec.SM.Idx → EReal) (a2 : Spec.SW.Idx → EReal) (a3 : Spec.SB.Idx → EReal)
  (a4 a5 : Spec.SV.Idx → EReal) (σi σo : Fin 1600 → Fin 1600)

/-- Two index vectors that are equal name the same map of columns. -/
theorem sig_congr {s s' : Spec.SV.Idx → BitVec 32} (e : s = s') (h : ∀ k : Fin 1600, (s (ix1 k)).toNat < 1600)
    (h' : ∀ k : Fin 1600, (s' (ix1 k)).toNat < 1600) : Spec.sig s h = Spec.sig s' h' := by
  subst e; rfl

/-- The flattened input. -/
def xArr : (⟨2, ![19200, 1600]⟩ : Shape).Idx → EReal := fun i => Spec.Xf a0 (i 0) (i 1)
/-- The block-diagonal matrix. -/
def mArr : (⟨2, ![1600, 1600]⟩ : Shape).Idx → EReal := fun i => Spec.Mblock a1 a2 (i 0) (i 1)
/-- The folded matrix. -/
def tArr : (⟨2, ![1600, 1600]⟩ : Shape).Idx → EReal := fun i => Spec.Tm a1 a2 σi σo (i 0) (i 1)
/-- The folded bias row. -/
def bArr : (⟨2, ![1, 1600]⟩ : Shape).Idx → EReal := fun i => Spec.biasK a3 σo (i 1)
/-- The activations before normalisation. -/
def yArr : (⟨2, ![19200, 1600]⟩ : Shape).Idx → EReal := fun i => Spec.Yk a0 a1 a2 a3 σi σo (i 0) (i 1)
/-- Each core's column sums of the activations, and of their squares (every one of the 8 sublanes holds the sum). -/
def sArr : (⟨3, ![2, 8, 1600]⟩ : Shape).Idx → EReal :=
  fun i => Spec.coreSum (fun r => Spec.Yk a0 a1 a2 a3 σi σo r (i 2)) (i 0)
def qArr : (⟨3, ![2, 8, 1600]⟩ : Shape).Idx → EReal :=
  fun i => Spec.coreSum (fun r => Spec.Yk a0 a1 a2 a3 σi σo r (i 2) * Spec.Yk a0 a1 a2 a3 σi σo r (i 2)) (i 0)
/-- The mean row and the inverse-deviation row. -/
def muArr : (⟨2, ![1, 1600]⟩ : Shape).Idx → EReal := fun i => Spec.meanK a0 a1 a2 a3 σi σo (i 1)
def invArr : (⟨2, ![1, 1600]⟩ : Shape).Idx → EReal := fun i => Spec.invK a0 a1 a2 a3 σi σo (i 1)
/-- The scale and shift vectors as rows. -/
def rowArr (g : Spec.SV.Idx → EReal) : (⟨2, ![1, 1600]⟩ : Shape).Idx → EReal := fun i => g (ix1 (i 1))
/-- The normalised, scaled, shifted activations plus the input, clamped at 0. -/
def oArr : (⟨2, ![19200, 1600]⟩ : Shape).Idx → EReal := fun i => Spec.outK a0 a1 a2 a3 a4 a5 σi σo (i 0) (i 1)

/-- The block-diagonal matrix column-gathered by σo, then its rows scatter-added by σi, is the folded matrix. -/
theorem tArr_eq (k' j : Fin 1600) :
    (∑ k ∈ Finset.univ.filter (fun k : Fin 1600 => σi k = k'), mArr a1 a2 (ix2 k (σo j))) = tArr a1 a2 σi σo (ix2 k' j) := rfl

/-- The first kernel's row-times-matrix-plus-bias on the flattened input, the folded matrix and the folded bias. -/
theorem ymat_eq (r : Fin 19200) (j : Fin 1600) :
    Spec.ymat (xArr a0) (tArr a1 a2 σi σo) (bArr a3 σo) r j = Spec.Yk a0 a1 a2 a3 σi σo r j := rfl

theorem yArr_eq : (fun i : (⟨2, ![19200, 1600]⟩ : Shape).Idx => Spec.ymat (xArr a0) (tArr a1 a2 σi σo) (bArr a3 σo) (i 0) (i 1))
    = yArr a0 a1 a2 a3 σi σo := rfl
theorem sArr_eq : (fun i : (⟨3, ![2, 8, 1600]⟩ : Shape).Idx =>
      Spec.coreSum (fun r => Spec.ymat (xArr a0) (tArr a1 a2 σi σo) (bArr a3 σo) r (i 2)) (i 0))
    = sArr a0 a1 a2 a3 σi σo := rfl
theorem qArr_eq : (fun i : (⟨3, ![2, 8, 1600]⟩ : Shape).Idx =>
      Spec.coreSum (fun r => Spec.ymat (xArr a0) (tArr a1 a2 σi σo) (bArr a3 σo) r (i 2)
        * Spec.ymat (xArr a0) (tArr a1 a2 σi σo) (bArr a3 σo) r (i 2)) (i 0))
    = qArr a0 a1 a2 a3 σi σo := rfl

/-- The two cores' sums added and divided by the row count: the mean row. -/
theorem muArr_eq : (fun i : (⟨2, ![1, 1600]⟩ : Shape).Idx =>
      Ideal.div (sArr a0 a1 a2 a3 σi σo (ix3 0 0 (i 1)) + sArr a0 a1 a2 a3 σi σo (ix3 1 0 (i 1))) Spec.n19200)
    = muArr a0 a1 a2 a3 σi σo := rfl

/-- E[y²] − E[y]², clamped at 0, plus the offset, inverse square root: the inverse-deviation row. -/
theorem invArr_eq : (fun i : (⟨2, ![1, 1600]⟩ : Shape).Idx =>
      Ideal.rsqrt (max (Ideal.div (qArr a0 a1 a2 a3 σi σo (ix3 0 0 (i 1)) + qArr a0 a1 a2 a3 σi σo (ix3 1 0 (i 1))) Spec.n19200
        - Ideal.div (sArr a0 a1 a2 a3 σi σo (ix3 0 0 (i 1)) + sArr a0 a1 a2 a3 σi σo (ix3 1 0 (i 1))) Spec.n19200
          * Ideal.div (sArr a0 a1 a2 a3 σi σo (ix3 0 0 (i 1)) + sArr a0 a1 a2 a3 σi σo (ix3 1 0 (i 1))) Spec.n19200) 0 + Spec.eps))
    = invArr a0 a1 a2 a3 σi σo := rfl

/-- The second kernel's body on those arrays. -/
theorem oArr_eq : (fun i : (⟨2, ![19200, 1600]⟩ : Shape).Idx =>
      Spec.bnrow (yArr a0 a1 a2 a3 σi σo) (xArr a0) (muArr a0 a1 a2 a3 σi σo) (invArr a0 a1 a2 a3 σi σo) (rowArr a4) (rowArr a5) (i 0) (i 1))
    = oArr a0 a1 a2 a3 a4 a5 σi σo := rfl

/-- The last reshape and transpose read it at (row of (n, t), column of (v, d)). -/
theorem result_eq : (fun i : (⟨4, ![64, 64, 300, 25]⟩ : Shape).Idx =>
      oArr a0 a1 a2 a3 a4 a5 σi σo (ix2 (Spec.rowOf (i 0) (i 2)) (Spec.colOf (i 3) (i 1))))
    = fun i => Spec.resultK4 a0 a1 a2 a3 a4 a5 σi σo (i 0) (i 1) (i 2) (i 3) := rfl

end KV

/-! # The run's arrays, boundary by boundary -/

section Run
variable (m : (ℓ : Loc nD τ sig) → Buf (Elt Ideal) ℓ) (ρ : Dev nD → PrngReg) (c : Dev nD)

/-- The launch arrays. -/
abbrev a0 : Spec.SX.Idx → EReal := m ((c : Thread nD τ).loc main_arg0)
abbrev a1 : Spec.SM.Idx → EReal := m ((c : Thread nD τ).loc main_arg1)
abbrev a2 : Spec.SW.Idx → EReal := m ((c : Thread nD τ).loc main_arg2)
abbrev a3 : Spec.SB.Idx → EReal := m ((c : Thread nD τ).loc main_arg3)
abbrev a4 : Spec.SV.Idx → EReal := m ((c : Thread nD τ).loc main_arg4)
abbrev a5 : Spec.SV.Idx → EReal := m ((c : Thread nD τ).loc main_arg5)
abbrev a6 : Spec.SV.Idx → BitVec 32 := m ((c : Thread nD τ).loc main_arg6)
abbrev a7 : Spec.SV.Idx → BitVec 32 := m ((c : Thread nD τ).loc main_arg7)

/-! ## The arguments at the boundaries where a stretch reads them -/

theorem W1_arg3 : W1 m ρ c (Proc.devRef .tc main_arg3) = a3 m c := W1_of m ρ c main_arg3 (by decide)
theorem W1_arg7 : W1 m ρ c (Proc.devRef .tc main_arg7) = a7 m c := W1_of m ρ c main_arg7 (by decide)
theorem W2_arg6 : W2 m ρ c (Proc.devRef .tc main_arg6) = a6 m c :=
  (W2_of m ρ c main_arg6 (by decide)).trans (W1_of m ρ c main_arg6 (by decide))
theorem W4_arg4 : W4 m ρ c (Proc.devRef .tc main_arg4) = a4 m c :=
  (W4_of_ne m ρ c main_arg4 (by decide)).trans (W3_of_W0 m ρ c main_arg4 (by decide) (by decide) (by decide))
theorem W4_arg5 : W4 m ρ c (Proc.devRef .tc main_arg5) = a5 m c :=
  (W4_of_ne m ρ c main_arg5 (by decide)).trans (W3_of_W0 m ρ c main_arg5 (by decide) (by decide) (by decide))

/-! ## Before the first kernel -/

/-- The flattened input, made by the first stretch and untouched by the next two. -/
theorem W1_v1 : W1 m ρ c (Proc.devRef .tc main_v1) = KV.xArr (a0 m c) := hostA_v1 (W0 m ρ c)
theorem W3_v1 : W3 m ρ c (Proc.devRef .tc main_v1) = KV.xArr (a0 m c) :=
  (W3_of_W1 m ρ c main_v1 (by decide) (by decide)).trans (W1_v1 m ρ c)
/-- The block-diagonal matrix. -/
theorem W1_v22 : W1 m ρ c (Proc.devRef .tc main_v22) = KV.mArr (a1 m c) (a2 m c) := hostA_v22 (W0 m ρ c)

variable (h6 : ∀ k : Fin 1600, ((a6 m c) (ix1 k)).toNat < 1600) (h7 : ∀ k : Fin 1600, ((a7 m c) (ix1 k)).toNat < 1600)

/-- Its columns gathered by σo. -/
theorem W2_v23 : W2 m ρ c (Proc.devRef .tc main_v23)
    = fun i => KV.mArr (a1 m c) (a2 m c) (ix2 (i 0) (Spec.sig (a7 m c) h7 (i 1))) := by
  have h7' : ∀ k : Fin 1600, ((W1 m ρ c (Proc.devRef .tc main_arg7)) (ix1 k)).toNat < 1600 := by
    rw [W1_arg7]; exact h7
  refine (hostB1_v23 (W1 m ρ c) _ (W1_v22 m ρ c) h7').trans ?_
  rw [KV.sig_congr (W1_arg7 m ρ c) h7' h7]

/-- Its rows scatter-added by σi: the folded matrix. -/
theorem W3_v32 : W3 m ρ c (Proc.devRef .tc main_v32)
    = KV.tArr (a1 m c) (a2 m c) (Spec.sig (a6 m c) h6) (Spec.sig (a7 m c) h7) := by
  have h6' : ∀ k : Fin 1600, ((W2 m ρ c (Proc.devRef .tc main_arg6)) (ix1 k)).toNat < 1600 := by
    rw [W2_arg6]; exact h6
  funext i
  obtain ⟨k', j, rfl⟩ : ∃ (k' j : Fin 1600), i = ix2 k' j := ⟨i 0, i 1, eq_ix2 i⟩
  refine (hostB2_v32_apply (W2 m ρ c) _ (W2_v23 m ρ c h7) h6' k' j).trans ?_
  rw [KV.sig_congr (W2_arg6 m ρ c) h6' h6]
  exact KV.tArr_eq (a1 m c) (a2 m c) (Spec.sig (a6 m c) h6) (Spec.sig (a7 m c) h7) k' j

/-- The folded bias row. -/
theorem W3_v44 : W3 m ρ c (Proc.devRef .tc main_v44) = KV.bArr (a3 m c) (Spec.sig (a7 m c) h7) := by
  have h7' : ∀ k : Fin 1600, ((W1 m ρ c (Proc.devRef .tc main_arg7)) (ix1 k)).toNat < 1600 := by
    rw [W1_arg7]; exact h7
  refine (hostB_v44 (W1 m ρ c) h7').trans ?_
  rw [KV.sig_congr (W1_arg7 m ρ c) h7' h7, W1_arg3]
  rfl

/-! ## After the first kernel -/

/-- The activations. -/
theorem W4_v45_0 : W4 m ρ c (Proc.devRef .tc main_v45_0)
    = KV.yArr (a0 m c) (a1 m c) (a2 m c) (a3 m c) (Spec.sig (a6 m c) h6) (Spec.sig (a7 m c) h7) := by
  refine (W4_arr m ρ c 3).trans ?_
  rw [y_final, show V3 m ρ c main_v1 = _ from W3_v1 m ρ c, show V3 m ρ c main_v32 = _ from W3_v32 m ρ c h6 h7,
    show V3 m ρ c main_v44 = _ from W3_v44 m ρ c h7]
  exact KV.yArr_eq _ _ _ _ _ _
/-- Each core's column sums. -/
theorem W4_v45_1 : W4 m ρ c (Proc.devRef .tc main_v45_1)
    = KV.sArr (a0 m c) (a1 m c) (a2 m c) (a3 m c) (Spec.sig (a6 m c) h6) (Spec.sig (a7 m c) h7) := by
  refine (W4_arr m ρ c 4).trans ?_
  rw [sum_final, show V3 m ρ c main_v1 = _ from W3_v1 m ρ c, show V3 m ρ c main_v32 = _ from W3_v32 m ρ c h6 h7,
    show V3 m ρ c main_v44 = _ from W3_v44 m ρ c h7]
  exact KV.sArr_eq _ _ _ _ _ _
/-- Each core's column sums of squares. -/
theorem W4_v45_2 : W4 m ρ c (Proc.devRef .tc main_v45_2)
    = KV.qArr (a0 m c) (a1 m c) (a2 m c) (a3 m c) (Spec.sig (a6 m c) h6) (Spec.sig (a7 m c) h7) := by
  refine (W4_arr m ρ c 5).trans ?_
  rw [sq_final, show V3 m ρ c main_v1 = _ from W3_v1 m ρ c, show V3 m ρ c main_v32 = _ from W3_v32 m ρ c h6 h7,
    show V3 m ρ c main_v44 = _ from W3_v44 m ρ c h7]
  exact KV.qArr_eq _ _ _ _ _ _
/-- The first kernel only reads the flattened input. -/
theorem W4_v1 : W4 m ρ c (Proc.devRef .tc main_v1) = KV.xArr (a0 m c) :=
  (W4_arr m ρ c 0).trans (((dat0 (V3 m ρ) c).arrAt_in 0 rfl _).trans ((A_eq0 (V3 m ρ) c 0).trans (W3_v1 m ρ c)))

/-! ## Before the second kernel -/

theorem W5_v45_0 : W5 m ρ c (Proc.devRef .tc main_v45_0)
    = KV.yArr (a0 m c) (a1 m c) (a2 m c) (a3 m c) (Spec.sig (a6 m c) h6) (Spec.sig (a7 m c) h7) :=
  (W5_of m ρ c main_v45_0 (by decide)).trans (W4_v45_0 m ρ c h6 h7)
theorem W5_v1 : W5 m ρ c (Proc.devRef .tc main_v1) = KV.xArr (a0 m c) :=
  (W5_of m ρ c main_v1 (by decide)).trans (W4_v1 m ρ c)
/-- The mean row. -/
theorem W5_v67 : W5 m ρ c (Proc.devRef .tc main_v67)
    = KV.muArr (a0 m c) (a1 m c) (a2 m c) (a3 m c) (Spec.sig (a6 m c) h6) (Spec.sig (a7 m c) h7) := by
  exact (hostC_v67_of (W4 m ρ c) (W4_v45_1 m ρ c h6 h7)).trans (KV.muArr_eq _ _ _ _ _ _)
/-- The inverse-deviation row. -/
theorem W5_v68 : W5 m ρ c (Proc.devRef .tc main_v68)
    = KV.invArr (a0 m c) (a1 m c) (a2 m c) (a3 m c) (Spec.sig (a6 m c) h6) (Spec.sig (a7 m c) h7) := by
  exact (hostC_v68_of (W4 m ρ c) (W4_v45_1 m ρ c h6 h7) (W4_v45_2 m ρ c h6 h7)).trans (KV.invArr_eq _ _ _ _ _ _)
/-- The scale and shift rows. -/
theorem W5_v69 : W5 m ρ c (Proc.devRef .tc main_v69) = KV.rowArr (a4 m c) := by
  refine (hostC_v69 (W4 m ρ c)).trans ?_
  rw [W4_arg4]; rfl
theorem W5_v70 : W5 m ρ c (Proc.devRef .tc main_v70) = KV.rowArr (a5 m c) := by
  refine (hostC_v70 (W4 m ρ c)).trans ?_
  rw [W4_arg5]; rfl

/-! ## After the second kernel, and the result -/

theorem W6_v71 : W6 m ρ c (Proc.devRef .tc main_v71)
    = KV.oArr (a0 m c) (a1 m c) (a2 m c) (a3 m c) (a4 m c) (a5 m c) (Spec.sig (a6 m c) h6) (Spec.sig (a7 m c) h7) := by
  refine (W6_arr m ρ c 6).trans ?_
  rw [out_final, show V5 m ρ c main_v45_0 = _ from W5_v45_0 m ρ c h6 h7, show V5 m ρ c main_v1 = _ from W5_v1 m ρ c,
    show V5 m ρ c main_v67 = _ from W5_v67 m ρ c h6 h7, show V5 m ρ c main_v68 = _ from W5_v68 m ρ c h6 h7,
    show V5 m ρ c main_v69 = _ from W5_v69 m ρ c, show V5 m ρ c main_v70 = _ from W5_v70 m ρ c]
  exact KV.oArr_eq _ _ _ _ _ _ _ _

/-- THE VALUE: @main's result is the kernel's reading of the mathematics, at the launch arrays. -/
theorem kernel_value (c : Dev nD)
    (h6 : ∀ k : Fin 1600, ((m ((c : Thread nD τ).loc main_arg6) : Spec.SV.Idx → BitVec 32) (ix1 k)).toNat < 1600)
    (h7 : ∀ k : Fin 1600, ((m ((c : Thread nD τ).loc main_arg7) : Spec.SV.Idx → BitVec 32) (ix1 k)).toNat < 1600) :
    W7 m ρ c (Proc.devRef .tc main_v73)
      = fun i => Spec.resultK4 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (Spec.sig (m ((c : Thread nD τ).loc main_arg6)) h6)
          (Spec.sig (m ((c : Thread nD τ).loc main_arg7)) h7) (i 0) (i 1) (i 2) (i 3) := by
  refine (hostD_v73 (W6 m ρ c)).trans ?_
  rw [W6_v71 m ρ c h6 h7]
  exact KV.result_eq _ _ _ _ _ _ _ _

end Run

end Cert.KernelIdeal.Hand

end
-- ==== Proof.Ref.Run.lean ====
/-
  The reference program's run, read back by hand.

  The reference is a straight line of StableHLO operations: its @main, with the three functions it calls (the batch
  variance, the select inside it, and the final clamp at zero) executed in place on the buffers of their calls.
  Every buffer the result depends on is named here as a function of the eight argument arrays (`val_vN` for @main's
  value %N, `val_call0_vN` for the variance function's %N, `val_call0_call0_vN` for the select's, `val_call1_v0` for
  the clamp's zero tensor); `resTerm` is the result. The run: every weakly fair execution of @main terminates with the
  result buffer at `resTerm` of the launch contents of the arguments, and the arguments unchanged.
-/
import proofs.«428867_j23261542875775_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages: every value of the program as a function of the argument arrays -/

section Stages

variable (a0 : FVec F S64x64x300x25 .f32) (a1 : FVec F S1x25x64 .f32) (a2 : FVec F S64x64 .f32) (a3 : FVec F S1x1x64 .f32)
  (a4 : FVec F S1600 .f32) (a5 : FVec F S1600 .f32) (a6 : IVec S1600 32) (a7 : IVec S1600 32)

/-- %0: the input with the channel axis moved last, (n, t, v, c). -/
def val_v0 : FVec F S64x300x25x64 .f32 := transpose S64x300x25x64 [0, 2, 3, 1] a0 transposes_S64x64x300x25_S64x300x25x64_0_2_3_1
/-- %1: flattened to rows (n, t) and columns (v, c). -/
def val_v1 : FVec F S19200x1600 .f32 := shapeCast S19200x1600 (val_v0 a0) shapeCasts_S64x300x25x64_S19200x1600
/-- %2: the zero index vector the first index vector is compared with. -/
def val_v2 : IVec S1600 32 := broadcastInDim S1600 ![] bcast_S_S1600 (constantI S_ 32 0#32)
/-- %3: where the first index vector is negative. -/
def val_v3 : IVec S1600 1 := cmpi .slt a6 val_v2
/-- %4: the vector of 1600s. -/
def val_v4 : IVec S1600 32 := broadcastInDim S1600 ![] bcast_S_S1600 (constantI S_ 32 1600#32)
/-- %5: the first index vector plus 1600. -/
def val_v5 : IVec S1600 32 := addi a6 val_v4
/-- %6: the first index vector, a negative index counted from the end. -/
def val_v6 : IVec S1600 32 := select (val_v3 a6) (val_v5 a6) a6
/-- %7: the same as a column of one-element index vectors. -/
def val_v7 : IVec S1600x1 32 := broadcastInDim S1600x1 ![0] bcast_S1600_S1600x1_0 (val_v6 a6)
/-- %8: the columns gathered by the first index vector. -/
def val_v8 : FVec F S19200x1600 .f32 := Host.gather gather_S19200x1600_S1600x1_S19200x1600_0_1_n_n_1_1_192001 (val_v1 a0) (val_v7 a6)
/-- %9: the columns split into (joint, channel). -/
def val_v9 : FVec F S19200x25x64 .f32 := shapeCast S19200x25x64 (val_v8 a0 a6) shapeCasts_S19200x1600_S19200x25x64
/-- %10: tanh of the feature mask. -/
def val_v10 : FVec F S1x25x64 .f32 := Host.tanh a1
/-- %11: the tensor of ones. -/
def val_v11 : FVec F S1x25x64 .f32 := broadcastInDim S1x25x64 ![] bcast_S_S1x25x64 (constant S_ .f32 0x3F800000#32)
/-- %12: tanh(mask) + 1. -/
def val_v12 : FVec F S1x25x64 .f32 := addf (val_v10 a1) val_v11
/-- %13: the scale, repeated over the rows. -/
def val_v13 : FVec F S19200x25x64 .f32 := broadcastInDim S19200x25x64 ![0, 1, 2] bcast_S1x25x64_S19200x25x64_0_1_2 (val_v12 a1)
/-- %14: the gathered input scaled. -/
def val_v14 : FVec F S19200x25x64 .f32 := mulf (val_v9 a0 a6) (val_v13 a1)
/-- %15: the linear map applied per joint (contraction over the channel). -/
def val_v15 : FVec F S19200x25x64 .f32 := Host.dotGeneral dot_S19200x25x64_S64x64_S19200x25x64_2_0_01_1_n_n none (val_v14 a0 a1 a6) a2
/-- %16: the bias, repeated over rows and joints. -/
def val_v16 : FVec F S19200x25x64 .f32 := broadcastInDim S19200x25x64 ![0, 1, 2] bcast_S1x1x64_S19200x25x64_0_1_2 a3
/-- %17: the layer's output. -/
def val_v17 : FVec F S19200x25x64 .f32 := addf (val_v15 a0 a1 a2 a6) (val_v16 a3)
/-- %18: flattened back to 1600 columns. -/
def val_v18 : FVec F S19200x1600 .f32 := shapeCast S19200x1600 (val_v17 a0 a1 a2 a3 a6) shapeCasts_S19200x25x64_S19200x1600
/-- %19: the zero index vector the second index vector is compared with. -/
def val_v19 : IVec S1600 32 := broadcastInDim S1600 ![] bcast_S_S1600 (constantI S_ 32 0#32)
/-- %20: where the second index vector is negative. -/
def val_v20 : IVec S1600 1 := cmpi .slt a7 val_v19
/-- %21: the vector of 1600s. -/
def val_v21 : IVec S1600 32 := broadcastInDim S1600 ![] bcast_S_S1600 (constantI S_ 32 1600#32)
/-- %22: the second index vector plus 1600. -/
def val_v22 : IVec S1600 32 := addi a7 val_v21
/-- %23: the second index vector, a negative index counted from the end. -/
def val_v23 : IVec S1600 32 := select (val_v20 a7) (val_v22 a7) a7
/-- %24: the same as a column of one-element index vectors. -/
def val_v24 : IVec S1600x1 32 := broadcastInDim S1600x1 ![0] bcast_S1600_S1600x1_0 (val_v23 a7)
/-- %25: the activations before normalisation: the layer's output, its columns gathered by the second index vector. -/
def val_v25 : FVec F S19200x1600 .f32 := Host.gather gather_S19200x1600_S1600x1_S19200x1600_0_1_n_n_1_1_192001 (val_v18 a0 a1 a2 a3 a6) (val_v24 a7)
/-- %26: the column sums. -/
def val_v26 : FVec F S1600 .f32 := Host.reduceAdd (val_v25 a0 a1 a2 a3 a6 a7) (constant S_ .f32 0x00000000#32) reducesTo_S19200x1600_S1600_d0 h_S_
/-- %27: the vector of 19200s. -/
def val_v27 : FVec F S1600 .f32 := broadcastInDim S1600 ![] bcast_S_S1600 (constant S_ .f32 0x46960000#32)
/-- %28: the column means. -/
def val_v28 : FVec F S1600 .f32 := Host.divf (val_v26 a0 a1 a2 a3 a6 a7) val_v27

/-! The variance function, on %25 and the integer 0 (the correction). -/

/-- its %0: the column sums. -/
def val_call0_v0 : FVec F S1600 .f32 := Host.reduceAdd (val_v25 a0 a1 a2 a3 a6 a7) (constant S_ .f32 0x00000000#32) reducesTo_S19200x1600_S1600_d0 h_S_
/-- its %1: the same as one row. -/
def val_call0_v1 : FVec F S1x1600 .f32 := broadcastInDim S1x1600 ![1] bcast_S1600_S1x1600_1 (val_call0_v0 a0 a1 a2 a3 a6 a7)
/-- its %2: the row of 19200s. -/
def val_call0_v2 : FVec F S1x1600 .f32 := broadcastInDim S1x1600 ![] bcast_S_S1x1600 (constant S_ .f32 0x46960000#32)
/-- its %3: the column means as one row. -/
def val_call0_v3 : FVec F S1x1600 .f32 := Host.divf (val_call0_v1 a0 a1 a2 a3 a6 a7) val_call0_v2
/-- its %4: the means repeated over the rows. -/
def val_call0_v4 : FVec F S19200x1600 .f32 := broadcastInDim S19200x1600 ![0, 1] bcast_S1x1600_S19200x1600_0_1 (val_call0_v3 a0 a1 a2 a3 a6 a7)
/-- its %5: the deviations from the column means. -/
def val_call0_v5 : FVec F S19200x1600 .f32 := subf (val_v25 a0 a1 a2 a3 a6 a7) (val_call0_v4 a0 a1 a2 a3 a6 a7)
/-- its %6: the squared deviations. -/
def val_call0_v6 : FVec F S19200x1600 .f32 := mulf (val_call0_v5 a0 a1 a2 a3 a6 a7) (val_call0_v5 a0 a1 a2 a3 a6 a7)
/-- its %7: the correction 0 as a float. -/
def val_call0_v7 : FVec F S_ .f32 := sitofp (F := F) .f32 (constantI S_ 32 0#32)
/-- its %8: the divisor 19200 − 0. -/
def val_call0_v8 : FVec F S_ .f32 := subf (constant S_ .f32 0x46960000#32) val_call0_v7
/-- its %9: the column sums of the squared deviations. -/
def val_call0_v9 : FVec F S1600 .f32 := Host.reduceAdd (val_call0_v6 a0 a1 a2 a3 a6 a7) (constant S_ .f32 0x00000000#32) reducesTo_S19200x1600_S1600_d0 h_S_
/-- its %10: the divisor repeated over the columns. -/
def val_call0_v10 : FVec F S1600 .f32 := broadcastInDim S1600 ![] bcast_S_S1600 (val_call0_v8 (F := F))
/-- its %11: the quotient. -/
def val_call0_v11 : FVec F S1600 .f32 := Host.divf (val_call0_v9 a0 a1 a2 a3 a6 a7) (val_call0_v10 (F := F))
/-- its %12: whether the divisor is positive. -/
def val_call0_v12 : IVec S_ 1 := cmpf (F := F) .ogt (val_call0_v8 (F := F)) (constant S_ .f32 0x00000000#32)
/-- the select's %0: the not-a-number constant, converted to its own type. -/
def val_call0_call0_v0 : FVec F S_ .f32 := id (constant S_ .f32 0x7FC00000#32)
/-- the select's %1: the same repeated over the columns. -/
def val_call0_call0_v1 : FVec F S1600 .f32 := broadcastInDim S1600 ![] bcast_S_S1600 (val_call0_call0_v0 (F := F))
/-- %29: the batch variance: the quotient where the divisor is positive, the not-a-number constant elsewhere. -/
def val_v29 : FVec F S1600 .f32 :=
  select (broadcastInDim S1600 ![] bcast_S_S1600 (val_call0_v12 (F := F))) (val_call0_v11 a0 a1 a2 a3 a6 a7) (val_call0_call0_v1 (F := F))

/-- %30: the column means as one row. -/
def val_v30 : FVec F S1x1600 .f32 := broadcastInDim S1x1600 ![1] bcast_S1600_S1x1600_1 (val_v28 a0 a1 a2 a3 a6 a7)
/-- %31: the means repeated over the rows. -/
def val_v31 : FVec F S19200x1600 .f32 := broadcastInDim S19200x1600 ![0, 1] bcast_S1x1600_S19200x1600_0_1 (val_v30 a0 a1 a2 a3 a6 a7)
/-- %32: the centred activations. -/
def val_v32 : FVec F S19200x1600 .f32 := subf (val_v25 a0 a1 a2 a3 a6 a7) (val_v31 a0 a1 a2 a3 a6 a7)
/-- %33: the variance offset repeated over the columns. -/
def val_v33 : FVec F S1600 .f32 := broadcastInDim S1600 ![] bcast_S_S1600 (constant S_ .f32 0x3727C5AC#32)
/-- %34: variance plus offset. -/
def val_v34 : FVec F S1600 .f32 := addf (val_v29 a0 a1 a2 a3 a6 a7) val_v33
/-- %35: its reciprocal square root. -/
def val_v35 : FVec F S1600 .f32 := Host.rsqrt (val_v34 a0 a1 a2 a3 a6 a7)
/-- %36: as one row. -/
def val_v36 : FVec F S1x1600 .f32 := broadcastInDim S1x1600 ![1] bcast_S1600_S1x1600_1 (val_v35 a0 a1 a2 a3 a6 a7)
/-- %37: repeated over the rows. -/
def val_v37 : FVec F S19200x1600 .f32 := broadcastInDim S19200x1600 ![0, 1] bcast_S1x1600_S19200x1600_0_1 (val_v36 a0 a1 a2 a3 a6 a7)
/-- %38: the normalised activations. -/
def val_v38 : FVec F S19200x1600 .f32 := mulf (val_v32 a0 a1 a2 a3 a6 a7) (val_v37 a0 a1 a2 a3 a6 a7)
/-- %39: the scale as one row. -/
def val_v39 : FVec F S1x1600 .f32 := broadcastInDim S1x1600 ![1] bcast_S1600_S1x1600_1 a4
/-- %40: repeated over the rows. -/
def val_v40 : FVec F S19200x1600 .f32 := broadcastInDim S19200x1600 ![0, 1] bcast_S1x1600_S19200x1600_0_1 (val_v39 a4)
/-- %41: scaled. -/
def val_v41 : FVec F S19200x1600 .f32 := mulf (val_v38 a0 a1 a2 a3 a6 a7) (val_v40 a4)
/-- %42: the shift as one row. -/
def val_v42 : FVec F S1x1600 .f32 := broadcastInDim S1x1600 ![1] bcast_S1600_S1x1600_1 a5
/-- %43: repeated over the rows. -/
def val_v43 : FVec F S19200x1600 .f32 := broadcastInDim S19200x1600 ![0, 1] bcast_S1x1600_S19200x1600_0_1 (val_v42 a5)
/-- %44: shifted. -/
def val_v44 : FVec F S19200x1600 .f32 := addf (val_v41 a0 a1 a2 a3 a4 a6 a7) (val_v43 a5)
/-- %45: split back into (n, t, v, d). -/
def val_v45 : FVec F S64x300x25x64 .f32 := shapeCast S64x300x25x64 (val_v44 a0 a1 a2 a3 a4 a5 a6 a7) shapeCasts_S19200x1600_S64x300x25x64
/-- %46: the channel axis moved back, (n, d, t, v). -/
def val_v46 : FVec F S64x64x300x25 .f32 := transpose S64x64x300x25 [0, 3, 1, 2] (val_v45 a0 a1 a2 a3 a4 a5 a6 a7) transposes_S64x300x25x64_S64x64x300x25_0_3_1_2
/-- %47: plus the input. -/
def val_v47 : FVec F S64x64x300x25 .f32 := addf (val_v46 a0 a1 a2 a3 a4 a5 a6 a7) a0
/-- the clamp's %0: the zero tensor. -/
def val_call1_v0 : FVec F S64x64x300x25 .f32 := broadcastInDim S64x64x300x25 ![] bcast_S_S64x64x300x25 (constant S_ .f32 0x00000000#32)
/-- %48: the result, clamped at zero from below. -/
def val_v48 : FVec F S64x64x300x25 .f32 := maximumf (val_v47 a0 a1 a2 a3 a4 a5 a6 a7) val_call1_v0

/-- The reference's result as a function of its eight arguments. -/
def resTerm : FVec F S64x64x300x25 .f32 := val_v48 a0 a1 a2 a3 a4 a5 a6 a7

end Stages

/-! ## The program as a list of operations -/

/-- @main's first 37 operations: up to the column means %28 and the variance function's integer operand. -/
abbrev opsA : List (HloOp τ sig (Elt F)) :=
  [ unary main_arg0 main_v0 ((transpose S64x300x25x64 [0, 2, 3, 1] · transposes_S64x64x300x25_S64x300x25x64_0_2_3_1) : (⟨S64x64x300x25, .f32⟩ : BufTy).Contents (Elt F) → (⟨S64x300x25x64, .f32⟩ : BufTy).Contents (Elt F)),
    reshape main_v0 main_v1 rfl shapeCasts_S64x300x25x64_S19200x1600,
    nullary main_c (constantI S_ 32 0#32),
    unary main_c main_v2 (broadcastInDim S1600 ![] bcast_S_S1600 : (⟨S_, .i32⟩ : BufTy).Contents (Elt F) → (⟨S1600, .i32⟩ : BufTy).Contents (Elt F)),
    binary main_arg6 main_v2 main_v3 (cmpi .slt : (⟨S1600, .i32⟩ : BufTy).Contents (Elt F) → (⟨S1600, .i32⟩ : BufTy).Contents (Elt F) → (⟨S1600, .i1⟩ : BufTy).Contents (Elt F)),
    nullary main_c_0 (constantI S_ 32 1600#32),
    unary main_c_0 main_v4 (broadcastInDim S1600 ![] bcast_S_S1600 : (⟨S_, .i32⟩ : BufTy).Contents (Elt F) → (⟨S1600, .i32⟩ : BufTy).Contents (Elt F)),
    binary main_arg6 main_v4 main_v5 (addi : (⟨S1600, .i32⟩ : BufTy).Contents (Elt F) → (⟨S1600, .i32⟩ : BufTy).Contents (Elt F) → (⟨S1600, .i32⟩ : BufTy).Contents (Elt F)),
    ternary main_v3 main_v5 main_arg6 main_v6 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v6 main_v7 (broadcastInDim S1600x1 ![0] bcast_S1600_S1600x1_0 : (⟨S1600, .i32⟩ : BufTy).Contents (Elt F) → (⟨S1600x1, .i32⟩ : BufTy).Contents (Elt F)),
    binary main_v1 main_v7 main_v8 ((fun x i => Host.gather gather_S19200x1600_S1600x1_S19200x1600_0_1_n_n_1_1_192001 x i) : (⟨S19200x1600, .f32⟩ : BufTy).Contents (Elt F) → (⟨S1600x1, .i32⟩ : BufTy).Contents (Elt F) → (⟨S19200x1600, .f32⟩ : BufTy).Contents (Elt F)),
    reshape main_v8 main_v9 rfl shapeCasts_S19200x1600_S19200x25x64,
    unary main_arg1 main_v10 (Host.tanh : (⟨S1x25x64, .f32⟩ : BufTy).Contents (Elt F) → (⟨S1x25x64, .f32⟩ : BufTy).Contents (Elt F)),
    nullary main_cst (constant S_ .f32 0x3F800000#32),
    unary main_cst main_v11 (broadcastInDim S1x25x64 ![] bcast_S_S1x25x64 : (⟨S_, .f32⟩ : BufTy).Contents (Elt F) → (⟨S1x25x64, .f32⟩ : BufTy).Contents (Elt F)),
    binary main_v10 main_v11 main_v12 (addf : (⟨S1x25x64, .f32⟩ : BufTy).Contents (Elt F) → (⟨S1x25x64, .f32⟩ : BufTy).Contents (Elt F) → (⟨S1x25x64, .f32⟩ : BufTy).Contents (Elt F)),
    unary main_v12 main_v13 (broadcastInDim S19200x25x64 ![0, 1, 2] bcast_S1x25x64_S19200x25x64_0_1_2 : (⟨S1x25x64, .f32⟩ : BufTy).Contents (Elt F) → (⟨S19200x25x64, .f32⟩ : BufTy).Contents (Elt F)),
    binary main_v9 main_v13 main_v14 (mulf : (⟨S19200x25x64, .f32⟩ : BufTy).Contents (Elt F) → (⟨S19200x25x64, .f32⟩ : BufTy).Contents (Elt F) → (⟨S19200x25x64, .f32⟩ : BufTy).Contents (Elt F)),
    binary main_v14 main_arg2 main_v15 ((fun l r => Host.dotGeneral dot_S19200x25x64_S64x64_S19200x25x64_2_0_01_1_n_n none l r) : (⟨S19200x25x64, .f32⟩ : BufTy).Contents (Elt F) → (⟨S64x64, .f32⟩ : BufTy).Contents (Elt F) → (⟨S19200x25x64, .f32⟩ : BufTy).Contents (Elt F)),
    unary main_arg3 main_v16 (broadcastInDim S19200x25x64 ![0, 1, 2] bcast_S1x1x64_S19200x25x64_0_1_2 : (⟨S1x1x64, .f32⟩ : BufTy).Contents (Elt F) → (⟨S19200x25x64, .f32⟩ : BufTy).Contents (Elt F)),
    binary main_v15 main_v16 main_v17 (addf : (⟨S19200x25x64, .f32⟩ : BufTy).Contents (Elt F) → (⟨S19200x25x64, .f32⟩ : BufTy).Contents (Elt F) → (⟨S19200x25x64, .f32⟩ : BufTy).Contents (Elt F)),
    reshape main_v17 main_v18 rfl shapeCasts_S19200x25x64_S19200x1600,
    nullary main_c_1 (constantI S_ 32 0#32),
    unary main_c_1 main_v19 (broadcastInDim S1600 ![] bcast_S_S1600 : (⟨S_, .i32⟩ : BufTy).Contents (Elt F) → (⟨S1600, .i32⟩ : BufTy).Contents (Elt F)),
    binary main_arg7 main_v19 main_v20 (cmpi .slt : (⟨S1600, .i32⟩ : BufTy).Contents (Elt F) → (⟨S1600, .i32⟩ : BufTy).Contents (Elt F) → (⟨S1600, .i1⟩ : BufTy).Contents (Elt F)),
    nullary main_c_2 (constantI S_ 32 1600#32),
    unary main_c_2 main_v21 (broadcastInDim S1600 ![] bcast_S_S1600 : (⟨S_, .i32⟩ : BufTy).Contents (Elt F) → (⟨S1600, .i32⟩ : BufTy).Contents (Elt F)),
    binary main_arg7 main_v21 main_v22 (addi : (⟨S1600, .i32⟩ : BufTy).Contents (Elt F) → (⟨S1600, .i32⟩ : BufTy).Contents (Elt F) → (⟨S1600, .i32⟩ : BufTy).Contents (Elt F)),
    ternary main_v20 main_v22 main_arg7 main_v23 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v23 main_v24 (broadcastInDim S1600x1 ![0] bcast_S1600_S1600x1_0 : (⟨S1600, .i32⟩ : BufTy).Contents (Elt F) → (⟨S1600x1, .i32⟩ : BufTy).Contents (Elt F)),
    binary main_v18 main_v24 main_v25 ((fun x i => Host.gather gather_S19200x1600_S1600x1_S19200x1600_0_1_n_n_1_1_192001 x i) : (⟨S19200x1600, .f32⟩ : BufTy).Contents (Elt F) → (⟨S1600x1, .i32⟩ : BufTy).Contents (Elt F) → (⟨S19200x1600, .f32⟩ : BufTy).Contents (Elt F)),
    nullary main_cst_3 (constant S_ .f32 0x00000000#32),
    binary main_v25 main_cst_3 main_v26 ((fun x v => Host.reduceAdd x v reducesTo_S19200x1600_S1600_d0 h_S_) : (⟨S19200x1600, .f32⟩ : BufTy).Contents (Elt F) → (⟨S_, .f32⟩ : BufTy).Contents (Elt F) → (⟨S1600, .f32⟩ : BufTy).Contents (Elt F)),
    nullary main_cst_4 (constant S_ .f32 0x46960000#32),
    unary main_cst_4 main_v27 (broadcastInDim S1600 ![] bcast_S_S1600 : (⟨S_, .f32⟩ : BufTy).Contents (Elt F) → (⟨S1600, .f32⟩ : BufTy).Contents (Elt F)),
    binary main_v26 main_v27 main_v28 (Host.divf : (⟨S1600, .f32⟩ : BufTy).Contents (Elt F) → (⟨S1600, .f32⟩ : BufTy).Contents (Elt F) → (⟨S1600, .f32⟩ : BufTy).Contents (Elt F)),
    nullary main_c_5 (constantI S_ 32 0#32) ]

/-- The variance function's 19 operations on %25 and the integer 0, then the 3 of the select it calls, on the buffers of those calls. -/
abbrev opsB : List (HloOp τ sig (Elt F)) :=
  [ TRef.nullary main_call0.cst (constant S_ .f32 0x00000000#32),
    TRef.binary (.of main_v25) main_call0.cst main_call0.v0 (fun x v => Host.reduceAdd x v reducesTo_S19200x1600_S1600_d0 h_S_),
    TRef.unary main_call0.v0 main_call0.v1 (broadcastInDim S1x1600 ![1] bcast_S1600_S1x1600_1),
    TRef.nullary main_call0.cst_0 (constant S_ .f32 0x46960000#32),
    TRef.unary main_call0.cst_0 main_call0.v2 (broadcastInDim S1x1600 ![] bcast_S_S1x1600),
    TRef.binary main_call0.v1 main_call0.v2 main_call0.v3 Host.divf,
    TRef.unary main_call0.v3 main_call0.v4 (broadcastInDim S19200x1600 ![0, 1] bcast_S1x1600_S19200x1600_0_1),
    TRef.binary (.of main_v25) main_call0.v4 main_call0.v5 subf,
    TRef.binary main_call0.v5 main_call0.v5 main_call0.v6 mulf,
    TRef.unary (.of main_c_5) main_call0.v7 (sitofp .f32),
    TRef.nullary main_call0.cst_1 (constant S_ .f32 0x46960000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S19200x1600_S1600_d0 h_S_),
    TRef.unary main_call0.v8 main_call0.v10 (broadcastInDim S1600 ![] bcast_S_S1600),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S1600 ![] bcast_S_S1600),
    TRef.ternary main_call0.v12 main_call0.v11 main_call0.call0.v1 main_call0.call0.v2 (fun p a b => select (broadcastInDim S1600 ![] bcast_S_S1600 p) a b) ]

/-- @main's remaining 19 operations, then the 3 of the clamp it calls. -/
abbrev opsC : List (HloOp τ sig (Elt F)) :=
  [ unary main_v28 main_v30 (broadcastInDim S1x1600 ![1] bcast_S1600_S1x1600_1 : (⟨S1600, .f32⟩ : BufTy).Contents (Elt F) → (⟨S1x1600, .f32⟩ : BufTy).Contents (Elt F)),
    unary main_v30 main_v31 (broadcastInDim S19200x1600 ![0, 1] bcast_S1x1600_S19200x1600_0_1 : (⟨S1x1600, .f32⟩ : BufTy).Contents (Elt F) → (⟨S19200x1600, .f32⟩ : BufTy).Contents (Elt F)),
    binary main_v25 main_v31 main_v32 (subf : (⟨S19200x1600, .f32⟩ : BufTy).Contents (Elt F) → (⟨S19200x1600, .f32⟩ : BufTy).Contents (Elt F) → (⟨S19200x1600, .f32⟩ : BufTy).Contents (Elt F)),
    nullary main_cst_6 (constant S_ .f32 0x3727C5AC#32),
    unary main_cst_6 main_v33 (broadcastInDim S1600 ![] bcast_S_S1600 : (⟨S_, .f32⟩ : BufTy).Contents (Elt F) → (⟨S1600, .f32⟩ : BufTy).Contents (Elt F)),
    binary main_v29 main_v33 main_v34 (addf : (⟨S1600, .f32⟩ : BufTy).Contents (Elt F) → (⟨S1600, .f32⟩ : BufTy).Contents (Elt F) → (⟨S1600, .f32⟩ : BufTy).Contents (Elt F)),
    unary main_v34 main_v35 (Host.rsqrt : (⟨S1600, .f32⟩ : BufTy).Contents (Elt F) → (⟨S1600, .f32⟩ : BufTy).Contents (Elt F)),
    unary main_v35 main_v36 (broadcastInDim S1x1600 ![1] bcast_S1600_S1x1600_1 : (⟨S1600, .f32⟩ : BufTy).Contents (Elt F) → (⟨S1x1600, .f32⟩ : BufTy).Contents (Elt F)),
    unary main_v36 main_v37 (broadcastInDim S19200x1600 ![0, 1] bcast_S1x1600_S19200x1600_0_1 : (⟨S1x1600, .f32⟩ : BufTy).Contents (Elt F) → (⟨S19200x1600, .f32⟩ : BufTy).Contents (Elt F)),
    binary main_v32 main_v37 main_v38 (mulf : (⟨S19200x1600, .f32⟩ : BufTy).Contents (Elt F) → (⟨S19200x1600, .f32⟩ : BufTy).Contents (Elt F) → (⟨S19200x1600, .f32⟩ : BufTy).Contents (Elt F)),
    unary main_arg4 main_v39 (broadcastInDim S1x1600 ![1] bcast_S1600_S1x1600_1 : (⟨S1600, .f32⟩ : BufTy).Contents (Elt F) → (⟨S1x1600, .f32⟩ : BufTy).Contents (Elt F)),
    unary main_v39 main_v40 (broadcastInDim S19200x1600 ![0, 1] bcast_S1x1600_S19200x1600_0_1 : (⟨S1x1600, .f32⟩ : BufTy).Contents (Elt F) → (⟨S19200x1600, .f32⟩ : BufTy).Contents (Elt F)),
    binary main_v38 main_v40 main_v41 (mulf : (⟨S19200x1600, .f32⟩ : BufTy).Contents (Elt F) → (⟨S19200x1600, .f32⟩ : BufTy).Contents (Elt F) → (⟨S19200x1600, .f32⟩ : BufTy).Contents (Elt F)),
    unary main_arg5 main_v42 (broadcastInDim S1x1600 ![1] bcast_S1600_S1x1600_1 : (⟨S1600, .f32⟩ : BufTy).Contents (Elt F) → (⟨S1x1600, .f32⟩ : BufTy).Contents (Elt F)),
    unary main_v42 main_v43 (broadcastInDim S19200x1600 ![0, 1] bcast_S1x1600_S19200x1600_0_1 : (⟨S1x1600, .f32⟩ : BufTy).Contents (Elt F) → (⟨S19200x1600, .f32⟩ : BufTy).Contents (Elt F)),
    binary main_v41 main_v43 main_v44 (addf : (⟨S19200x1600, .f32⟩ : BufTy).Contents (Elt F) → (⟨S19200x1600, .f32⟩ : BufTy).Contents (Elt F) → (⟨S19200x1600, .f32⟩ : BufTy).Contents (Elt F)),
    reshape main_v44 main_v45 rfl shapeCasts_S19200x1600_S64x300x25x64,
    unary main_v45 main_v46 ((transpose S64x64x300x25 [0, 3, 1, 2] · transposes_S64x300x25x64_S64x64x300x25_0_3_1_2) : (⟨S64x300x25x64, .f32⟩ : BufTy).Contents (Elt F) → (⟨S64x64x300x25, .f32⟩ : BufTy).Contents (Elt F)),
    binary main_v46 main_arg0 main_v47 (addf : (⟨S64x64x300x25, .f32⟩ : BufTy).Contents (Elt F) → (⟨S64x64x300x25, .f32⟩ : BufTy).Contents (Elt F) → (⟨S64x64x300x25, .f32⟩ : BufTy).Contents (Elt F)),
    TRef.nullary main_call1.cst (constant S_ .f32 0x00000000#32),
    TRef.unary main_call1.cst main_call1.v0 (broadcastInDim S64x64x300x25 ![] bcast_S_S64x64x300x25),
    TRef.binary (.of main_v47) main_call1.v0 main_call1.v1 maximumf ]

/-- @main's 81 operations in order, the called functions' bodies in place. -/
abbrev ops : List (HloOp τ sig (Elt F)) := opsA ++ (opsB ++ opsC)

set_option maxRecDepth 8192 in
set_option maxHeartbeats 4000000 in
/-- @main is that straight line: the called functions' bodies unfold at their calls and sequencing reassociates, all by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., nullary_bufs_sub .., unary_bufs_sub .., binary_bufs_sub .., unary_bufs_sub .., binary_bufs_sub .., binary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub ..⟩

set_option maxRecDepth 8192 in
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h, List.forall_iff_forall_mem.mp opsC_sub op h]

/-! ## The contents after each stretch -/

/-- The buffers the stretch writes. -/
abbrev opsA_W : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_c_1, main_v19, main_v20, main_c_2, main_v21, main_v22, main_v23, main_v24, main_v25, main_cst_3, main_v26, main_cst_4, main_v27, main_v28, main_c_5]
set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsA_keep (V : Valuation τ sig (Elt F)) (r : Ref sig .tc) (h : r ∉ opsA_W) :
    after opsA V (Proc.devRef .tc r) = V (Proc.devRef .tc r) :=
  after_of_writes_sub opsA _ opsA_writes h

/-- The buffers the stretch writes. -/
abbrev opsB_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v29]
set_option maxRecDepth 8192 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsB_keep (V : Valuation τ sig (Elt F)) (r : Ref sig .tc) (h : r ∉ opsB_W) :
    after opsB V (Proc.devRef .tc r) = V (Proc.devRef .tc r) :=
  after_of_writes_sub opsB _ opsB_writes h

/-- The buffers the stretch writes. -/
abbrev opsC_W : List (Ref sig .tc) := [main_v30, main_v31, main_v32, main_cst_6, main_v33, main_v34, main_v35, main_v36, main_v37, main_v38, main_v39, main_v40, main_v41, main_v42, main_v43, main_v44, main_v45, main_v46, main_v47, main_call1_cst, main_call1_v0, main_v48]
set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsC_keep (V : Valuation τ sig (Elt F)) (r : Ref sig .tc) (h : r ∉ opsC_W) :
    after opsC V (Proc.devRef .tc r) = V (Proc.devRef .tc r) :=
  after_of_writes_sub opsC _ opsC_writes h

section Values

variable (V : Valuation τ sig (Elt F))

set_option maxRecDepth 8192 in
set_option maxHeartbeats 4000000 in
/-- After the first stretch the pre-normalisation activations %25 are at their stage. -/
theorem opsA_v25 : after opsA V (Proc.devRef .tc main_v25) = val_v25 (V (Proc.devRef .tc main_arg0)) (V (Proc.devRef .tc main_arg1)) (V (Proc.devRef .tc main_arg2)) (V (Proc.devRef .tc main_arg3)) (V (Proc.devRef .tc main_arg6)) (V (Proc.devRef .tc main_arg7)) := by
  simp only [opsA]
  after_results_simp
  rfl

set_option maxRecDepth 8192 in
set_option maxHeartbeats 4000000 in
/-- After the first stretch the column means %28 are at their stage. -/
theorem opsA_v28 : after opsA V (Proc.devRef .tc main_v28) = val_v28 (V (Proc.devRef .tc main_arg0)) (V (Proc.devRef .tc main_arg1)) (V (Proc.devRef .tc main_arg2)) (V (Proc.devRef .tc main_arg3)) (V (Proc.devRef .tc main_arg6)) (V (Proc.devRef .tc main_arg7)) := by
  simp only [opsA]
  after_results_simp
  rfl

set_option maxRecDepth 8192 in
set_option maxHeartbeats 4000000 in
/-- After the first stretch the variance function's integer operand is 0. -/
theorem opsA_c_5 : after opsA V (Proc.devRef .tc main_c_5) = constantI S_ 32 0#32 := by
  simp only [opsA]
  after_results_simp

section
variable (a0 : FVec F S64x64x300x25 .f32) (a1 : FVec F S1x25x64 .f32) (a2 : FVec F S64x64 .f32) (a3 : FVec F S1x1x64 .f32)
  (a4 : FVec F S1600 .f32) (a5 : FVec F S1600 .f32) (a6 : IVec S1600 32) (a7 : IVec S1600 32)

set_option maxRecDepth 8192 in
set_option maxHeartbeats 4000000 in
/-- The second stretch (the variance function and its select), from contents holding %25 and the integer 0 at their
    stages, leaves the batch variance %29 at its stage: each typed reference's transport of contents is the identity. -/
theorem opsB_v29 (h25 : V (Proc.devRef .tc main_v25) = val_v25 a0 a1 a2 a3 a6 a7) (hc5 : V (Proc.devRef .tc main_c_5) = constantI S_ 32 0#32) :
    after opsB V (Proc.devRef .tc main_v29) = val_v29 a0 a1 a2 a3 a6 a7 := by
  simp only [opsB]
  after_results_simp
  simp only [h25, hc5]
  rfl

set_option maxRecDepth 8192 in
set_option maxHeartbeats 4000000 in
/-- The last stretch, from contents holding %25, %28, %29 at their stages and the input, scale and shift, leaves the
    result %48 at its stage. -/
theorem opsC_v48 (h25 : V (Proc.devRef .tc main_v25) = val_v25 a0 a1 a2 a3 a6 a7) (h28 : V (Proc.devRef .tc main_v28) = val_v28 a0 a1 a2 a3 a6 a7)
    (h29 : V (Proc.devRef .tc main_v29) = val_v29 a0 a1 a2 a3 a6 a7) (h0 : V (Proc.devRef .tc main_arg0) = a0)
    (h4 : V (Proc.devRef .tc main_arg4) = a4) (h5 : V (Proc.devRef .tc main_arg5) = a5) :
    after opsC V (Proc.devRef .tc main_v48) = val_v48 a0 a1 a2 a3 a4 a5 a6 a7 := by
  simp only [opsC]
  after_results_simp
  simp only [h25, h28, h29, h0, h4, h5]
  rfl

end

/-- The whole line leaves the result buffer at `resTerm` of the arguments' contents. -/
theorem ops_v48 : after ops V (Proc.devRef .tc main_v48) = resTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [ops, after_append]
  exact opsC_v48 _ _ _ _ _ _ _ _ _
    ((opsB_keep _ main_v25 (by decide)).trans (opsA_v25 V))
    ((opsB_keep _ main_v28 (by decide)).trans (opsA_v28 V))
    (opsB_v29 _ _ _ _ _ _ _ (opsA_v25 V) (opsA_c_5 V))
    ((opsB_keep _ main_arg0 (by decide)).trans (opsA_keep V main_arg0 (by decide)))
    ((opsB_keep _ main_arg4 (by decide)).trans (opsA_keep V main_arg4 (by decide)))
    ((opsB_keep _ main_arg5 (by decide)).trans (opsA_keep V main_arg5 (by decide)))

/-- A buffer no stretch writes keeps its contents through the whole line. -/
theorem ops_keep (r : Ref sig .tc) (hA : r ∉ opsA_W) (hB : r ∉ opsB_W) (hC : r ∉ opsC_W) :
    after ops V (Proc.devRef .tc r) = V (Proc.devRef .tc r) := by
  simp only [ops, after_append]
  exact ((opsC_keep _ r hC).trans (opsB_keep _ r hB)).trans (opsA_keep V r hA)

end Values

/-! ## The run -/

set_option maxRecDepth 8192 in
set_option maxHeartbeats 4000000 in
/-- On every device, for any float values, from any memory with zero counters: every weakly fair execution of
    @main terminates with the result at `resTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = resTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v48).trans (ops_v48 _),
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide)),
      (h c main_arg7).trans (ops_keep _ main_arg7 (by decide) (by decide) (by decide))⟩)
    (run_seq scopedRefs_eq scopedSems_eq defs main (fun _ => ops) main_eq (fun _ => ops_sub) m ρ)

end Cert.ReferenceIdeal.Hand

end
-- ==== Proof.Ref.ValueLemmas.lean ====
/-
  The reference's operations read at one index, stated over variables of the literal array types.

  Rows r < 19200 = 64·300 are (sample, frame) pairs, r = n·300 + t; columns k < 1600 = 25·64 are (joint, channel)
  pairs, k = v·64 + c. An index word w with w.toNat < 1600 is not negative as a signed integer and is below the
  clamp 1599, so the index normalisation and the gather's clamp both leave it as it is.
-/
import proofs.«428867_j23261542875775_2_alg».proof.ReferenceIdeal
import proofs.«428867_j23261542875775_2_alg».proof.Proof.Spec
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

namespace Cert.ReferenceIdeal.ValueLemmas

open Idealize.ShloMosaic Idealize.ShloMosaic.ValueIdx Idealize.ShloMosaic.StableHlo.Predicate
open Cert.ReferenceIdeal Cert.ReferenceIdeal.Facts₀
open scoped BigOperators

variable [Facts₀]

/-! ## Index words in [0, 1600) -/

/-- A word below 1600 is not below zero as a signed integer. -/
theorem slt_zero_eq (w : BitVec 32) (h : w.toNat < 1600) : IntOp.cmpi .slt w 0#32 = 0#1 := by
  refine eq_zero_of_ne_one fun e => ?_
  have h0 : w.toNat < (0#32 : BitVec 32).toNat := (slt_iff_toNat (a := w) (b := 0#32) (by omega) (by decide)).mp e
  exact Nat.not_lt_zero _ h0

/-- Read as a signed integer and clamped into [0, 1599], a word below 1600 is its own value. -/
theorem clamp_eq (w : BitVec 32) (h : w.toNat < 1600) : min w.toInt.toNat (1600 - 1) = w.toNat := by
  rw [toInt_eq_toNat_of_lt (a := w) (by omega), Int.toNat_natCast]
  omega

/-- The index normalisation where(s < 0, s + 1600, s) at a word in [0, 1600): the word itself. -/
theorem normIdx_apply (s : IVec S1600 32) (k : Fin 1600) (h : (s (ix1 k)).toNat < 1600) :
    select (cmpi .slt s (broadcastInDim S1600 ![] bcast_S_S1600 (constantI S_ 32 0#32)))
      (addi s (broadcastInDim S1600 ![] bcast_S_S1600 (constantI S_ 32 1600#32))) s (ix1 k) = s (ix1 k) := by
  rw [select_apply]
  show Scalar.select (IntOp.cmpi .slt (s (ix1 k)) (broadcastInDim S1600 ![] bcast_S_S1600 (constantI S_ 32 0#32) (ix1 k))) _ _ = _
  rw [broadcastInDim_scalar_apply]
  show Scalar.select (IntOp.cmpi .slt (s (ix1 k)) 0#32) _ _ = _
  rw [slt_zero_eq _ h, select_zero]

/-- The index vector as a one-column array: entry (j, 0) is entry j. -/
theorem idxCol_apply {α : Type} (s : S1600.Idx → α) (j : Fin 1600) (u : Fin 1) :
    broadcastInDim S1600x1 ![0] bcast_S1600_S1600x1_0 s (ix2 j u) = s (ix1 j) := by
  refine broadcastInDim_apply _ _ s _ (ix1 j) fun a => ?_
  match a with
  | ⟨0, _⟩ => rfl

/-! ## The column gather x[:, idx] -/

/-- Result (r, j) of the column gather is the operand at row r and at the column the start index (j, 0) names,
    read signed and clamped into [0, 1599]. -/
theorem gatherCol_apply {α : Type} (x : S19200x1600.Idx → α) (idx : IVec S1600x1 32) (r : Fin 19200) (j : Fin 1600) :
    Host.gather gather_S19200x1600_S1600x1_S19200x1600_0_1_n_n_1_1_192001 x idx (ix2 r j)
      = x (ix2 r (⟨min (idx (ix2 j (0 : Fin 1))).toInt.toNat (1600 - 1), by omega⟩ : Fin 1600)) := by
  unfold Host.gather
  refine congrArg x (funext fun a => Fin.ext ?_)
  match a with
  | ⟨0, _⟩ =>
    show gather_S19200x1600_S1600x1_S19200x1600_0_1_n_n_1_1_192001.start (ix2 r j) idx 0 + gather_S19200x1600_S1600x1_S19200x1600_0_1_n_n_1_1_192001.batchCoord (ix2 r j) 0 + gather_S19200x1600_S1600x1_S19200x1600_0_1_n_n_1_1_192001.offCoord (ix2 r j) 0 = r.val
    rw [GatherDims.batchCoord_eq_zero _ _ _ List.not_mem_nil]
    unfold GatherDims.start
    rw [dif_neg (show ¬(0 : Fin S19200x1600.rank) ∈ gather_S19200x1600_S1600x1_S19200x1600_0_1_n_n_1_1_192001.startIndexMap from
      (show ¬(0 : Fin 2) ∈ ([1] : List (Fin 2)) by decide))]
    unfold GatherDims.offCoord
    rw [dif_pos (show (0 : Fin S19200x1600.rank) ∈ gather_S19200x1600_S1600x1_S19200x1600_0_1_n_n_1_1_192001.sKept from
      (GatherDims.mem_sKept _ _).2 ⟨(show ¬(0 : Fin 2) ∈ ([1] : List (Fin 2)) by decide), List.not_mem_nil⟩)]
    show 0 + 0 + r.val = r.val
    omega
  | ⟨1, _⟩ =>
    show gather_S19200x1600_S1600x1_S19200x1600_0_1_n_n_1_1_192001.start (ix2 r j) idx 1 + gather_S19200x1600_S1600x1_S19200x1600_0_1_n_n_1_1_192001.batchCoord (ix2 r j) 1 + gather_S19200x1600_S1600x1_S19200x1600_0_1_n_n_1_1_192001.offCoord (ix2 r j) 1 = _
    rw [GatherDims.batchCoord_eq_zero _ _ _ List.not_mem_nil,
      GatherDims.offCoord_eq_zero _ _ _ (fun h => ((GatherDims.mem_sKept _ _).1 h).1 (List.mem_singleton.mpr rfl))]
    simp only [Nat.add_zero]
    unfold GatherDims.start
    rw [dif_pos (show (1 : Fin S19200x1600.rank) ∈ gather_S19200x1600_S1600x1_S19200x1600_0_1_n_n_1_1_192001.startIndexMap from List.mem_singleton.mpr rfl)]
    have hsi : gather_S19200x1600_S1600x1_S19200x1600_0_1_n_n_1_1_192001.siIdx (ix2 r j) ⟨List.idxOf (1 : Fin S19200x1600.rank) gather_S19200x1600_S1600x1_S19200x1600_0_1_n_n_1_1_192001.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- With the start index a word in [0, 1600) the gather reads that very column. -/
theorem gatherCol_of_lt {α : Type} (x : S19200x1600.Idx → α) (idx : IVec S1600x1 32) (r : Fin 19200) (j : Fin 1600)
    (h : (idx (ix2 j (0 : Fin 1))).toNat < 1600) :
    Host.gather gather_S19200x1600_S1600x1_S19200x1600_0_1_n_n_1_1_192001 x idx (ix2 r j) = x (ix2 r (⟨(idx (ix2 j (0 : Fin 1))).toNat, h⟩ : Fin 1600)) := by
  rw [gatherCol_apply]
  exact congrArg (fun c => x (ix2 r c)) (Fin.ext (clamp_eq _ h))

/-! ## Reshapes and transposes -/

/-- The input with the channel axis moved last and flattened: row r, column k holds x0 at
    (sample of r, channel of k, frame of r, joint of k). -/
theorem flatIn_apply {α : Type} (x0 : S64x64x300x25.Idx → α) (r : Fin 19200) (k : Fin 1600) :
    shapeCast S19200x1600 (transpose S64x300x25x64 [0, 2, 3, 1] x0 transposes_S64x64x300x25_S64x300x25x64_0_2_3_1)
        shapeCasts_S64x300x25x64_S19200x1600 (ix2 r k)
      = x0 (ix4 (Spec.rowN r) (Spec.colC k) (Spec.rowT r) (Spec.colV k)) := by
  refine (shapeCast_apply _ _ (ix2 r k) (ix4 (Spec.rowN r) (Spec.rowT r) (Spec.colV k) (Spec.colC k)) ?_).trans ?_
  · rw [Shape.rowMajor_val_four, Shape.rowMajor_val_two]
    show ((r.val / 300 * 300 + r.val % 300) * 25 + k.val / 64) * 64 + k.val % 64 = r.val * 1600 + k.val
    omega
  · refine transpose_apply _ x0 _ _ (ix4 (Spec.rowN r) (Spec.colC k) (Spec.rowT r) (Spec.colV k)) fun b => ?_
    match b with
    | ⟨0, _⟩ => rfl
    | ⟨1, _⟩ => rfl
    | ⟨2, _⟩ => rfl
    | ⟨3, _⟩ => rfl

/-- 1600 columns split into 25 joints of 64 channels: (r, v, c) is column v·64 + c of row r. -/
theorem split_apply {α : Type} (x : S19200x1600.Idx → α) (r : Fin 19200) (v : Fin 25) (c : Fin 64) :
    shapeCast S19200x25x64 x shapeCasts_S19200x1600_S19200x25x64 (ix3 r v c) = x (ix2 r (Spec.colOf v c)) := by
  refine shapeCast_apply _ _ (ix3 r v c) (ix2 r (Spec.colOf v c)) ?_
  rw [Shape.rowMajor_val_three, Shape.rowMajor_val_two]
  show r.val * 1600 + (v.val * 64 + c.val) = (r.val * 25 + v.val) * 64 + c.val
  omega

/-- …and joined again: column k of row r is (r, joint of k, channel of k). -/
theorem merge_apply {α : Type} (y : S19200x25x64.Idx → α) (r : Fin 19200) (k : Fin 1600) :
    shapeCast S19200x1600 y shapeCasts_S19200x25x64_S19200x1600 (ix2 r k) = y (ix3 r (Spec.colV k) (Spec.colC k)) := by
  refine shapeCast_apply _ _ (ix2 r k) (ix3 r (Spec.colV k) (Spec.colC k)) ?_
  rw [Shape.rowMajor_val_three, Shape.rowMajor_val_two]
  show (r.val * 25 + k.val / 64) * 64 + k.val % 64 = r.val * 1600 + k.val
  omega

/-- The normalised rows split back into (sample, frame, joint, channel) with the channel axis moved to second place:
    (n, d, t, v) is row n·300 + t, column v·64 + d. -/
theorem unflat_apply {α : Type} (y : S19200x1600.Idx → α) (n : Fin 64) (d : Fin 64) (t : Fin 300) (v : Fin 25) :
    transpose S64x64x300x25 [0, 3, 1, 2] (shapeCast S64x300x25x64 y shapeCasts_S19200x1600_S64x300x25x64)
        transposes_S64x300x25x64_S64x64x300x25_0_3_1_2 (ix4 n d t v)
      = y (ix2 (Spec.rowOf n t) (Spec.colOf v d)) := by
  refine (transpose_apply _ _ _ (ix4 n d t v) (ix4 n t v d) fun b => ?_).trans ?_
  · match b with
    | ⟨0, _⟩ => rfl
    | ⟨1, _⟩ => rfl
    | ⟨2, _⟩ => rfl
    | ⟨3, _⟩ => rfl
  · refine shapeCast_apply _ _ (ix4 n t v d) (ix2 (Spec.rowOf n t) (Spec.colOf v d)) ?_
    rw [Shape.rowMajor_val_four, Shape.rowMajor_val_two]
    show (n.val * 300 + t.val) * 1600 + (v.val * 64 + d.val) = ((n.val * 300 + t.val) * 25 + v.val) * 64 + d.val
    omega

/-! ## Broadcasts -/

/-- A vector of 1600 as one row. -/
theorem rowVec_apply {α : Type} (x : S1600.Idx → α) (u : Fin 1) (j : Fin 1600) :
    broadcastInDim S1x1600 ![1] bcast_S1600_S1x1600_1 x (ix2 u j) = x (ix1 j) := by
  refine broadcastInDim_apply _ _ x _ (ix1 j) fun a => ?_
  match a with
  | ⟨0, _⟩ => rfl

/-- One row repeated over the 19200 rows. -/
theorem rows_apply {α : Type} (y : S1x1600.Idx → α) (r : Fin 19200) (j : Fin 1600) :
    broadcastInDim S19200x1600 ![0, 1] bcast_S1x1600_S19200x1600_0_1 y (ix2 r j) = y (ix2 (0 : Fin 1) j) := by
  refine broadcastInDim_apply _ _ y _ (ix2 (0 : Fin 1) j) fun a => ?_
  match a with
  | ⟨0, _⟩ => rfl
  | ⟨1, _⟩ => rfl

/-- A vector of 1600 repeated over the rows, through its one-row form. -/
theorem rowsVec_apply {α : Type} (x : S1600.Idx → α) (r : Fin 19200) (j : Fin 1600) :
    broadcastInDim S19200x1600 ![0, 1] bcast_S1x1600_S19200x1600_0_1
      (broadcastInDim S1x1600 ![1] bcast_S1600_S1x1600_1 x) (ix2 r j) = x (ix1 j) := by
  rw [rows_apply, rowVec_apply]

/-- The per-(joint, channel) scale repeated over the rows. -/
theorem maskRows_apply {α : Type} (m : S1x25x64.Idx → α) (r : Fin 19200) (v : Fin 25) (c : Fin 64) :
    broadcastInDim S19200x25x64 ![0, 1, 2] bcast_S1x25x64_S19200x25x64_0_1_2 m (ix3 r v c) = m (ix3 (0 : Fin 1) v c) := by
  refine broadcastInDim_apply _ _ m _ (ix3 (0 : Fin 1) v c) fun a => ?_
  match a with
  | ⟨0, _⟩ => rfl
  | ⟨1, _⟩ => rfl
  | ⟨2, _⟩ => rfl

/-- The bias repeated over rows and joints. -/
theorem biasRows_apply {α : Type} (b : S1x1x64.Idx → α) (r : Fin 19200) (v : Fin 25) (d : Fin 64) :
    broadcastInDim S19200x25x64 ![0, 1, 2] bcast_S1x1x64_S19200x25x64_0_1_2 b (ix3 r v d)
      = b (ix3 (0 : Fin 1) (0 : Fin 1) d) := by
  refine broadcastInDim_apply _ _ b _ (ix3 (0 : Fin 1) (0 : Fin 1) d) fun a => ?_
  match a with
  | ⟨0, _⟩ => rfl
  | ⟨1, _⟩ => rfl
  | ⟨2, _⟩ => rfl

/-! ## The per-joint linear map: a contraction over the channel -/

/-- The left operand's index at result index i and contraction index q: axes 0 and 1 read the result's, axis 2 the
    contraction's one coordinate. -/
theorem lhs_dot_0 (i : S19200x25x64.Idx) (q : dot_S19200x25x64_S64x64_S19200x25x64_2_0_01_1_n_n.contr.Idx) :
    (dot_S19200x25x64_S64x64_S19200x25x64_2_0_01_1_n_n.lhsIdx i q 0).val = (i 0).val := by
  unfold DotDims.lhsIdx
  rw [dif_neg (show ¬(0 : Fin S19200x25x64.rank) ∈ dot_S19200x25x64_S64x64_S19200x25x64_2_0_01_1_n_n.lhsBatch from List.not_mem_nil),
    dif_pos (show (0 : Fin S19200x25x64.rank) ∈ dot_S19200x25x64_S64x64_S19200x25x64_2_0_01_1_n_n.lhsNonContracting from
      (show (0 : Fin 3) ∈ ([0, 1] : List (Fin 3)) by decide))]
  rfl
theorem lhs_dot_1 (i : S19200x25x64.Idx) (q : dot_S19200x25x64_S64x64_S19200x25x64_2_0_01_1_n_n.contr.Idx) :
    (dot_S19200x25x64_S64x64_S19200x25x64_2_0_01_1_n_n.lhsIdx i q 1).val = (i 1).val := by
  unfold DotDims.lhsIdx
  rw [dif_neg (show ¬(1 : Fin S19200x25x64.rank) ∈ dot_S19200x25x64_S64x64_S19200x25x64_2_0_01_1_n_n.lhsBatch from List.not_mem_nil),
    dif_pos (show (1 : Fin S19200x25x64.rank) ∈ dot_S19200x25x64_S64x64_S19200x25x64_2_0_01_1_n_n.lhsNonContracting from
      (show (1 : Fin 3) ∈ ([0, 1] : List (Fin 3)) by decide))]
  rfl
theorem lhs_dot_2 (i : S19200x25x64.Idx) (q : dot_S19200x25x64_S64x64_S19200x25x64_2_0_01_1_n_n.contr.Idx) :
    (dot_S19200x25x64_S64x64_S19200x25x64_2_0_01_1_n_n.lhsIdx i q 2).val = (q ⟨0, Nat.one_pos⟩).val :=
  dot_S19200x25x64_S64x64_S19200x25x64_2_0_01_1_n_n.lhsIdx_val_of_single rfl i q
/-- The right operand's: axis 0 reads the contraction's coordinate, axis 1 the result's last. -/
theorem rhs_dot_0 (i : S19200x25x64.Idx) (q : dot_S19200x25x64_S64x64_S19200x25x64_2_0_01_1_n_n.contr.Idx) :
    (dot_S19200x25x64_S64x64_S19200x25x64_2_0_01_1_n_n.rhsIdx i q 0).val = (q ⟨0, Nat.one_pos⟩).val :=
  dot_S19200x25x64_S64x64_S19200x25x64_2_0_01_1_n_n.rhsIdx_val_of_single rfl i q
theorem rhs_dot_1 (i : S19200x25x64.Idx) (q : dot_S19200x25x64_S64x64_S19200x25x64_2_0_01_1_n_n.contr.Idx) :
    (dot_S19200x25x64_S64x64_S19200x25x64_2_0_01_1_n_n.rhsIdx i q 1).val = (i 2).val := by
  unfold DotDims.rhsIdx
  rw [dif_neg (show ¬(1 : Fin S64x64.rank) ∈ dot_S19200x25x64_S64x64_S19200x25x64_2_0_01_1_n_n.rhsBatch from List.not_mem_nil),
    dif_pos (show (1 : Fin S64x64.rank) ∈ dot_S19200x25x64_S64x64_S19200x25x64_2_0_01_1_n_n.rhsNonContracting from List.mem_singleton.mpr rfl)]
  rfl

/-- The contraction at (r, v, d): the sum over the channel c of left (r, v, c) times right (c, d). -/
theorem dot_apply (l : FVec Ideal S19200x25x64 .f32) (w : FVec Ideal S64x64 .f32) (r : Fin 19200) (v : Fin 25) (d : Fin 64) :
    Host.dotGeneral (F := Ideal) dot_S19200x25x64_S64x64_S19200x25x64_2_0_01_1_n_n none l w (ix3 r v d) = ∑ c : Fin 64, l (ix3 r v c) * w (ix2 c d) := by
  simp only [Host.dotGeneral]
  rw [Ideal.dotGeneral_apply, ← Equiv.sum_comp (contrEquiv1 dot_S19200x25x64_S64x64_S19200x25x64_2_0_01_1_n_n 64 rfl rfl).symm]
  refine Finset.sum_congr rfl fun k _ => ?_
  have hk := contrEquiv1_symm_val dot_S19200x25x64_S64x64_S19200x25x64_2_0_01_1_n_n 64 rfl rfl k
  have el : dot_S19200x25x64_S64x64_S19200x25x64_2_0_01_1_n_n.lhsIdx (ix3 r v d) ((contrEquiv1 dot_S19200x25x64_S64x64_S19200x25x64_2_0_01_1_n_n 64 rfl rfl).symm k) = ix3 r v k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S19200x25x64_S64x64_S19200x25x64_2_0_01_1_n_n.rhsIdx (ix3 r v d) ((contrEquiv1 dot_S19200x25x64_S64x64_S19200x25x64_2_0_01_1_n_n 64 rfl rfl).symm k) = ix2 k d :=
    funext fun a => Fin.ext (by
      match a with
      | ⟨0, _⟩ => exact (rhs_dot_0 _ _).trans hk
      | ⟨1, _⟩ => exact rhs_dot_1 _ _)
  rw [el, er]

/-! ## Column sums, and the batch variance's divisor -/

/-- The sum over the rows from an initial scalar: at column j the initial value plus the sum over r of (r, j). -/
theorem colSum_apply (x : FVec Ideal S19200x1600 .f32) (init : FVec Ideal S_ .f32) (j : Fin 1600) :
    Host.reduceAdd (F := Ideal) x init reducesTo_S19200x1600_S1600_d0 h_S_ (ix1 j)
      = init ix0 + ∑ r : Fin 19200, x (ix2 r j) := by
  have hR : S19200x1600.Reduces [0] S1600 := by decide
  rw [hostReduceAdd_apply, Ideal.hostReduceAdd_single reducesTo_S19200x1600_S1600_d0 hR]
  refine congrArg₂ (· + ·) (congrArg init (eq_ix0 _)) ?_
  refine Finset.sum_congr rfl fun r _ => congrArg x (funext fun a => Fin.ext ?_)
  match a with
  | ⟨0, _⟩ => rfl
  | ⟨1, _⟩ => rfl

/-- From the zero word: just the sum. -/
theorem colSum_zero_apply (x : FVec Ideal S19200x1600 .f32) (j : Fin 1600) :
    Host.reduceAdd (F := Ideal) x (constant (F := Ideal) S_ .f32 0x00000000#32) reducesTo_S19200x1600_S1600_d0 h_S_ (ix1 j)
      = ∑ r : Fin 19200, x (ix2 r j) := by
  rw [colSum_apply, constant_apply, Ideal.ofBits_zero_f32, zero_add]

/-- The variance's divisor, the count 19200 minus the correction 0 converted from the integer 0: the count itself. -/
theorem divisor_apply :
    subf (constant (F := Ideal) S_ .f32 0x46960000#32) (sitofp (F := Ideal) .f32 (constantI S_ 32 0#32)) ix0 = Spec.n19200 := by
  rw [subf_apply, constant_apply, sitofp_apply]
  show Ideal.ofBits .f32 0x46960000#32 - (((0#32 : BitVec 32).toInt : ℝ) : EReal) = Spec.n19200
  have h0 : (((0#32 : BitVec 32).toInt : ℝ) : EReal) = 0 := by
    rw [show (0#32 : BitVec 32).toInt = 0 by decide]; norm_num
  rw [h0, sub_zero]
  rfl

/-- A strict comparison of extended reals that holds is the bit 1. -/
theorem cmpf_ogt_of_lt {x y : EReal} (h : y < x) : FloatOps.cmpf (F := Ideal) (φ := .f32) .ogt x y = 1#1 := by
  show BitVec.ofBool (decide (y < x)) = 1#1
  rw [decide_eq_true h]
  rfl

/-- The divisor is positive, the count being positive: the variance's guard is the bit 1. -/
theorem guard_apply (hpos : (0 : EReal) < Spec.n19200) :
    cmpf (F := Ideal) .ogt (subf (constant (F := Ideal) S_ .f32 0x46960000#32) (sitofp (F := Ideal) .f32 (constantI S_ 32 0#32)))
      (constant (F := Ideal) S_ .f32 0x00000000#32) ix0 = 1#1 := by
  rw [cmpf_apply, divisor_apply, constant_apply, Ideal.ofBits_zero_f32]
  exact cmpf_ogt_of_lt hpos

/-- A select on a scalar guard that is the bit 1 takes its first branch at every column. -/
theorem whereScalar_apply {α : Type} (p : IVec S_ 1) (hp : p ix0 = 1#1) (a b : S1600.Idx → α) (i : S1600.Idx) :
    select (broadcastInDim S1600 ![] bcast_S_S1600 p) a b i = a i := by
  rw [select_apply, broadcastInDim_scalar_apply, hp, select_one]

end Cert.ReferenceIdeal.ValueLemmas

end
-- ==== Proof.Ref.ValueA.lean ====
/-
  The reference's first half read at an index: the activations before normalisation are `Spec.Y`.

  Following the program: the input is flattened to rows (sample, frame) and columns (joint, channel); its columns are
  gathered by the first index vector; each (joint, channel) entry is scaled by tanh(mask) + 1; per joint the 64 × 64
  map W is applied (a sum over the input channel) and the bias added; (joint, channel) is flattened back to one column
  and the columns are gathered by the second index vector. Both index vectors have their words in [0, 1600), so the
  index normalisation where(s < 0, s + 1600, s) and the gather's clamp into [0, 1599] leave every word as it is, and
  each gather reads column σ(j) of its operand.
-/
import proofs.«428867_j23261542875775_2_alg».proof.Proof.Ref.Run
import proofs.«428867_j23261542875775_2_alg».proof.Proof.Ref.ValueLemmas
import proofs.«428867_j23261542875775_2_alg».proof.Proof.Spec

noncomputable section

namespace Cert.ReferenceIdeal.Hand

open Idealize.ShloMosaic Idealize.ShloMosaic.ValueIdx
open Cert.ReferenceIdeal Cert.ReferenceIdeal.Gen Cert.ReferenceIdeal.ValueLemmas
open scoped BigOperators

/-! ## The index vectors -/

/-- The index normalisation where(s < 0, s + 1600, s), as the one-column array the gather takes its start indices
    from. -/
def normColA (s : IVec S1600 32) : IVec S1600x1 32 :=
  broadcastInDim S1600x1 ![0] bcast_S1600_S1600x1_0
    (select (cmpi .slt s (broadcastInDim S1600 ![] bcast_S_S1600 (constantI S_ 32 0#32)))
      (addi s (broadcastInDim S1600 ![] bcast_S_S1600 (constantI S_ 32 1600#32))) s)

/-- With every word in [0, 1600) the start index of column `j` is the word `j` itself. -/
theorem normColA_apply (s : IVec S1600 32) (h : ∀ k : Fin 1600, (s (ix1 k)).toNat < 1600) (j : Fin 1600) :
    normColA s (ix2 j (0 : Fin 1)) = s (ix1 j) :=
  (idxCol_apply _ j 0).trans (normIdx_apply s j (h j))

/-- The column gather by an index vector with words in [0, 1600): column `j` of the result is column `σ j` of the
    operand. -/
theorem gatherByA_apply {α : Type} (x : S19200x1600.Idx → α) (s : IVec S1600 32)
    (h : ∀ k : Fin 1600, (s (ix1 k)).toNat < 1600) (r : Fin 19200) (j : Fin 1600) :
    Host.gather gather_S19200x1600_S1600x1_S19200x1600_0_1_n_n_1_1_192001 x (normColA s) (ix2 r j)
      = x (ix2 r (Spec.sig s h j)) := by
  have hidx := normColA_apply s h j
  have hlt : (normColA s (ix2 j (0 : Fin 1))).toNat < 1600 := by rw [hidx]; exact h j
  have hfin : (⟨(normColA s (ix2 j (0 : Fin 1))).toNat, hlt⟩ : Fin 1600) = Spec.sig s h j := by
    apply Fin.ext
    show (normColA s (ix2 j (0 : Fin 1))).toNat = (s (ix1 j)).toNat
    rw [hidx]
  rw [gatherCol_of_lt x (normColA s) r j hlt, hfin]

/-! ## The stages at an index -/

section Stages

variable (a0 : FVec Ideal S64x64x300x25 .f32) (a1 : FVec Ideal S1x25x64 .f32) (a2 : FVec Ideal S64x64 .f32)
  (a3 : FVec Ideal S1x1x64 .f32) (a6 a7 : IVec S1600 32)
  (h6 : ∀ k : Fin 1600, (a6 (ix1 k)).toNat < 1600) (h7 : ∀ k : Fin 1600, (a7 (ix1 k)).toNat < 1600)

/-- %1: the flattened input. -/
theorem val_v1_applyA (r : Fin 19200) (k : Fin 1600) : val_v1 a0 (ix2 r k) = Spec.Xf a0 r k :=
  flatIn_apply a0 r k

/-- %8: its columns gathered by the first index vector. -/
theorem val_v8_applyA (r : Fin 19200) (k : Fin 1600) :
    val_v8 a0 a6 (ix2 r k) = Spec.Xf a0 r (Spec.sig a6 h6 k) :=
  (gatherByA_apply (val_v1 a0) a6 h6 r k).trans (val_v1_applyA a0 r _)

/-- %13: the scale tanh(mask) + 1 at (joint, channel), on every row. -/
theorem val_v13_applyA (r : Fin 19200) (v : Fin 25) (c : Fin 64) :
    val_v13 a1 (ix3 r v c) = Spec.Mk a1 v c := by
  refine (maskRows_apply (val_v12 a1) r v c).trans ?_
  have h1 : (val_v11 (F := Ideal)) (ix3 (0 : Fin 1) v c) = Spec.one :=
    broadcastInDim_scalar_apply bcast_S_S1x25x64 _ _
  show Ideal.tanh (a1 (ix3 (0 : Fin 1) v c)) + (val_v11 (F := Ideal)) (ix3 (0 : Fin 1) v c)
    = Ideal.tanh (a1 (ix3 0 v c)) + Spec.one
  rw [h1]

/-- %14: the gathered input scaled. -/
theorem val_v14_applyA (r : Fin 19200) (v : Fin 25) (c : Fin 64) :
    val_v14 a0 a1 a6 (ix3 r v c) = Spec.Xf a0 r (Spec.sig a6 h6 (Spec.colOf v c)) * Spec.Mk a1 v c := by
  show val_v9 a0 a6 (ix3 r v c) * val_v13 a1 (ix3 r v c) = _
  rw [val_v13_applyA]
  refine congrArg (· * Spec.Mk a1 v c) ?_
  exact (split_apply (val_v8 a0 a6) r v c).trans (val_v8_applyA a0 a6 h6 r _)

/-- %17: the layer's output at row `r`, joint `v`, output channel `d`. -/
theorem val_v17_applyA (r : Fin 19200) (v : Fin 25) (d : Fin 64) :
    val_v17 a0 a1 a2 a3 a6 (ix3 r v d) = Spec.Z a0 a1 a2 a3 (Spec.sig a6 h6) r v d := by
  show val_v15 a0 a1 a2 a6 (ix3 r v d) + val_v16 a3 (ix3 r v d) = _
  rw [show val_v16 a3 (ix3 r v d) = a3 (ix3 (0 : Fin 1) (0 : Fin 1) d) from biasRows_apply a3 r v d]
  refine congrArg (· + a3 (ix3 (0 : Fin 1) (0 : Fin 1) d)) ?_
  refine (dot_apply (val_v14 a0 a1 a6) a2 r v d).trans ?_
  exact Finset.sum_congr rfl fun c _ => congrArg (· * a2 (ix2 c d)) (val_v14_applyA a0 a1 a6 h6 r v c)

/-- %18: the same with (joint, channel) flattened back to one column. -/
theorem val_v18_applyA (r : Fin 19200) (k : Fin 1600) :
    val_v18 a0 a1 a2 a3 a6 (ix2 r k) = Spec.Z a0 a1 a2 a3 (Spec.sig a6 h6) r (Spec.colV k) (Spec.colC k) :=
  (merge_apply (val_v17 a0 a1 a2 a3 a6) r k).trans (val_v17_applyA a0 a1 a2 a3 a6 h6 r _ _)

/-- %25: the activations before normalisation are `Spec.Y`. -/
theorem val_v25_eq :
    val_v25 (F := Ideal) a0 a1 a2 a3 a6 a7
      = fun i => Spec.Y a0 a1 a2 a3 (Spec.sig a6 h6) (Spec.sig a7 h7) (i 0) (i 1) := by
  funext i
  obtain ⟨r, j, rfl⟩ : ∃ (r : Fin 19200) (j : Fin 1600), i = ix2 r j := ⟨i 0, i 1, eq_ix2 i⟩
  exact (gatherByA_apply (val_v18 a0 a1 a2 a3 a6) a7 h7 r j).trans (val_v18_applyA a0 a1 a2 a3 a6 h6 r _)

end Stages

end Cert.ReferenceIdeal.Hand

end
-- ==== Proof.Consts.lean ====
/-
  The float literals of the two programs, as the extended reals their binary patterns denote.

  1.0 is sign 0, exponent 127, fraction 0: the real 1. 19200.0 is exponent 141, fraction 0x160000:
  (2^23 + 1441792) · 2^(141 − 127 − 23) = 9830400 / 512 = 19200. The variance offset is exponent 110, fraction
  0x27C5AC: 10995116 · 2^(−40), a positive real (the binary value nearest 1e-5). The all-ones exponent with a zero
  fraction and a clear sign is +∞; the all-zero pattern is 0.
-/
import proofs.«428867_j23261542875775_2_alg».proof.Proof.Spec
import Idealize.ShloMosaic.PureOps.Ideal.Laws

noncomputable section

namespace Cert.Consts

open Idealize.ShloMosaic

/-- `1.0` denotes the real 1. -/
theorem one_eq : Cert.Spec.one = 1 := by
  unfold Cert.Spec.one
  simp [Ideal.ofBits, Ideal.ieee, -EReal.coe_mul]; norm_num

/-- `19200.0` denotes the real 19200, the number of rows. -/
theorem n19200_eq : Cert.Spec.n19200 = ((19200 : ℝ) : EReal) := by
  unfold Cert.Spec.n19200
  simp [Ideal.ofBits, Ideal.ieee, -EReal.coe_mul]; norm_num

/-- The variance offset denotes the real 10995116 / 2^40. -/
theorem eps_eq : Cert.Spec.eps = ((10995116 / 2 ^ 40 : ℝ) : EReal) := by
  unfold Cert.Spec.eps
  simp [Ideal.ofBits, Ideal.ieee, -EReal.coe_mul]; norm_num

/-- … which is positive. -/
theorem eps_pos : (0 : ℝ) < 10995116 / 2 ^ 40 := by norm_num

/-- `+0.0` denotes 0. -/
theorem zero_eq : Ideal.ofBits .f32 0x00000000#32 = 0 := Ideal.ofBits_zero_f32

/-- The pattern of +∞ denotes the top element. -/
theorem inf_eq : Ideal.ofBits .f32 0x7F800000#32 = ⊤ := by
  simp [Ideal.ofBits, Ideal.ieee]

end Cert.Consts

end
-- ==== Proof.Ref.ValueB.lean ====
/-
  The reference from the activations on, read at an index.

  Write Yf r j for the activations before normalisation (row r, column j). The reference takes each column's mean,
  its biased variance about that mean (the variance function divides by 19200 − 0, which is positive, so its guard
  keeps the quotient), normalises by the reciprocal square root of variance + offset, scales and shifts per column,
  splits rows and columns back into (sample, frame, joint, channel), moves the channel axis to second place, adds the
  input and clamps at zero.
-/
import proofs.«428867_j23261542875775_2_alg».proof.Proof.Ref.Run
import proofs.«428867_j23261542875775_2_alg».proof.Proof.Ref.ValueLemmas
import proofs.«428867_j23261542875775_2_alg».proof.Proof.Spec
import proofs.«428867_j23261542875775_2_alg».proof.Proof.Consts

noncomputable section

namespace Cert.ReferenceIdeal.ValueB

open Idealize.ShloMosaic Idealize.ShloMosaic.ValueIdx
open Cert.ReferenceIdeal Cert.ReferenceIdeal.Gen Cert.ReferenceIdeal.Hand Cert.ReferenceIdeal.ValueLemmas
open scoped BigOperators

/-! ## The normalisation as a function of the activations -/

section Maths
variable (Yf : Fin 19200 → Fin 1600 → EReal) (gam bet : S1600.Idx → EReal) (x0 : S64x64x300x25.Idx → EReal)

/-- A column's mean over the 19200 rows. -/
def meanOf (j : Fin 1600) : EReal := Ideal.div (∑ r : Fin 19200, Yf r j) Spec.n19200
/-- A column's biased variance about its mean. -/
def varOf (j : Fin 1600) : EReal :=
  Ideal.div (∑ r : Fin 19200, (Yf r j - meanOf Yf j) * (Yf r j - meanOf Yf j)) Spec.n19200
/-- Normalised, scaled, shifted, the input added back, clamped at zero. -/
def outOf (r : Fin 19200) (j : Fin 1600) : EReal :=
  max ((((Yf r j - meanOf Yf j) * Ideal.rsqrt (varOf Yf j + Spec.eps)) * gam (ix1 j) + bet (ix1 j)) + Spec.Xf x0 r j) 0

end Maths

/-- Row n·300 + t, column v·64 + d of the flattened input is the input at (n, d, t, v). -/
theorem Xf_rowOf_colOf (x0 : S64x64x300x25.Idx → EReal) (n : Fin 64) (d : Fin 64) (t : Fin 300) (v : Fin 25) :
    Spec.Xf x0 (Spec.rowOf n t) (Spec.colOf v d) = x0 (ix4 n d t v) := by
  unfold Spec.Xf
  have e1 : Spec.rowN (Spec.rowOf n t) = n := Fin.ext (by
    show (n.val * 300 + t.val) / 300 = n.val
    have := t.isLt; omega)
  have e2 : Spec.colC (Spec.colOf v d) = d := Fin.ext (by
    show (v.val * 64 + d.val) % 64 = d.val
    have := d.isLt; omega)
  have e3 : Spec.rowT (Spec.rowOf n t) = t := Fin.ext (by
    show (n.val * 300 + t.val) % 300 = t.val
    have := t.isLt; omega)
  have e4 : Spec.colV (Spec.colOf v d) = v := Fin.ext (by
    show (v.val * 64 + d.val) / 64 = v.val
    have := d.isLt; omega)
  rw [e1, e2, e3, e4]

/-! ## The stages after the activations, each at an index -/

section Stages

variable (a0 : FVec Ideal S64x64x300x25 .f32) (a1 : FVec Ideal S1x25x64 .f32) (a2 : FVec Ideal S64x64 .f32)
  (a3 : FVec Ideal S1x1x64 .f32) (a4 : FVec Ideal S1600 .f32) (a5 : FVec Ideal S1600 .f32) (a6 : IVec S1600 32) (a7 : IVec S1600 32)
  (Yf : Fin 19200 → Fin 1600 → EReal)
  (hY : val_v25 (F := Ideal) a0 a1 a2 a3 a6 a7 = fun i => Yf (i 0) (i 1))

include hY

theorem v25_apply (r : Fin 19200) (j : Fin 1600) : val_v25 (F := Ideal) a0 a1 a2 a3 a6 a7 (ix2 r j) = Yf r j :=
  congrFun hY (ix2 r j)

/-- %26: the column sums. -/
theorem v26_apply (j : Fin 1600) : val_v26 (F := Ideal) a0 a1 a2 a3 a6 a7 (ix1 j) = ∑ r : Fin 19200, Yf r j := by
  unfold val_v26
  rw [colSum_zero_apply]
  exact Finset.sum_congr rfl fun r _ => v25_apply a0 a1 a2 a3 a6 a7 Yf hY r j

/-- %28: the column means. -/
theorem v28_apply (j : Fin 1600) : val_v28 (F := Ideal) a0 a1 a2 a3 a6 a7 (ix1 j) = meanOf Yf j := by
  unfold val_v28
  rw [hostDivf_apply, v26_apply a0 a1 a2 a3 a6 a7 Yf hY]
  unfold val_v27
  rw [broadcastInDim_scalar_apply, constant_apply]
  rfl

/-- The variance function's %0: the column sums again. -/
theorem c0_v0_apply (j : Fin 1600) : val_call0_v0 (F := Ideal) a0 a1 a2 a3 a6 a7 (ix1 j) = ∑ r : Fin 19200, Yf r j := by
  unfold val_call0_v0
  rw [colSum_zero_apply]
  exact Finset.sum_congr rfl fun r _ => v25_apply a0 a1 a2 a3 a6 a7 Yf hY r j

/-- Its %3: the means as one row. -/
theorem c0_v3_apply (u : Fin 1) (j : Fin 1600) : val_call0_v3 (F := Ideal) a0 a1 a2 a3 a6 a7 (ix2 u j) = meanOf Yf j := by
  unfold val_call0_v3
  rw [hostDivf_apply]
  unfold val_call0_v1 val_call0_v2
  rw [rowVec_apply, c0_v0_apply a0 a1 a2 a3 a6 a7 Yf hY, broadcastInDim_scalar_apply, constant_apply]
  rfl

/-- Its %5: the deviations from the column means. -/
theorem c0_v5_apply (r : Fin 19200) (j : Fin 1600) :
    val_call0_v5 (F := Ideal) a0 a1 a2 a3 a6 a7 (ix2 r j) = Yf r j - meanOf Yf j := by
  unfold val_call0_v5
  rw [subf_apply, v25_apply a0 a1 a2 a3 a6 a7 Yf hY]
  unfold val_call0_v4
  rw [rows_apply, c0_v3_apply a0 a1 a2 a3 a6 a7 Yf hY]

/-- Its %9: the column sums of the squared deviations. -/
theorem c0_v9_apply (j : Fin 1600) :
    val_call0_v9 (F := Ideal) a0 a1 a2 a3 a6 a7 (ix1 j) = ∑ r : Fin 19200, (Yf r j - meanOf Yf j) * (Yf r j - meanOf Yf j) := by
  unfold val_call0_v9
  rw [colSum_zero_apply]
  refine Finset.sum_congr rfl fun r _ => ?_
  unfold val_call0_v6
  rw [mulf_apply, c0_v5_apply a0 a1 a2 a3 a6 a7 Yf hY]

/-- Its %11: the quotient by the divisor 19200 − 0. -/
theorem c0_v11_apply (j : Fin 1600) : val_call0_v11 (F := Ideal) a0 a1 a2 a3 a6 a7 (ix1 j) = varOf Yf j := by
  unfold val_call0_v11
  rw [hostDivf_apply, c0_v9_apply a0 a1 a2 a3 a6 a7 Yf hY]
  unfold val_call0_v10 val_call0_v8 val_call0_v7
  rw [broadcastInDim_scalar_apply, divisor_apply]
  rfl

/-- %29: the batch variance. The divisor being positive, the guard keeps the quotient. -/
theorem v29_apply (hpos : (0 : EReal) < Spec.n19200) (j : Fin 1600) :
    val_v29 (F := Ideal) a0 a1 a2 a3 a6 a7 (ix1 j) = varOf Yf j := by
  unfold val_v29
  refine (whereScalar_apply _ ?_ _ _ _).trans (c0_v11_apply a0 a1 a2 a3 a6 a7 Yf hY j)
  unfold val_call0_v12 val_call0_v8 val_call0_v7
  exact guard_apply hpos

/-- %35: the reciprocal square root of variance plus offset. -/
theorem v35_apply (hpos : (0 : EReal) < Spec.n19200) (j : Fin 1600) :
    val_v35 (F := Ideal) a0 a1 a2 a3 a6 a7 (ix1 j) = Ideal.rsqrt (varOf Yf j + Spec.eps) := by
  unfold val_v35
  show Ideal.rsqrt (val_v34 (F := Ideal) a0 a1 a2 a3 a6 a7 (ix1 j)) = _
  unfold val_v34
  rw [addf_apply, v29_apply a0 a1 a2 a3 a6 a7 Yf hY hpos]
  unfold val_v33
  rw [broadcastInDim_scalar_apply, constant_apply]
  rfl

/-- %32: the centred activations. -/
theorem v32_apply (r : Fin 19200) (j : Fin 1600) : val_v32 (F := Ideal) a0 a1 a2 a3 a6 a7 (ix2 r j) = Yf r j - meanOf Yf j := by
  unfold val_v32
  rw [subf_apply, v25_apply a0 a1 a2 a3 a6 a7 Yf hY]
  unfold val_v31 val_v30
  rw [rowsVec_apply, v28_apply a0 a1 a2 a3 a6 a7 Yf hY]

/-- %44: normalised, scaled and shifted. -/
theorem v44_apply (hpos : (0 : EReal) < Spec.n19200) (r : Fin 19200) (j : Fin 1600) :
    val_v44 (F := Ideal) a0 a1 a2 a3 a4 a5 a6 a7 (ix2 r j)
      = ((Yf r j - meanOf Yf j) * Ideal.rsqrt (varOf Yf j + Spec.eps)) * a4 (ix1 j) + a5 (ix1 j) := by
  unfold val_v44
  rw [addf_apply]
  unfold val_v41
  rw [mulf_apply]
  unfold val_v38
  rw [mulf_apply, v32_apply a0 a1 a2 a3 a6 a7 Yf hY]
  unfold val_v37 val_v36 val_v40 val_v39 val_v43 val_v42
  rw [rowsVec_apply, rowsVec_apply, rowsVec_apply, v35_apply a0 a1 a2 a3 a6 a7 Yf hY hpos]

/-- %48, the result, at (n, d, t, v): the normalisation at row n·300 + t, column v·64 + d. -/
theorem v48_apply (hpos : (0 : EReal) < Spec.n19200) (n : Fin 64) (d : Fin 64) (t : Fin 300) (v : Fin 25) :
    val_v48 (F := Ideal) a0 a1 a2 a3 a4 a5 a6 a7 (ix4 n d t v) = outOf Yf a4 a5 a0 (Spec.rowOf n t) (Spec.colOf v d) := by
  unfold val_v48
  rw [maximumf_apply]
  unfold val_v47
  rw [addf_apply]
  unfold val_v46 val_v45
  rw [unflat_apply, v44_apply a0 a1 a2 a3 a4 a5 a6 a7 Yf hY hpos]
  unfold val_call1_v0
  rw [broadcastInDim_scalar_apply, constant_apply, Ideal.ofBits_zero_f32]
  unfold outOf
  rw [Xf_rowOf_colOf]

/-- The reference's result, given the activations. -/
theorem resTerm_of_Y (hpos : (0 : EReal) < Spec.n19200) :
    resTerm (F := Ideal) a0 a1 a2 a3 a4 a5 a6 a7
      = fun i => outOf Yf a4 a5 a0 (Spec.rowOf (i 0) (i 2)) (Spec.colOf (i 3) (i 1)) := by
  funext i
  obtain ⟨n, d, t, v, rfl⟩ : ∃ (n : Fin 64) (d : Fin 64) (t : Fin 300) (v : Fin 25), i = ix4 n d t v :=
    ⟨i 0, i 1, i 2, i 3, eq_ix4 i⟩
  unfold resTerm
  exact v48_apply a0 a1 a2 a3 a4 a5 a6 a7 Yf hY hpos n d t v

end Stages

/-- 19200 is positive. -/
theorem n19200_pos : (0 : EReal) < Spec.n19200 := by
  rw [Cert.Consts.n19200_eq]
  exact EReal.coe_pos.mpr (by norm_num)

/-- With the activations the specification's Y, the reference's result is the specification's. -/
theorem resTerm_of_val_v25 (a0 : FVec Ideal S64x64x300x25 .f32) (a1 : FVec Ideal S1x25x64 .f32) (a2 : FVec Ideal S64x64 .f32)
    (a3 : FVec Ideal S1x1x64 .f32) (a4 : FVec Ideal S1600 .f32) (a5 : FVec Ideal S1600 .f32) (a6 : IVec S1600 32) (a7 : IVec S1600 32)
    (σi σo : Fin 1600 → Fin 1600)
    (hY : val_v25 (F := Ideal) a0 a1 a2 a3 a6 a7 = fun i => Spec.Y a0 a1 a2 a3 σi σo (i 0) (i 1)) :
    resTerm (F := Ideal) a0 a1 a2 a3 a4 a5 a6 a7
      = fun i => Spec.result4 a0 a1 a2 a3 a4 a5 σi σo (i 0) (i 1) (i 2) (i 3) := by
  rw [resTerm_of_Y a0 a1 a2 a3 a4 a5 a6 a7 (Spec.Y a0 a1 a2 a3 σi σo) hY n19200_pos]
  rfl

end Cert.ReferenceIdeal.ValueB

end
-- ==== Proof.Ref.Value.lean ====
/-
  The reference's result read at an index is the specification's: the activations are the specification's Y (the two
  column gathers, the mask, the per-joint linear map and the bias), and from the activations on the reference
  normalises, scales, shifts, adds the input and clamps exactly as the specification does.
-/
import proofs.«428867_j23261542875775_2_alg».proof.Proof.Ref.ValueA
import proofs.«428867_j23261542875775_2_alg».proof.Proof.Ref.ValueB

noncomputable section

namespace Cert.ReferenceIdeal.Hand

open Idealize.ShloMosaic Idealize.ShloMosaic.ValueIdx Cert.ReferenceIdeal

/-- With both index vectors' words in [0, 1600), the reference's result at (n, d, t, v) is the specification's. -/
theorem resTerm_eq (a0 : FVec Ideal S64x64x300x25 .f32) (a1 : FVec Ideal S1x25x64 .f32) (a2 : FVec Ideal S64x64 .f32)
    (a3 : FVec Ideal S1x1x64 .f32) (a4 : FVec Ideal S1600 .f32) (a5 : FVec Ideal S1600 .f32) (a6 : IVec S1600 32) (a7 : IVec S1600 32)
    (h6 : ∀ k : Fin 1600, (a6 (ix1 k)).toNat < 1600) (h7 : ∀ k : Fin 1600, (a7 (ix1 k)).toNat < 1600) :
    resTerm (F := Ideal) a0 a1 a2 a3 a4 a5 a6 a7
      = fun i => Spec.result4 a0 a1 a2 a3 a4 a5 (Spec.sig a6 h6) (Spec.sig a7 h7) (i 0) (i 1) (i 2) (i 3) :=
  ValueB.resTerm_of_val_v25 a0 a1 a2 a3 a4 a5 a6 a7 (Spec.sig a6 h6) (Spec.sig a7 h7) (val_v25_eq a0 a1 a2 a3 a6 a7 h6 h7)

end Cert.ReferenceIdeal.Hand

end
-- ==== Proof.Algebra.lean ====
/-
  The kernel's reading and the reference's reading of the result agree whenever every float input is finite.

  Plan. Finite extended reals are real numbers, and the embedding of the reals respects +, −, · and finite sums,
  so every quantity of `Spec` up to the variance is the image of a real number (the section "Real models").
  Over the reals:

  * `Yk = Y`. In ∑_{k'} X r k' · ∑_{k : σi k = k'} Mb k (σo j) put X inside the inner sum, where k' = σi k; the
    double sum over the fibres of σi is the single sum ∑_k X r (σi k) · Mb k (σo j). Split k = (v, c): the identity
    factor of Mb kills every joint v except the joint of σo j, and what is left is that joint's 64-term sum, which is
    the reference's linear layer.
  * The kernel's column sums run over 2 cores × 15 tiles × 640 rows, which enumerate the 19200 rows once each: a
    regrouping of a finite sum, valid in any commutative monoid (so stated on the extended reals directly).
  * With S = ∑ y, Q = ∑ y², μ = S/n (n = 19200 rows): ∑ (y − μ)² = Q − 2μS + nμ², so Q/n − μ² = (1/n) ∑ (y − μ)²,
    which is ≥ 0; the kernel's clamp of the variance at 0 is therefore the identity. Division by the real 19200 is
    multiplication by 1/19200.

  The two results are then the same expression in equal quantities; the reciprocal square root, the scale, the shift
  and the final clamp are applied alike on both sides and are never opened (so the scale and shift need not be finite).
-/
import proofs.«428867_j23261542875775_2_alg».proof.Proof.Spec
import proofs.«428867_j23261542875775_2_alg».proof.Proof.Consts
import Mathlib.Algebra.BigOperators.Fin
import Mathlib.Algebra.BigOperators.Group.Finset.Basic
import Mathlib.Algebra.BigOperators.Group.Finset.Piecewise
import Mathlib.Algebra.BigOperators.Ring.Finset
import Mathlib.Algebra.Order.BigOperators.Group.Finset
import Mathlib.Data.Fintype.BigOperators
import Mathlib.Data.EReal.Operations
import Mathlib.Tactic.Ring
import Mathlib.Tactic.NormNum

noncomputable section

namespace Cert.Algebra

open Idealize.ShloMosaic Idealize.ShloMosaic.ValueIdx Cert.Spec

/-! ## The reals inside the extended reals -/

/-- The embedding of the reals is additive, so it commutes with finite sums. -/
theorem coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- An array with no infinite entry is an array of reals. -/
theorem exists_real {ι : Type} (a : ι → EReal) (h : ∀ i, a i ≠ ⊥ ∧ a i ≠ ⊤) :
    ∃ r : ι → ℝ, a = fun i => (r i : EReal) :=
  ⟨fun i => (a i).toReal, funext fun i => (EReal.coe_toReal (h i).2 (h i).1).symm⟩

/-- A real array read as an array of extended reals. -/
abbrev up {ι : Type} (a : ι → ℝ) : ι → EReal := fun i => (a i : EReal)

/-- Division by the literal 19200 is multiplication by 1/19200. -/
theorem div_n_coe (s : ℝ) : Ideal.div (s : EReal) n19200 = ((s * (1 / 19200) : ℝ) : EReal) := by
  rw [Cert.Consts.n19200_eq, Ideal.div_coe (by norm_num : (19200 : ℝ) ≠ 0), ← EReal.coe_mul]

/-! ## Rows as (core, tile, row in tile); columns as (joint, channel) -/

/-- Row ((c·15 + i)·640 + ρ) is row ρ of tile i of core c. -/
def rowSplit : Fin 2 × Fin 15 × Fin 640 ≃ Fin 19200 where
  toFun p := ⟨(p.1.val * 15 + p.2.1.val) * 640 + p.2.2.val, by
    have := p.1.isLt; have := p.2.1.isLt; have := p.2.2.isLt; omega⟩
  invFun r := (⟨r.val / 9600, by have := r.isLt; omega⟩, ⟨r.val / 640 % 15, Nat.mod_lt _ (by decide)⟩,
    ⟨r.val % 640, Nat.mod_lt _ (by decide)⟩)
  left_inv := by
    rintro ⟨c, i, ρ⟩
    have := c.isLt; have := i.isLt; have := ρ.isLt
    refine Prod.ext (Fin.ext ?_) (Prod.ext (Fin.ext ?_) (Fin.ext ?_)) <;> dsimp only <;> omega
  right_inv := by
    intro r
    have := r.isLt
    refine Fin.ext ?_
    dsimp only
    omega

/-- A core's sum is the double sum over its tiles and their rows. -/
theorem coreSum_eq (g : Fin 19200 → EReal) (c : Fin 2) :
    coreSum g c = ∑ i : Fin 15, ∑ ρ : Fin 640, g (rowSplit (c, i, ρ)) := rfl

/-- The two cores' sums together are the sum over all rows. -/
theorem sum_rows (g : Fin 19200 → EReal) : coreSum g 0 + coreSum g 1 = ∑ r, g r := by
  rw [← Equiv.sum_comp rowSplit g, Fintype.sum_prod_type, Fin.sum_univ_two, coreSum_eq, coreSum_eq,
    Fintype.sum_prod_type, Fintype.sum_prod_type]

/-- Column v·64 + c is channel c of joint v. -/
def colSplit : Fin 25 × Fin 64 ≃ Fin 1600 where
  toFun p := colOf p.1 p.2
  invFun k := (colV k, colC k)
  left_inv := by
    rintro ⟨v, c⟩
    have := v.isLt; have := c.isLt
    refine Prod.ext (Fin.ext ?_) (Fin.ext ?_) <;> simp only [colV, colC, colOf] <;> omega
  right_inv := by
    intro k
    have := k.isLt
    refine Fin.ext ?_
    simp only [colV, colC, colOf]
    omega

theorem colV_colOf (v : Fin 25) (c : Fin 64) : colV (colOf v c) = v :=
  congrArg Prod.fst (colSplit.left_inv (v, c))
theorem colC_colOf (v : Fin 25) (c : Fin 64) : colC (colOf v c) = c :=
  congrArg Prod.snd (colSplit.left_inv (v, c))

/-! ## Real models -/

section
variable (x : SX.Idx → ℝ) (f : SM.Idx → ℝ) (w : SW.Idx → ℝ) (b : SB.Idx → ℝ) (σi σo : Fin 1600 → Fin 1600)

def XfR (r : Fin 19200) (k : Fin 1600) : ℝ := x (ix4 (rowN r) (colC k) (rowT r) (colV k))
def MkR (v : Fin 25) (c : Fin 64) : ℝ := Real.tanh (f (ix3 0 v c)) + 1
def ZR (r : Fin 19200) (v : Fin 25) (d : Fin 64) : ℝ :=
  (∑ c : Fin 64, (XfR x r (σi (colOf v c)) * MkR f v c) * w (ix2 c d)) + b (ix3 0 0 d)
def YR (r : Fin 19200) (j : Fin 1600) : ℝ := ZR x f w b σi r (colV (σo j)) (colC (σo j))
def eyeR (v v' : Fin 25) : ℝ := if v = v' then 1 else 0
def MblockR (k j' : Fin 1600) : ℝ :=
  (MkR f (colV k) (colC k) * w (ix2 (colC k) (colC j'))) * eyeR (colV k) (colV j')
def TmR (k' j : Fin 1600) : ℝ :=
  ∑ k ∈ Finset.univ.filter (fun k : Fin 1600 => σi k = k'), MblockR f w k (σo j)
def YkR (r : Fin 19200) (j : Fin 1600) : ℝ :=
  (∑ k' : Fin 1600, XfR x r k' * TmR f w σi σo k' j) + b (ix3 0 0 (colC (σo j)))

/-! Each quantity of the specification, at real arrays, is the image of its real model. -/

theorem Xf_up (r : Fin 19200) (k : Fin 1600) : Xf (up x) r k = (XfR x r k : EReal) := rfl

theorem Mk_up (v : Fin 25) (c : Fin 64) : Mk (up f) v c = (MkR f v c : EReal) := by
  show Ideal.tanh ((f (ix3 0 v c) : ℝ) : EReal) + one = ((Real.tanh (f (ix3 0 v c)) + 1 : ℝ) : EReal)
  rw [Cert.Consts.one_eq, Ideal.tanh_coe, EReal.coe_add, EReal.coe_one]

theorem Z_up (r : Fin 19200) (v : Fin 25) (d : Fin 64) :
    Z (up x) (up f) (up w) (up b) σi r v d = (ZR x f w b σi r v d : EReal) := by
  unfold Z ZR
  rw [EReal.coe_add, coe_sum]
  refine congrArg₂ (· + ·) (Finset.sum_congr rfl fun c _ => ?_) rfl
  rw [Xf_up, Mk_up, EReal.coe_mul, EReal.coe_mul]

theorem Y_up (r : Fin 19200) (j : Fin 1600) :
    Y (up x) (up f) (up w) (up b) σi σo r j = (YR x f w b σi σo r j : EReal) :=
  Z_up x f w b σi r (colV (σo j)) (colC (σo j))

theorem eye_up (v v' : Fin 25) : eye v v' = (eyeR v v' : EReal) := by
  unfold eye eyeR
  split_ifs
  · exact EReal.coe_one.symm
  · exact EReal.coe_zero.symm

theorem Mblock_up (k j' : Fin 1600) : Mblock (up f) (up w) k j' = (MblockR f w k j' : EReal) := by
  unfold Mblock MblockR
  rw [Mk_up, eye_up, EReal.coe_mul, EReal.coe_mul]

theorem Tm_up (k' j : Fin 1600) : Tm (up f) (up w) σi σo k' j = (TmR f w σi σo k' j : EReal) := by
  unfold Tm TmR
  rw [coe_sum]
  exact Finset.sum_congr rfl fun k _ => Mblock_up f w k (σo j)

theorem Yk_up (r : Fin 19200) (j : Fin 1600) :
    Yk (up x) (up f) (up w) (up b) σi σo r j = (YkR x f w b σi σo r j : EReal) := by
  unfold Yk YkR biasK
  rw [EReal.coe_add, coe_sum]
  refine congrArg₂ (· + ·) (Finset.sum_congr rfl fun k' _ => ?_) rfl
  rw [Xf_up, Tm_up, EReal.coe_mul]

/-! ## The folded matrix is the two gathers, the mask and the per-joint linear maps -/

/-- Over the reals the kernel's activations are the reference's. -/
theorem YkR_eq_YR (r : Fin 19200) (j : Fin 1600) : YkR x f w b σi σo r j = YR x f w b σi σo r j := by
  unfold YkR YR ZR
  congr 1
  -- X r k' goes inside the sum over the fibre of σi at k', where k' = σi k
  have h1 : ∀ k' : Fin 1600, XfR x r k' * TmR f w σi σo k' j
      = ∑ k ∈ Finset.univ.filter (fun k : Fin 1600 => σi k = k'), XfR x r (σi k) * MblockR f w k (σo j) := by
    intro k'
    unfold TmR
    rw [Finset.mul_sum]
    exact Finset.sum_congr rfl fun k hk => by rw [(Finset.mem_filter.mp hk).2]
  -- the sum over all fibres is the sum over all columns; then columns are (joint, channel)
  rw [Finset.sum_congr rfl fun k' _ => h1 k', Finset.sum_fiberwise, ← Equiv.sum_comp colSplit,
    Fintype.sum_prod_type]
  -- the identity factor leaves the joint of σo j only
  have h2 : ∀ v : Fin 25,
      (∑ c : Fin 64, XfR x r (σi (colSplit (v, c))) * MblockR f w (colSplit (v, c)) (σo j))
        = if v = colV (σo j) then
            ∑ c : Fin 64, (XfR x r (σi (colOf v c)) * MkR f v c) * w (ix2 c (colC (σo j)))
          else 0 := by
    intro v
    split_ifs with h
    · refine Finset.sum_congr rfl fun c _ => ?_
      show XfR x r (σi (colOf v c)) * MblockR f w (colOf v c) (σo j) = _
      unfold MblockR eyeR
      rw [colV_colOf, colC_colOf, if_pos h, mul_one, mul_assoc]
    · refine Finset.sum_eq_zero fun c _ => ?_
      show XfR x r (σi (colOf v c)) * MblockR f w (colOf v c) (σo j) = 0
      unfold MblockR eyeR
      rw [colV_colOf, if_neg h, mul_zero, mul_zero]
  rw [Finset.sum_congr rfl fun v _ => h2 v, Finset.sum_ite_eq', if_pos (Finset.mem_univ _)]

/-- Hence the kernel's activations are the reference's. -/
theorem Yk_eq_Y : Yk (up x) (up f) (up w) (up b) σi σo = Y (up x) (up f) (up w) (up b) σi σo := by
  funext r j
  rw [Yk_up, Y_up, YkR_eq_YR]

/-! ## Mean and variance -/

/-- E[y²] − E[y]² = E[(y − E y)²] over the 19200 rows. -/
theorem var_identity (y : Fin 19200 → ℝ) (S μ : ℝ) (hS : ∑ r, y r = S) (hμ : μ = S * (1 / 19200)) :
    (∑ r, y r * y r) * (1 / 19200) - μ * μ = (∑ r, (y r - μ) * (y r - μ)) * (1 / 19200) := by
  have h : ∑ r, (y r - μ) * (y r - μ) = (∑ r, y r * y r) - 2 * μ * S + 19200 * (μ * μ) := by
    have h0 : ∀ r, (y r - μ) * (y r - μ) = y r * y r - 2 * μ * y r + μ * μ := fun r => by ring
    rw [Finset.sum_congr rfl fun r _ => h0 r, Finset.sum_add_distrib, Finset.sum_sub_distrib,
      ← Finset.mul_sum, hS, Finset.sum_const, Finset.card_univ, Fintype.card_fin, nsmul_eq_mul]
    norm_num
  rw [h, hμ]
  ring

theorem mean_up (j : Fin 1600) :
    mean (up x) (up f) (up w) (up b) σi σo j
      = (((∑ r, YR x f w b σi σo r j) * (1 / 19200) : ℝ) : EReal) := by
  unfold mean
  rw [Finset.sum_congr rfl fun r _ => Y_up x f w b σi σo r j, ← coe_sum, div_n_coe]

theorem var_up (j : Fin 1600) :
    var (up x) (up f) (up w) (up b) σi σo j
      = (((∑ r, (YR x f w b σi σo r j - (∑ r, YR x f w b σi σo r j) * (1 / 19200))
              * (YR x f w b σi σo r j - (∑ r, YR x f w b σi σo r j) * (1 / 19200))) * (1 / 19200) : ℝ) : EReal) := by
  unfold var
  have h : ∀ r, (Y (up x) (up f) (up w) (up b) σi σo r j - mean (up x) (up f) (up w) (up b) σi σo j)
        * (Y (up x) (up f) (up w) (up b) σi σo r j - mean (up x) (up f) (up w) (up b) σi σo j)
      = (((YR x f w b σi σo r j - (∑ r, YR x f w b σi σo r j) * (1 / 19200))
          * (YR x f w b σi σo r j - (∑ r, YR x f w b σi σo r j) * (1 / 19200)) : ℝ) : EReal) := fun r => by
    rw [Y_up, mean_up, ← EReal.coe_sub, ← EReal.coe_mul]
  rw [Finset.sum_congr rfl fun r _ => h r, ← coe_sum, div_n_coe]

/-- The kernel's mean, from the two cores' column sums, is the reference's. -/
theorem meanK_eq (j : Fin 1600) :
    meanK (up x) (up f) (up w) (up b) σi σo j = mean (up x) (up f) (up w) (up b) σi σo j := by
  unfold meanK mean sumK
  rw [sum_rows, Yk_eq_Y]

/-- The kernel's clamped E[y²] − E[y]² is the reference's E[(y − E y)²]. -/
theorem varK_eq (j : Fin 1600) :
    varK (up x) (up f) (up w) (up b) σi σo j = var (up x) (up f) (up w) (up b) σi σo j := by
  unfold varK sqK
  rw [sum_rows, meanK_eq, Yk_eq_Y, var_up, mean_up]
  have h : ∀ r, Y (up x) (up f) (up w) (up b) σi σo r j * Y (up x) (up f) (up w) (up b) σi σo r j
      = ((YR x f w b σi σo r j * YR x f w b σi σo r j : ℝ) : EReal) := fun r => by
    rw [Y_up, ← EReal.coe_mul]
  rw [Finset.sum_congr rfl fun r _ => h r, ← coe_sum, div_n_coe, ← EReal.coe_mul, ← EReal.coe_sub,
    var_identity (fun r => YR x f w b σi σo r j) _ _ rfl rfl]
  exact max_eq_left (EReal.coe_nonneg.mpr
    (mul_nonneg (Finset.sum_nonneg fun r _ => mul_self_nonneg _) (by norm_num)))

/-! ## The result -/

theorem outK_eq_out (gam bet : SV.Idx → EReal) (r : Fin 19200) (j : Fin 1600) :
    outK (up x) (up f) (up w) (up b) gam bet σi σo r j = out (up x) (up f) (up w) (up b) gam bet σi σo r j := by
  unfold outK out invK
  rw [Yk_eq_Y, meanK_eq, varK_eq]

end

/-- On finite inputs the kernel's reading of the result is the reference's. -/
theorem resultK4_eq_result4 (x0 : SX.Idx → EReal) (fm : SM.Idx → EReal) (W : SW.Idx → EReal) (b : SB.Idx → EReal)
    (gam bet : SV.Idx → EReal) (σi σo : Fin 1600 → Fin 1600)
    (hx : ∀ i, x0 i ≠ ⊥ ∧ x0 i ≠ ⊤) (hm : ∀ i, fm i ≠ ⊥ ∧ fm i ≠ ⊤) (hW : ∀ i, W i ≠ ⊥ ∧ W i ≠ ⊤)
    (hb : ∀ i, b i ≠ ⊥ ∧ b i ≠ ⊤) (hg : ∀ i, gam i ≠ ⊥ ∧ gam i ≠ ⊤) (hbe : ∀ i, bet i ≠ ⊥ ∧ bet i ≠ ⊤)
    (n : Fin 64) (d : Fin 64) (t : Fin 300) (v : Fin 25) :
    Spec.resultK4 x0 fm W b gam bet σi σo n d t v = Spec.result4 x0 fm W b gam bet σi σo n d t v := by
  obtain ⟨x, rfl⟩ := exists_real x0 hx
  obtain ⟨f, rfl⟩ := exists_real fm hm
  obtain ⟨w, rfl⟩ := exists_real W hW
  obtain ⟨b', rfl⟩ := exists_real b hb
  exact outK_eq_out x f w b' σi σo gam bet (rowOf n t) (colOf v d)

end Cert.Algebra

end
-- ==== Proof.Pre.lean ====
/-
  The precondition read back. The printed predicate is a conjunction of eight tests, each a reduction by `and` over a
  whole array: for each of the six real inputs, |x| < +∞ at every entry; for each of the two index vectors,
  0 ≤ w and w < 1600 at every entry, the words compared as signed integers. Read at the extended reals, |x| is
  max x (-x), so |x| < ⊤ says that x is neither ⊤ nor ⊥; a 32-bit word that is nonnegative as a signed integer has
  its top bit clear, reads the same signed and unsigned, and is then below 1600 as a natural number.
-/
import proofs.«428867_j23261542875775_2_alg».proof.Pre_finite_inputs
import proofs.«428867_j23261542875775_2_alg».proof.Proof.Gen.Pre_finite_inputs
import proofs.«428867_j23261542875775_2_alg».proof.Proof.Consts
import Idealize.ShloMosaic.Lib.ReduceAll
import Idealize.ShloMosaic.Lib.StableHlo.Predicate
import Idealize.ShloMosaic.Lib.ValueIdx
import Idealize.ShloMosaic.PureOps.Ideal.Laws

namespace Cert.PreFacts

open Idealize.ShloMosaic Idealize.ShloMosaic.ValueIdx Cert.Pre_finite_inputs

/-- The scalar shape has one index. -/
local instance scalarIdxSubsingleton : Subsingleton S_.Idx := ⟨fun a b => funext fun d => d.elim0⟩

/-! ## One entry -/

/-- On the extended reals, max x (-x) < ⊤ exactly excludes the two infinities. -/
theorem ne_bot_top_of_abs_lt_top (x : EReal) (h : max x (-x) < ⊤) : x ≠ ⊥ ∧ x ≠ ⊤ := by
  obtain ⟨h1, h2⟩ := max_lt_iff.1 h
  refine ⟨?_, ne_of_lt h1⟩
  rintro rfl
  exact absurd h2 (by simp)

/-- The test |x| < +∞ read at one extended real, given that the pattern of +∞ denotes ⊤. -/
theorem finite_of_test (hinf : Ideal.ofBits .f32 0x7F800000#32 = (⊤ : EReal)) (x : Ideal .f32)
    (h : FloatOps.cmpf .olt (FloatOps.hostAbsf x) (FloatOps.ofBits (F := Ideal) .f32 0x7F800000#32) = 1#1) :
    x ≠ ⊥ ∧ x ≠ ⊤ := by
  have h' : Ideal.cmp .olt (max (x : EReal) (-(x : EReal))) (Ideal.ofBits .f32 0x7F800000#32) = 1#1 := h
  rw [hinf] at h'
  unfold Ideal.cmp at h'
  exact ne_bot_top_of_abs_lt_top x (by simpa [StableHlo.Predicate.ofBool_eq_one_iff] using h')

/-- A word that is nonnegative and below 1600 as a signed integer is below 1600 as a natural number. -/
theorem toNat_lt_of_tests (a : BitVec 32) (h0 : IntOp.cmpi .sge a 0#32 = 1#1) (h1 : IntOp.cmpi .slt a 1600#32 = 1#1) :
    a.toNat < 1600 := by
  have e0 : (0#32 : BitVec 32).toInt ≤ a.toInt := IntOp.cmpi_sge.1 h0
  have e1 : a.toInt < (1600#32 : BitVec 32).toInt := IntOp.cmpi_slt.1 h1
  rw [show (0#32 : BitVec 32).toInt = 0 from by decide] at e0
  rw [show (1600#32 : BitVec 32).toInt = 1600 from by decide] at e1
  have hs : 2 * a.toNat < 2 ^ 32 := BitVec.toInt_pos_iff.1 e0
  rw [BitVec.toInt_eq_toNat_of_lt hs] at e1
  omega

/-! ## One array -/

/-- A whole-array reduction by `and` of the test |x| < +∞ that came out 1: every entry is a real number. -/
theorem all_finite (hinf : Ideal.ofBits .f32 0x7F800000#32 = (⊤ : EReal)) {s : Shape} {axes : List (Fin s.rank)}
    (hb : S_.BroadcastsInDim s (![] : Fin 0 → Fin s.rank)) (hr : s.ReducesTo axes S_) (h0 : 0 < S_.numel)
    (x : FVec Ideal s .f32) (init : IVec S_ 1)
    (e : Host.reduce IntOp.andi (cmpf .olt (Host.absf x) (broadcastInDim s ![] hb (constant S_ .f32 0x7F800000#32))) init hr h0 ix0
      = 1#1) (i : s.Idx) : x i ≠ ⊥ ∧ x i ≠ ⊤ :=
  finite_of_test hinf (x i) (Host.reduce_andi_all _ init hr h0 ix0 e i)

/-- A whole-vector reduction by `and` of the two signed range tests that came out 1: every word is below 1600. -/
theorem all_in_range (hb : S_.BroadcastsInDim S1600 (![] : Fin 0 → Fin S1600.rank)) (hr : S1600.ReducesTo [0] S_)
    (h0 : 0 < S_.numel) (a : IVec S1600 32) (init : IVec S_ 1)
    (e : Host.reduce IntOp.andi
        (andi (cmpi .sge a (broadcastInDim S1600 ![] hb (constantI S_ 32 0#32)))
          (cmpi .slt a (broadcastInDim S1600 ![] hb (constantI S_ 32 1600#32)))) init hr h0 ix0 = 1#1)
    (k : Fin 1600) : (a (ix1 k)).toNat < 1600 := by
  have hk := Host.reduce_andi_all _ init hr h0 ix0 e (ix1 k)
  have hk' : IntOp.andi (IntOp.cmpi .sge (a (ix1 k)) 0#32) (IntOp.cmpi .slt (a (ix1 k)) 1600#32) = 1#1 := hk
  obtain ⟨h1, h2⟩ := IntOp.andi_eq_one.1 hk'
  exact toNat_lt_of_tests _ h1 h2

/-! ## The conjunction -/

/-- The conjunction of two scalar truth values read at the scalar index. -/
theorem andi_apply_eq_one (x y : IVec S_ 1) (j : S_.Idx) : andi x y j = 1#1 ↔ x j = 1#1 ∧ y j = 1#1 :=
  IntOp.andi_eq_one

/-- The precondition decoded, given that the pattern of +∞ denotes ⊤. -/
theorem decode_of (hinf : Ideal.ofBits .f32 0x7F800000#32 = (⊤ : EReal))
    (a0 : FVec Ideal S64x64x300x25 .f32) (a1 : FVec Ideal S1x25x64 .f32) (a2 : FVec Ideal S64x64 .f32)
    (a3 : FVec Ideal S1x1x64 .f32) (a4 : FVec Ideal S1600 .f32) (a5 : FVec Ideal S1600 .f32)
    (a6 : IVec S1600 32) (a7 : IVec S1600 32)
    (h : Cert.Pre_finite_inputs.fn (F := Ideal) a0 a1 a2 a3 a4 a5 a6 a7 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ (∀ i, a3 i ≠ ⊥ ∧ a3 i ≠ ⊤)
      ∧ (∀ i, a4 i ≠ ⊥ ∧ a4 i ≠ ⊤) ∧ (∀ i, a5 i ≠ ⊥ ∧ a5 i ≠ ⊤)
      ∧ (∀ k : Fin 1600, (a6 (ix1 k)).toNat < 1600) ∧ (∀ k : Fin 1600, (a7 (ix1 k)).toNat < 1600) := by
  have h' := congrFun h ix0
  dsimp only [fn, fn_part1, fn_part2] at h'
  simp only [andi_apply_eq_one] at h'
  obtain ⟨⟨⟨⟨⟨⟨⟨e0, e1⟩, e2⟩, e3⟩, e4⟩, e5⟩, e6⟩, e7⟩ := h'
  exact ⟨all_finite hinf _ _ _ a0 _ e0, all_finite hinf _ _ _ a1 _ e1, all_finite hinf _ _ _ a2 _ e2,
    all_finite hinf _ _ _ a3 _ e3, all_finite hinf _ _ _ a4 _ e4, all_finite hinf _ _ _ a5 _ e5,
    all_in_range _ _ _ a6 _ e6, all_in_range _ _ _ a7 _ e7⟩

/-- The precondition decoded: every real input is a real number at every entry, and every index word is below 1600. -/
theorem decode (a0 : FVec Ideal S64x64x300x25 .f32) (a1 : FVec Ideal S1x25x64 .f32) (a2 : FVec Ideal S64x64 .f32)
    (a3 : FVec Ideal S1x1x64 .f32) (a4 : FVec Ideal S1600 .f32) (a5 : FVec Ideal S1600 .f32)
    (a6 : IVec S1600 32) (a7 : IVec S1600 32)
    (h : Cert.Pre_finite_inputs.fn (F := Ideal) a0 a1 a2 a3 a4 a5 a6 a7 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ (∀ i, a3 i ≠ ⊥ ∧ a3 i ≠ ⊤)
      ∧ (∀ i, a4 i ≠ ⊥ ∧ a4 i ≠ ⊤) ∧ (∀ i, a5 i ≠ ⊥ ∧ a5 i ≠ ⊤)
      ∧ (∀ k : Fin 1600, (a6 (ix1 k)).toNat < 1600) ∧ (∀ k : Fin 1600, (a7 (ix1 k)).toNat < 1600) :=
  decode_of Cert.Consts.inf_eq a0 a1 a2 a3 a4 a5 a6 a7 h

end Cert.PreFacts
-- ==== Proof.lean ====
/-
  The certificate of the folded shift-GCN kernel against its reference.

  Frames: the word-level and the idealized kernel program run as seven segments — three host stretches that build the
  flattened input, the folded 1600×1600 matrix and the folded bias row; the first kernel (row tiles times the matrix, with
  running column sums kept in scratch across the fifteen tiles of each core); the host stretch that turns the per-core sums
  into column means and inverse deviations; the second kernel (normalise, scale, shift, add the input, clamp at 0); the final
  re-layout — and every argument array ends as launched. The reference is a straight host program.

  Value: at the ideal instance the kernel's result is `Spec.resultK4` of its arguments and the reference's is `Spec.result4`;
  for finite float inputs and index words in [0, 1600) the two are one function: the two column gathers, the mask and the
  per-joint linear map commute into one matrix product, the per-tile sums add up to the column sums, and
  E[y²] − E[y]² is the biased variance, which is nonnegative, so the kernel's clamp at 0 does nothing.
-/
import proofs.«428867_j23261542875775_2_alg».proof.Defs
import proofs.«428867_j23261542875775_2_alg».proof.Proof.Gen.Kernel
import proofs.«428867_j23261542875775_2_alg».proof.Proof.Gen.KernelIdeal
import proofs.«428867_j23261542875775_2_alg».proof.Proof.Gen.ReferenceIdeal
import proofs.«428867_j23261542875775_2_alg».proof.Proof.Gen.Pre_finite_inputs
import proofs.«428867_j23261542875775_2_alg».proof.Proof.K.Run
import proofs.«428867_j23261542875775_2_alg».proof.Proof.KI.Run
import proofs.«428867_j23261542875775_2_alg».proof.Proof.KI.KernelValue
import proofs.«428867_j23261542875775_2_alg».proof.Proof.Ref.Run
import proofs.«428867_j23261542875775_2_alg».proof.Proof.Ref.Value
import proofs.«428867_j23261542875775_2_alg».proof.Proof.Algebra
import proofs.«428867_j23261542875775_2_alg».proof.Proof.Pre

noncomputable section

namespace Cert.Proof

open Idealize.ShloMosaic Idealize.ShloMosaic.TcCoe Idealize.SL.Sem Idealize.ShloMosaic.ValueIdx

/-- The word-level kernel program runs and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the same result: `Spec.resultK4` on the kernel's side, `Spec.result4` on the
    reference's, equal for finite inputs and in-range index words. -/
theorem algebraic : Cert.algebraic_KernelIdeal_ReferenceIdeal := by
  intro m ρ m' ρ' hpre hagree
  have hd := fun c => Cert.PreFacts.decode _ _ _ _ _ _ _ _ (hpre c)
  refine ⟨fun c => Cert.KernelIdeal.Hand.W7 m ρ c (Proc.devRef .tc Cert.KernelIdeal.main_v73), ?_, ?_⟩
  · refine (θ_run Cert.KernelIdeal.defs _ _).mono (fun r h c => ?_) (Cert.KernelIdeal.Hand.run_all (F := Ideal) m ρ)
    have hm := fun (b : Ref Cert.KernelIdeal.sig .tc) (hb : ¬ (Proc.devRef .tc b : DevRef Cert.KernelIdeal.τ Cert.KernelIdeal.sig).isScoped) =>
      h c _ (Cert.KernelIdeal.Hand.mem_uc b hb)
    exact ⟨hm _ (by decide),
      (hm _ (by decide)).trans (Cert.KernelIdeal.Hand.W7_main_arg0 m ρ c), (hm _ (by decide)).trans (Cert.KernelIdeal.Hand.W7_main_arg1 m ρ c),
      (hm _ (by decide)).trans (Cert.KernelIdeal.Hand.W7_main_arg2 m ρ c), (hm _ (by decide)).trans (Cert.KernelIdeal.Hand.W7_main_arg3 m ρ c),
      (hm _ (by decide)).trans (Cert.KernelIdeal.Hand.W7_main_arg4 m ρ c), (hm _ (by decide)).trans (Cert.KernelIdeal.Hand.W7_main_arg5 m ρ c),
      (hm _ (by decide)).trans (Cert.KernelIdeal.Hand.W7_main_arg6 m ρ c), (hm _ (by decide)).trans (Cert.KernelIdeal.Hand.W7_main_arg7 m ρ c)⟩
  · refine (θ_run Cert.ReferenceIdeal.defs _ _).mono (fun r h c => ⟨(h c).1.trans ?_, (h c).2⟩)
      (Cert.ReferenceIdeal.Hand.run (F := Ideal) m' ρ')
    obtain ⟨hx, hfm, hW, hb, hg, hbe, h6, h7⟩ := hd c
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    rw [Cert.ReferenceIdeal.Hand.resTerm_eq _ _ _ _ _ _ _ _ h6 h7]
    refine Eq.trans ?_ (Cert.KernelIdeal.Hand.kernel_value m ρ c h6 h7).symm
    funext i
    exact (Cert.Algebra.resultK4_eq_result4 _ _ _ _ _ _ _ _ hx hfm hW hb hg hbe _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
